-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S5000x1 : Shape := ⟨2, ![5000, 1]⟩
abbrev S64x128 : Shape := ⟨2, ![64, 128]⟩
abbrev S5000x64 : Shape := ⟨2, ![5000, 64]⟩
abbrev S64 : Shape := ⟨1, ![64]⟩
abbrev S64x1 : Shape := ⟨2, ![64, 1]⟩
abbrev S1x1 : Shape := ⟨2, ![1, 1]⟩

abbrev nBuf : Space → Nat
  | .hbm => 104
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x1, .f32⟩
  | .hbm, ⟨83, _⟩ => ⟨S1x128, .f32⟩
  | .hbm, ⟨84, _⟩ => ⟨S100000x128, .f32⟩
  | .hbm, ⟨85, _⟩ => ⟨S100000x1, .i32⟩
  | .hbm, ⟨86, _⟩ => ⟨S64x128, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S64, .f32⟩
  | .hbm, ⟨91, _⟩ => ⟨S100000x1, .i32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S64x1, .f32⟩
  | .hbm, ⟨97, _⟩ => ⟨S64x128, .f32⟩
  | .hbm, ⟨98, _⟩ => ⟨S64x128, .f32⟩
  | .hbm, ⟨99, _⟩ => ⟨S64x1, .f32⟩
  | .hbm, ⟨100, _⟩ => ⟨S1x1, .f32⟩
  | .hbm, ⟨101, _⟩ => ⟨S64x1, .f32⟩
  | .hbm, ⟨102, _⟩ => ⟨S64x1, .f32⟩
  | .hbm, ⟨103, _⟩ => ⟨S64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .i32⟩
  | .local _ .vmem, ⟨31, _⟩ => ⟨S5000x1, .i32⟩
  | .local _ .vmem, ⟨32, _⟩ => ⟨S64x128, .f32⟩
  | .local _ .vmem, ⟨33, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S5000x64_d1_w32 : S5000x64.Iotas .tc 32 [1]
  broadcasts_S5000x1_S5000x64 : S5000x1.Broadcasts S5000x64
  natLt_1_32 : 1 < 32
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S5000x128_S64x128_0_0_1_1_n_n_wf : DotDims.WF S5000x64 S5000x128 S64x128 [0] [0] [1] [1] [] []
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S_, .f32⟩
  | 71 => ⟨S100000x128, .f32⟩
  | 72 => ⟨S100000x128, .i1⟩
  | 73 => ⟨S_, .f32⟩
  | 74 => ⟨S100000x128, .f32⟩
  | 75 => ⟨S100000x128, .f32⟩
  | 76 => ⟨S100000x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x1, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x1, .f32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S_, .f32⟩
  | 122 => ⟨S100000x128, .f32⟩
  | 123 => ⟨S100000x128, .i1⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S64x128, .f32⟩
  | 2 => ⟨S100000x1, .i32⟩
  | 3 => ⟨S64x128, .f32⟩
  | 4 => ⟨S_, .f32⟩
  | 5 => ⟨S100000, .f32⟩
  | 6 => ⟨S_, .f32⟩
  | 7 => ⟨S64, .f32⟩
  | 8 => ⟨S100000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x128, .f32⟩
  | 15 => ⟨S64x128, .f32⟩
  | 16 => ⟨S64x1, .f32⟩
  | 17 => ⟨S1x1, .f32⟩
  | 18 => ⟨S64x1, .f32⟩
  | 19 => ⟨S64x1, .f32⟩
  | 20 => ⟨S64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_call1_cst : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_19 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_21 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Reg0.lean ====
import proofs.«423604_j68796786147746_2_alg».proof.Proof.Gen.KernelIdeal.Launch
import proofs.«423604_j68796786147746_2_alg».proof.Proof.Gen.KernelIdeal.Skeleton
import proofs.«423604_j68796786147746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! # Region 0: a 5000-row tile of the node features times the whole weight matrix -/

/-- Window `w`'s block at grid point `t`, read off its array as the region finds it: rows `5000 t … 5000 t + 4999` of the
    node features (window 0) or of the product (window 2), the whole weight matrix (window 1). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's staging buffer holds the tile of the point: it is fetched at every point and the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point although it is fetched at the first point
    only: its block index never moves, and the body leaves the buffer as found, so the first point's fetch persists. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rTile0 : Rect S5000x128 := Rect.unit (s := S5000x128) ![0, 0] S5000x128.size inb_S5000x128_S5000x128_0_0
abbrev rWeight0 : Rect S128x128 := Rect.unit (s := S128x128) ![0, 0] S128x128.size inb_S128x128_S128x128_0_0

/-- What the body leaves in the product tile's buffer: its one whole store, of the tile's product with the weight matrix. -/
def out0_2 (x0 : Vec F S5000x128 .f32) (x1 : Vec F S128x128 .f32) : Vec F S5000x128 .f32 :=
  View.canon [⟨rTile0, k0_pay1 (View.ld x0 rTile0) (View.ld x1 rWeight0)⟩]

/-- The one store is the whole buffer, so it covers every index. -/
theorem cover0_2 (p0 : Vec F S5000x128 .f32) (y : S5000x128.Idx) :
    ∃ pc ∈ ([⟨rTile0, p0⟩] : List (View.Piece (Elt F) S5000x128 .f32)), y ∈ pc.1.set :=
  View.cover_of_tiled [⟨rTile0, p0⟩] S5000x128.size (by rfl) y

/-! ## The body's triple -/

set_option maxHeartbeats 1000000 in
/-- The kernel body on whole staging buffers: the two inputs at known contents and the output at anything. It reads the
    inputs, reads the output buffer without using what it read, and overwrites the output buffer whole with the product. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t` each input's
    buffer still at its block and the output's at the product of the two input blocks; the untouched rest as invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem Phi0 (c : Dev nD) (t : Fin (cfg0.N + 1)) : (dat0 V c).Φ t = Pipeline.ΦA spec0 c := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the kernel's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Reg1.lean ====
import proofs.«423604_j68796786147746_2_alg».proof.Proof.Gen.KernelIdeal.Launch
import proofs.«423604_j68796786147746_2_alg».proof.Proof.Gen.KernelIdeal.Skeleton
import proofs.«423604_j68796786147746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The layer's combination kernel on its 20 row tiles: five windows, a pointwise payload -/

/-! ## The windows' blocks -/

/-- Window `w`'s block at point `t`, read off its array as the region finds it (`V`): rows `5000 t … 5000 t + 4999`
    of a row-tiled array, the whole bias row for window 3. -/
def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer whole -/

abbrev r1_a : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0

/-! ## What the body leaves in the output window's buffer -/

/-- The output tile after the body, from the four input blocks: its one store, of the pointwise payload of the
    four whole loads. -/
def out1_4 (x0 : Vec F S5000x128 .f32) (x1 : Vec F S5000x128 .f32) (x2 : Vec F S5000x1 .f32) (x3 : Vec F S1x128 .f32) : Vec F S5000x128 .f32 :=
  View.canon [⟨r1_a, k1_pay1 (View.ld x0 r1_a) (View.ld x1 r1_a) (View.ld x2 r1_d) (View.ld x3 r1_b)⟩]

/-! ## What the body finds in each input window's buffer -/

/-- An input window's current staging buffer holds its block at every point, fetched there or not, for any proof data
    whose array is `V`'s and whose body leaves the block in place: where the pipeline does not fetch (the bias row
    after the first point) the block index has not moved, so the block kept from the point before is this point's. -/
theorem before1_0_of (V : (c : Dev nD) → (b : Ref sig .tc) → Buf (Elt F) ((c : Thread nD τ).loc b)) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (V : (c : Dev nD) → (b : Ref sig .tc) → Buf (Elt F) ((c : Thread nD τ).loc b)) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (V : (c : Dev nD) → (b : Ref sig .tc) → Buf (Elt F) ((c : Thread nD τ).loc b)) {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (V : (c : Dev nD) → (b : Ref sig .tc) → Buf (Elt F) ((c : Thread nD τ).loc b)) {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output tile -/

theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

/-! ## The body's triple -/

set_option maxHeartbeats 1000000 in
/-- The kernel body on whole staging memrefs, the four inputs' at read contents `x0 … x3` and the output's at anything,
    runs to the continuation holding the inputs' as they were and the output's at `out1_4` of the inputs: four whole
    loads, a load of the output buffer whose value nothing reads, and one whole store of the payload. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them; after the body at point `t`
    each input's buffer still at its block and the output's at `out1_4` of the four input blocks; the invariant is the
    untouched rest; nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (V : (c : Dev nD) → (b : Ref sig .tc) → Buf (Elt F) ((c : Thread nD τ).loc b)) (c : Dev nD) (w : Fin cfg1.W) : (dat1 V c).A w = V c (Pipeline.arrRef spec1 w) := by
  dsimp only [dat1]
theorem q_eq1 (V : (c : Dev nD) → (b : Ref sig .tc) → Buf (Elt F) ((c : Thread nD τ).loc b)) (c : Dev nD) (w : Fin cfg1.W) : (dat1 V c).q w = fullShare := by
  dsimp only [dat1]
theorem owed_eq1 (V : (c : Dev nD) → (b : Ref sig .tc) → Buf (Elt F) ((c : Thread nD τ).loc b)) (c : Dev nD) (t : Fin (cfg1.N + 1)) : (dat1 V c).owed t = 0 := by
  dsimp only [dat1]
theorem Phi1 (V : (c : Dev nD) → (b : Ref sig .tc) → Buf (Elt F) ((c : Thread nD τ).loc b)) (c : Dev nD) (t : Fin (cfg1.N + 1)) : (dat1 V c).Φ t = Pipeline.ΦA spec1 c := by
  dsimp only [dat1]

/-- What the body leaves, window by window. -/
theorem after1_0 (V : (c : Dev nD) → (b : Ref sig .tc) → Buf (Elt F) ((c : Thread nD τ).loc b)) (c : Dev nD) (t : Fin cfg1.N) : (dat1 V c).after 0 t = iblk1 V c 0 t := by dsimp only [dat1]
theorem after1_1 (V : (c : Dev nD) → (b : Ref sig .tc) → Buf (Elt F) ((c : Thread nD τ).loc b)) (c : Dev nD) (t : Fin cfg1.N) : (dat1 V c).after 1 t = iblk1 V c 1 t := by dsimp only [dat1]
theorem after1_2 (V : (c : Dev nD) → (b : Ref sig .tc) → Buf (Elt F) ((c : Thread nD τ).loc b)) (c : Dev nD) (t : Fin cfg1.N) : (dat1 V c).after 2 t = iblk1 V c 2 t := by dsimp only [dat1]
theorem after1_3 (V : (c : Dev nD) → (b : Ref sig .tc) → Buf (Elt F) ((c : Thread nD τ).loc b)) (c : Dev nD) (t : Fin cfg1.N) : (dat1 V c).after 3 t = iblk1 V c 3 t := by dsimp only [dat1]
theorem after1_4 (V : (c : Dev nD) → (b : Ref sig .tc) → Buf (Elt F) ((c : Thread nD τ).loc b)) (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (V : (c : Dev nD) → (b : Ref sig .tc) → Buf (Elt F) ((c : Thread nD τ).loc b)) (c : Dev nD) (t : Fin cfg1.N) (d) : (dat1 V c).before 0 t d = iblk1 V c 0 t :=
  before1_0_of V (dat1 V c) (A_eq1 V c 0) (after1_0 V c) t d
theorem before1_1 (V : (c : Dev nD) → (b : Ref sig .tc) → Buf (Elt F) ((c : Thread nD τ).loc b)) (c : Dev nD) (t : Fin cfg1.N) (d) : (dat1 V c).before 1 t d = iblk1 V c 1 t :=
  before1_1_of V (dat1 V c) (A_eq1 V c 1) (after1_1 V c) t d
theorem before1_2 (V : (c : Dev nD) → (b : Ref sig .tc) → Buf (Elt F) ((c : Thread nD τ).loc b)) (c : Dev nD) (t : Fin cfg1.N) (d) : (dat1 V c).before 2 t d = iblk1 V c 2 t :=
  before1_2_of V (dat1 V c) (A_eq1 V c 2) (after1_2 V c) t d
theorem before1_3 (V : (c : Dev nD) → (b : Ref sig .tc) → Buf (Elt F) ((c : Thread nD τ).loc b)) (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's debt pass through unread. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2.lean ====
import proofs.«423604_j68796786147746_2_alg».proof.Proof.Gen.KernelIdeal.Launch
import proofs.«423604_j68796786147746_2_alg».proof.Proof.Gen.KernelIdeal.Skeleton
import proofs.«423604_j68796786147746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! # Region 2: a 5000-row tile of the node features times the whole weight matrix -/

/-- Window `w`'s block at grid point `t`, read off its array as the region finds it: rows `5000 t … 5000 t + 4999` of the
    node features (window 0) or of the product (window 2), the whole weight matrix (window 1). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature tile's staging buffer holds the tile of the point: it is fetched at every point and the body only reads it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point although it is fetched at the first point
    only: its block index never moves, and the body leaves the buffer as found, so the first point's fetch persists. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev rTile2 : Rect S5000x128 := Rect.unit (s := S5000x128) ![0, 0] S5000x128.size inb_S5000x128_S5000x128_0_0
abbrev rWeight2 : Rect S128x128 := Rect.unit (s := S128x128) ![0, 0] S128x128.size inb_S128x128_S128x128_0_0

/-- What the body leaves in the product tile's buffer: its one whole store, of the tile's product with the weight matrix. -/
def out2_2 (x0 : Vec F S5000x128 .f32) (x1 : Vec F S128x128 .f32) : Vec F S5000x128 .f32 :=
  View.canon [⟨rTile2, k2_pay1 (View.ld x0 rTile2) (View.ld x1 rWeight2)⟩]

/-- The one store is the whole buffer, so it covers every index. -/
theorem cover2_2 (p0 : Vec F S5000x128 .f32) (y : S5000x128.Idx) :
    ∃ pc ∈ ([⟨rTile2, p0⟩] : List (View.Piece (Elt F) S5000x128 .f32)), y ∈ pc.1.set :=
  View.cover_of_tiled [⟨rTile2, p0⟩] S5000x128.size (by rfl) y

/-! ## The body's triple -/

set_option maxHeartbeats 1000000 in
/-- The kernel body on whole staging buffers: the two inputs at known contents and the output at anything. It reads the
    inputs, reads the output buffer without using what it read, and overwrites the output buffer whole with the product. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core `c`: the arrays as the region finds them; after the body at point `t` each input's
    buffer still at its block and the output's at the product of the two input blocks; the untouched rest as invariant;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem Phi2 (c : Dev nD) (t : Fin (cfg2.N + 1)) : (dat2 V c).Φ t = Pipeline.ΦA spec2 c := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the kernel's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Reg3.lean ====
import proofs.«423604_j68796786147746_2_alg».proof.Proof.Gen.KernelIdeal.Launch
import proofs.«423604_j68796786147746_2_alg».proof.Proof.Gen.KernelIdeal.Skeleton
import proofs.«423604_j68796786147746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The layer's combination kernel on its 20 row tiles: five windows, a pointwise payload -/

/-! ## The windows' blocks -/

/-- Window `w`'s block at point `t`, read off its array as the region finds it (`V`): rows `5000 t … 5000 t + 4999`
    of a row-tiled array, the whole bias row for window 3. -/
def iblk3 (V : (c : Dev nD) → (b : Ref sig .tc) → Buf (Elt F) ((c : Thread nD τ).loc b)) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each buffer whole -/

abbrev r3_a : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0

/-! ## What the body leaves in the output window's buffer -/

/-- The output tile after the body, from the four input blocks: its one store, of the pointwise payload of the
    four whole loads. -/
def out3_4 (x0 : Vec F S5000x128 .f32) (x1 : Vec F S5000x128 .f32) (x2 : Vec F S5000x1 .f32) (x3 : Vec F S1x128 .f32) : Vec F S5000x128 .f32 :=
  View.canon [⟨r3_a, k3_pay1 (View.ld x0 r3_a) (View.ld x1 r3_a) (View.ld x2 r3_d) (View.ld x3 r3_b)⟩]

/-! ## What the body finds in each input window's buffer -/

/-- An input window's current staging buffer holds its block at every point, fetched there or not, for any proof data
    whose array is `V`'s and whose body leaves the block in place: where the pipeline does not fetch (the bias row
    after the first point) the block index has not moved, so the block kept from the point before is this point's. -/
theorem before3_0_of (V : (c : Dev nD) → (b : Ref sig .tc) → Buf (Elt F) ((c : Thread nD τ).loc b)) {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (V : (c : Dev nD) → (b : Ref sig .tc) → Buf (Elt F) ((c : Thread nD τ).loc b)) {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (V : (c : Dev nD) → (b : Ref sig .tc) → Buf (Elt F) ((c : Thread nD τ).loc b)) {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of (V : (c : Dev nD) → (b : Ref sig .tc) → Buf (Elt F) ((c : Thread nD τ).loc b)) {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The one store covers the output tile -/

theorem cover3_4 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

/-! ## The body's triple -/

set_option maxHeartbeats 1000000 in
/-- The kernel body on whole staging memrefs, the four inputs' at read contents `x0 … x3` and the output's at anything,
    runs to the continuation holding the inputs' as they were and the output's at `out3_4` of the inputs: four whole
    loads, a load of the output buffer whose value nothing reads, and one whole store of the payload. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the pipeline on core `c`: the arrays as the region finds them; after the body at point `t`
    each input's buffer still at its block and the output's at `out3_4` of the four input blocks; the invariant is the
    untouched rest; nothing owed; full shares. -/
def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (V : (c : Dev nD) → (b : Ref sig .tc) → Buf (Elt F) ((c : Thread nD τ).loc b)) (c : Dev nD) (w : Fin cfg3.W) : (dat3 V c).A w = V c (Pipeline.arrRef spec3 w) := by
  dsimp only [dat3]
theorem q_eq3 (V : (c : Dev nD) → (b : Ref sig .tc) → Buf (Elt F) ((c : Thread nD τ).loc b)) (c : Dev nD) (w : Fin cfg3.W) : (dat3 V c).q w = fullShare := by
  dsimp only [dat3]
theorem owed_eq3 (V : (c : Dev nD) → (b : Ref sig .tc) → Buf (Elt F) ((c : Thread nD τ).loc b)) (c : Dev nD) (t : Fin (cfg3.N + 1)) : (dat3 V c).owed t = 0 := by
  dsimp only [dat3]
theorem Phi3 (V : (c : Dev nD) → (b : Ref sig .tc) → Buf (Elt F) ((c : Thread nD τ).loc b)) (c : Dev nD) (t : Fin (cfg3.N + 1)) : (dat3 V c).Φ t = Pipeline.ΦA spec3 c := by
  dsimp only [dat3]

/-- What the body leaves, window by window. -/
theorem after3_0 (V : (c : Dev nD) → (b : Ref sig .tc) → Buf (Elt F) ((c : Thread nD τ).loc b)) (c : Dev nD) (t : Fin cfg3.N) : (dat3 V c).after 0 t = iblk3 V c 0 t := by dsimp only [dat3]
theorem after3_1 (V : (c : Dev nD) → (b : Ref sig .tc) → Buf (Elt F) ((c : Thread nD τ).loc b)) (c : Dev nD) (t : Fin cfg3.N) : (dat3 V c).after 1 t = iblk3 V c 1 t := by dsimp only [dat3]
theorem after3_2 (V : (c : Dev nD) → (b : Ref sig .tc) → Buf (Elt F) ((c : Thread nD τ).loc b)) (c : Dev nD) (t : Fin cfg3.N) : (dat3 V c).after 2 t = iblk3 V c 2 t := by dsimp only [dat3]
theorem after3_3 (V : (c : Dev nD) → (b : Ref sig .tc) → Buf (Elt F) ((c : Thread nD τ).loc b)) (c : Dev nD) (t : Fin cfg3.N) : (dat3 V c).after 3 t = iblk3 V c 3 t := by dsimp only [dat3]
theorem after3_4 (V : (c : Dev nD) → (b : Ref sig .tc) → Buf (Elt F) ((c : Thread nD τ).loc b)) (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (V : (c : Dev nD) → (b : Ref sig .tc) → Buf (Elt F) ((c : Thread nD τ).loc b)) (c : Dev nD) (t : Fin cfg3.N) (d) : (dat3 V c).before 0 t d = iblk3 V c 0 t :=
  before3_0_of V (dat3 V c) (A_eq3 V c 0) (after3_0 V c) t d
theorem before3_1 (V : (c : Dev nD) → (b : Ref sig .tc) → Buf (Elt F) ((c : Thread nD τ).loc b)) (c : Dev nD) (t : Fin cfg3.N) (d) : (dat3 V c).before 1 t d = iblk3 V c 1 t :=
  before3_1_of V (dat3 V c) (A_eq3 V c 1) (after3_1 V c) t d
theorem before3_2 (V : (c : Dev nD) → (b : Ref sig .tc) → Buf (Elt F) ((c : Thread nD τ).loc b)) (c : Dev nD) (t : Fin cfg3.N) (d) : (dat3 V c).before 2 t d = iblk3 V c 2 t :=
  before3_2_of V (dat3 V c) (A_eq3 V c 2) (after3_2 V c) t d
theorem before3_3 (V : (c : Dev nD) → (b : Ref sig .tc) → Buf (Elt F) ((c : Thread nD τ).loc b)) (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (V : (c : Dev nD) → (b : Ref sig .tc) → Buf (Elt F) ((c : Thread nD τ).loc b)) (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (V : (c : Dev nD) → (b : Ref sig .tc) → Buf (Elt F) ((c : Thread nD τ).loc b)) (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's debt pass through unread. -/
theorem sound_body3 (V : (c : Dev nD) → (b : Ref sig .tc) → Buf (Elt F) ((c : Thread nD τ).loc b)) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (V : (c : Dev nD) → (b : Ref sig .tc) → Buf (Elt F) ((c : Thread nD τ).loc b)) (c : Dev nD) : BodyObligation (dat3 (F := F) V c) (defs₀ (F := F)) Variants.none () Set.univ := fun t => by
  rw [bigSep_W3, bigSep_W3]
  exact sound_body3 V c t

end Cert.KernelIdeal.Hand

end
-- ==== Proof.Reg4.lean ====
import proofs.«423604_j68796786147746_2_alg».proof.Proof.Gen.KernelIdeal.Launch
import proofs.«423604_j68796786147746_2_alg».proof.Proof.Gen.KernelIdeal.Skeleton
import proofs.«423604_j68796786147746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's control and its triples (no reference to the arrays) -/

/-! ## The body's two conditions -/

/-- The condition of the body's first `scf.if` (reset the accumulator), from the grid coordinate. -/
abbrev cond4_1 (i : grid4.Coords) : Prop := (Scalar.cmpi .ne (Scalar.extui (Scalar.cmpi .eq (BitVec.ofNat 32 (i 0).val) 0#32)) 0#32) = 1#1
/-- The condition of the body's second `scf.if` (copy the accumulator to the output), from the grid coordinate. -/
abbrev cond4_2 (i : grid4.Coords) : Prop := k4_cond2 i = 1#1

/-- The first holds at the first point only, -/
theorem hcond4_1 : ∀ t : Fin cfg4.N, cond4_1 (grid4.coords t) ↔ t.val = 0 :=
  (by decide +kernel : ∀ t : Fin grid4.N, cond4_1 (grid4.coords t) ↔ t.val = 0)
/-- the second at the last point only. -/
theorem hcond4_2 : ∀ t : Fin cfg4.N, cond4_2 (grid4.coords t) ↔ t.val = 19 :=
  (by decide +kernel : ∀ t : Fin grid4.N, cond4_2 (grid4.coords t) ↔ t.val = 19)

/-! ## The body's accesses: each buffer is read and written whole -/

/-- The offsets of every access are zero on both axes. -/
theorem zero_off4 : (![0, 0] : Fin 2 → ℕ) = fun _ => 0 := by
  funext a; fin_cases a <;> rfl

/-- A store of the whole accumulator, whatever came before it, leaves its payload. -/
theorem read_store4 {sp : Space} (v : View sig .tc sp S64x128 .f32) (f : v.ty.Contents (Elt F)) (p : Vec F S64x128 .f32)
    (L : List (View.Piece (Elt F) S64x128 .f32)) :
    v.read (Elt F) (v.writes (Elt F) f (⟨Rect.unit (s := S64x128) ![0, 0] S64x128.size inb_S64x128_S64x128_0_0, p⟩ :: L)) = p := by
  have hcov : ∀ y : S64x128.Idx, ∃ pc ∈ ((⟨Rect.unit (s := S64x128) ![0, 0] S64x128.size inb_S64x128_S64x128_0_0, p⟩ : View.Piece (Elt F) S64x128 .f32) :: L), y ∈ pc.1.set :=
    fun y => ⟨⟨Rect.unit (s := S64x128) ![0, 0] S64x128.size inb_S64x128_S64x128_0_0, p⟩, List.mem_cons_self,
      View.mem_set_unit_zero (S := S64x128) zero_off4 inb_S64x128_S64x128_0_0 y⟩
  rw [View.read_writes_eq_canon v f _ hcov]
  exact View.canon_cons_unit_zero (S := S64x128) zero_off4 inb_S64x128_S64x128_0_0 p L

/-! ## The body's triple, in its three control cases -/

set_option maxHeartbeats 1000000 in
/-- THE FIRST POINT. On whole buffers — the two inputs at known contents, the output's at contents handed back
    untouched, the accumulator at anything — the body resets the accumulator to zero and stores into it the tile's
    contribution added to that zero; the second condition fails, so the output's buffer is not touched. -/
theorem sound_kernel4_A (c : Dev nD) (E : Set ℕ) (i : grid4.Coords)
    (arg1 : Memref sig .tc .vmem S5000x128 .f32) (harg1 : arg1.IsWhole)
    (arg2 : Memref sig .tc .vmem S5000x1 .i32) (harg2 : arg2.IsWhole)
    (arg3 : Memref sig .tc .vmem S64x128 .f32) (harg3 : arg3.IsWhole)
    (arg4 : Memref sig .tc .vmem S64x128 .f32) (harg4 : arg4.IsWhole)
    (hc1 : cond4_1 i) (hc2 : ¬ cond4_2 i)
    (x0 : Vec F S5000x128 .f32) (x1 : Vec F S5000x1 .i32) (xi : Vec F S64x128 .f32) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi
            ∗ owns (c : Thread nD τ) arg4 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_store4]
  simp only [View.readAt_eq_ld, View.ld_unit_zero (S := S5000x128) zero_off4, View.ld_unit_zero (S := S5000x1) zero_off4,
    View.ld_unit_zero (S := S64x128) zero_off4, View.readCov_unit_zero (S := S64x128) _ zero_off4]

set_option maxHeartbeats 1000000 in
/-- A MIDDLE POINT. The accumulator holds what the point before left; the body stores into it the tile's contribution
    added to that; neither condition holds, so nothing is reset and the output's buffer is not touched. -/
theorem sound_kernel4_B (c : Dev nD) (E : Set ℕ) (i : grid4.Coords)
    (arg1 : Memref sig .tc .vmem S5000x128 .f32) (harg1 : arg1.IsWhole)
    (arg2 : Memref sig .tc .vmem S5000x1 .i32) (harg2 : arg2.IsWhole)
    (arg3 : Memref sig .tc .vmem S64x128 .f32) (harg3 : arg3.IsWhole)
    (arg4 : Memref sig .tc .vmem S64x128 .f32) (harg4 : arg4.IsWhole)
    (hc1 : ¬ cond4_1 i) (hc2 : ¬ cond4_2 i)
    (x0 : Vec F S5000x128 .f32) (x1 : Vec F S5000x1 .i32) (xi : Vec F S64x128 .f32) (xs : Vec F S64x128 .f32) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi
            ∗ owns (c : Thread nD τ) arg4 fullShare (k4_pay2 x0 x1 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0
  subst hf1
  subst hf2
  subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_store4]
  simp only [View.readAt_eq_ld, View.ld_unit_zero (S := S5000x128) zero_off4, View.ld_unit_zero (S := S5000x1) zero_off4,
    View.ld_unit_zero (S := S64x128) zero_off4]

set_option maxHeartbeats 1000000 in
/-- THE LAST POINT. As at a middle point, and then the second condition holds: the body copies the accumulator into the
    output's buffer, whatever that held. -/
theorem sound_kernel4_C (c : Dev nD) (E : Set ℕ) (i : grid4.Coords)
    (arg1 : Memref sig .tc .vmem S5000x128 .f32) (harg1 : arg1.IsWhole)
    (arg2 : Memref sig .tc .vmem S5000x1 .i32) (harg2 : arg2.IsWhole)
    (arg3 : Memref sig .tc .vmem S64x128 .f32) (harg3 : arg3.IsWhole)
    (arg4 : Memref sig .tc .vmem S64x128 .f32) (harg4 : arg4.IsWhole)
    (hc1 : ¬ cond4_1 i) (hc2 : cond4_2 i)
    (x0 : Vec F S5000x128 .f32) (x1 : Vec F S5000x1 .i32) (xs : Vec F S64x128 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k4_pay2 x0 x1 xs)
            ∗ owns (c : Thread nD τ) arg4 fullShare (k4_pay2 x0 x1 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0
  subst hf1
  subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_store4]
    simp only [View.readAt_eq_ld, View.ld_unit_zero (S := S5000x128) zero_off4, View.ld_unit_zero (S := S5000x1) zero_off4,
      View.ld_unit_zero (S := S64x128) zero_off4, View.readCov_unit_zero (S := S64x128) _ zero_off4]
  iexists _; isplitr
  swap; · iexact H3
  ipureintro
  sl_unfold_words
  rw [read_store4]
  simp only [View.readAt_eq_ld, View.ld_unit_zero (S := S5000x128) zero_off4, View.ld_unit_zero (S := S5000x1) zero_off4,
    View.ld_unit_zero (S := S64x128) zero_off4]

section Region4
-- the TensorCore's buffer contents when the region is entered
variable (V : (c : Dev nD) → (b : Ref sig .tc) → Buf (Elt F) ((c : Thread nD τ).loc b))

/-! # Region 4: the per-graph sum of node rows, accumulated tile by tile

The grid has 20 points; point `t` sees rows `5000 t … 5000 t + 4999` of the node features and of the graph-id column. A
scratch accumulator of one entry per graph and channel is carried from point to point: the first point resets it to
zero, every point adds its tile's contribution into it, and the last point copies it into the output's buffer, which is
the only point at which the output is written back. -/

/-- Window `w`'s block at grid point `t`, read off its array as the region finds it: rows `5000 t … 5000 t + 4999` of the
    node features (window 0) or of the graph-id column (window 1); the whole output array (window 2). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node-feature tile of point `t`, at its literal type. -/
abbrev tile4 (c : Dev nD) (t : Fin cfg4.N) : Vec F S5000x128 .f32 := iblk4 V c 0 t
/-- The graph-id tile of point `t`, at its literal type. -/
abbrev ids4 (c : Dev nD) (t : Fin cfg4.N) : Vec F S5000x1 .i32 := iblk4 V c 1 t

/-- THE ACCUMULATION. What the scratch accumulator holds after the body at point `n`: at the first point the tile's
    contribution added to the zero the point has just reset it to; at a later point the tile's contribution added to
    what the point before left. -/
def acc4 (c : Dev nD) : (n : ℕ) → n < cfg4.N → Vec F S64x128 .f32
  | 0, hn => k4_pay2 (tile4 V c ⟨0, hn⟩) (ids4 V c ⟨0, hn⟩) (k4_pay1 (F := F))
  | n + 1, hn => k4_pay2 (tile4 V c ⟨n + 1, hn⟩) (ids4 V c ⟨n + 1, hn⟩) (acc4 c n (Nat.lt_of_succ_lt hn))

theorem acc4_zero (c : Dev nD) (hn : 0 < cfg4.N) :
    acc4 V c 0 hn = k4_pay2 (tile4 V c ⟨0, hn⟩) (ids4 V c ⟨0, hn⟩) (k4_pay1 (F := F)) := rfl

theorem acc4_succ (c : Dev nD) (n : ℕ) (hn : n + 1 < cfg4.N) :
    acc4 V c (n + 1) hn = k4_pay2 (tile4 V c ⟨n + 1, hn⟩) (ids4 V c ⟨n + 1, hn⟩) (acc4 V c n (Nat.lt_of_succ_lt hn)) := rfl

/-- At a point that is not the first: the tile's contribution added to what the point before left. -/
theorem acc4_pos (c : Dev nD) (t : Fin cfg4.N) (hz : t.val ≠ 0) :
    acc4 V c t.val t.isLt
      = k4_pay2 (tile4 V c t) (ids4 V c t) (acc4 V c (t.val - 1) (Nat.lt_of_le_of_lt (Nat.sub_le _ _) t.isLt)) := by
  obtain ⟨n, hn⟩ := t
  cases n with
  | zero => exact absurd rfl hz
  | succ n => rfl

/-- The scratch accumulator, a whole scoped buffer of the kernel's own, passed beside the windows. -/
abbrev scM4 : Memref sig .tc .vmem S64x128 .f32 := Memref.whole cc4_scratch0

/-- The region invariant before position `n`: before the first point every scoped buffer that is no staging buffer at
    some contents (the accumulator among them) and the generator register at some state; afterwards the accumulator at
    what the point before left in it, beside the other such buffers and the register as before. -/
def Phi4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem Phi4_pos (c : Dev nD) (n : ℕ) (h : n ≤ cfg4.N) (hz : n ≠ 0) :
    Phi4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of the region on core `c`: the arrays as the region finds them; after the body at point `t` each input's
    buffer still at its block and the output's at the accumulator after the point (which the body copies there at the
    last point, the only one that matters: elsewhere the window is idle); the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

/-- The invariant at a point's start, restated at the point's position. -/
theorem Phi4_castSucc (c : Dev nD) (t : Fin cfg4.N) :
    (dat4 V c).Φ t.castSucc = Phi4 V c t.val (Nat.le_of_lt t.isLt) := by
  dsimp only [dat4]; simp only [Fin.coe_castSucc]

/-- At the first point the accumulator ends at the tile's contribution added to zero. -/
theorem acc4_first (c : Dev nD) (t : Fin cfg4.N) (hz : t.val = 0) :
    acc4 V c t.val t.isLt = k4_pay2 (tile4 V c t) (ids4 V c t) (k4_pay1 (F := F)) := by
  obtain ⟨n, hn⟩ := t
  cases n with
  | zero => rfl
  | succ n => exact absurd hz (Nat.succ_ne_zero n)

/-- The node-feature tile's staging buffer holds the tile of the point: it is fetched at every point and the body only reads it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the graph-id tile. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## Where the windows are idle -/

/-- The two inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- Where the second condition fails the output is idle: the body stores nothing into its buffer, -/
theorem idleAt4_2 : ∀ t : Fin cfg4.N, ¬cond4_2 (grid4.coords t) → cfg4.idle 2 (grid4.coords t) = true := by decide +kernel
/-- and the pipeline does not write its block back. -/
theorem noFlush4_2 : ∀ t : Fin cfg4.N, ¬cond4_2 (grid4.coords t) → (cfg4.win 2).flush t = false := by decide +kernel
/-- Where it holds the output is live. -/
theorem liveAt4_2 : ∀ t : Fin cfg4.N, cond4_2 (grid4.coords t) → cfg4.idle 2 (grid4.coords t) = false := by decide +kernel

/-- What the launch hands the region, with the accumulator named as a memref owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' buffers hold their tiles; the closed forms of the two conditions say which of the
    three cases the point is in. The invariant hands the body the accumulator — at anything at the first point, at what
    the point before left afterwards — and takes it back at this point's contents; where the second condition fails the
    output's buffer is handed back as found, and at the last point it is left at the accumulator. The core owes nothing
    throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 20 := lt_of_lt_of_eq t.isLt (show cfg4.N = 20 from N_4)
  by_cases h0 : t.val = 0
  · -- the first point
    have hc1 : cond4_1 (grid4.coords t) := (hcond4_1 t).mpr h0
    have hc2 : ¬cond4_2 (grid4.coords t) := fun h => by have := (hcond4_2 t).mp h; omega
    rw [Dat.leavesExact_idle (dat4 V c) 2 t (idleAt4_2 t hc2) (noFlush4_2 t hc2)]
    rw [acc4_first V c t h0]
    rw [Phi4_castSucc V c t, Phi4_zero V c _ _ h0, PhiA4_eq]
    iintro ⟨⟨⟨HS, HR⟩, Hg⟩, Ho, ⟨%d0, H0⟩, ⟨%d1, H1⟩, ⟨%d2, H2⟩⟩
    iapply (sound_kernel4_A c Set.univ (grid4.coords t) _ _ _ _ _ _ _ _ hc1 hc2 (tile4 V c t) (ids4 V c t) ((dat4 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hc1 : ¬cond4_1 (grid4.coords t) := fun h => h0 ((hcond4_1 t).mp h)
    rw [acc4_pos V c t h0]
    rw [Phi4_castSucc V c t, Phi4_pos V c _ _ h0]
    by_cases h19 : t.val = 19
    · -- the last point
      have hc2 : cond4_2 (grid4.coords t) := (hcond4_2 t).mpr h19
      rw [show (dat4 V c).leavesExact 2 t = owns (c : Thread nD τ) (st4_2 t) fullShare ((dat4 V c).after 2 t) from by
        unfold Dat.leavesExact; rw [liveAt4_2 t hc2], after4_2, acc4_pos V c t h0]
      iintro ⟨⟨⟨HS, HR⟩, Hg⟩, Ho, ⟨%d0, H0⟩, ⟨%d1, H1⟩, ⟨%d2, H2⟩⟩
      iapply (sound_kernel4_C c Set.univ (grid4.coords t) _ _ _ _ _ _ _ _ hc1 hc2 (tile4 V c t) (ids4 V c t)
        (acc4 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- a middle point
      have hc2 : ¬cond4_2 (grid4.coords t) := fun h => h19 ((hcond4_2 t).mp h)
      rw [Dat.leavesExact_idle (dat4 V c) 2 t (idleAt4_2 t hc2) (noFlush4_2 t hc2)]
      iintro ⟨⟨⟨HS, HR⟩, Hg⟩, Ho, ⟨%d0, H0⟩, ⟨%d1, H1⟩, ⟨%d2, H2⟩⟩
      iapply (sound_kernel4_B c Set.univ (grid4.coords t) _ _ _ _ _ _ _ _ hc1 hc2 (tile4 V c t) (ids4 V c t) ((dat4 V c).before 2 t d2)
        (acc4 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point but the first the invariant gives that back: the accumulator's named contents are forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, HR⟩, Hg⟩
  isplitl [HS HR]
  · isplitl [HS]; · iexists _; iexact HS
    iexact HR
  iexact Hg

/-- The same after the last point. -/
theorem hout4 (c : Dev nD) : (dat4 V c).Φ (Fin.last cfg4.N) ⊢ Pipeline.ΦA spec4 c :=
  Phi4_out V c _ (by rw [Fin.val_last]; have : cfg4.N = 20 := N_4; omega)

end Region4

end Cert.KernelIdeal.Hand

end
-- ==== Proof.Fold.lean ====
/-
  The contents of every unscoped buffer of core `c` at each boundary between two items of @main, as a fold from the
  launch memory: a stretch of host operations applies them in order; a kernel region leaves each of its arrays at
  what its write-backs leave (an input as entered, an output as the fold of the blocks written back) and every other
  buffer as entered. Each region's proof data are taken at the contents the region is entered from.
-/
import proofs.«423604_j68796786147746_2_alg».proof.Proof.Gen.KernelIdeal.Regions
import proofs.«423604_j68796786147746_2_alg».proof.Proof.Reg0
import proofs.«423604_j68796786147746_2_alg».proof.Proof.Reg1
import proofs.«423604_j68796786147746_2_alg».proof.Proof.Reg2
import proofs.«423604_j68796786147746_2_alg».proof.Proof.Reg3
import proofs.«423604_j68796786147746_2_alg».proof.Proof.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- At launch. -/
abbrev W0 : Dev nD → Valuation τ sig (Elt F) := fun c b => m (c, b)
/-- After the stretch `hostOps0`. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the stretch `hostOps1`. -/
abbrev W3 : Dev nD → Valuation τ sig (Elt F) := fun c => StableHlo.after hostOps1 (W2 m c)
/-- The same, read at the TensorCore's references. -/
abbrev V3 : (c : Dev nD) → (b : Ref sig .tc) → Buf (Elt F) ((c : Thread nD τ).loc b) := fun c b => W3 m c b
/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After region 2: its arrays at what the pipeline leaves, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same, read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- After the stretch `hostOps3`. -/
abbrev W6 : Dev nD → Valuation τ sig (Elt F) := fun c => StableHlo.after hostOps3 (W5 m c)
/-- The same, read at the TensorCore's references. -/
abbrev V6 : (c : Dev nD) → (b : Ref sig .tc) → Buf (Elt F) ((c : Thread nD τ).loc b) := fun c b => W6 m c b
/-- After region 3: its arrays at what the pipeline leaves, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same, read at the TensorCore's references. -/
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)
/-- After the stretch `hostOps4`. -/
abbrev W8 : Dev nD → Valuation τ sig (Elt F) := fun c => StableHlo.after hostOps4 (W7 m c)
/-- The same, read at the TensorCore's references. -/
abbrev V8 : (c : Dev nD) → (b : Ref sig .tc) → Buf (Elt F) ((c : Thread nD τ).loc b) := fun c b => W8 m c b
/-- After region 4: its arrays at what the pipeline leaves, every other buffer as entered. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- The same, read at the TensorCore's references. -/
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)
/-- After the stretch `hostOps5`. -/
abbrev W10 : Dev nD → Valuation τ sig (Elt F) := fun c => StableHlo.after hostOps5 (W9 m c)
/-- The same, read at the TensorCore's references. -/
abbrev V10 : (c : Dev nD) → (b : Ref sig .tc) → Buf (Elt F) ((c : Thread nD τ).loc b) := fun c b => W10 m c b

/-! ## The proof data family and what rides beside the buffers -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V8 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the register at some state. -/
abbrev Tₙ (c : Dev nD) : sProp 𝕄 := iprop(StableHlo.held (c : Thread nD τ) (Pipeline.ucRefs τ sig) (W10 m c) ∗ ∃ r, prngReg c r)

end Cert.KernelIdeal.Hand

end
-- ==== Proof.Seg0.lean ====
/-
  Region 0 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (V1 m) c 0]
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0 (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (V1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (V1 m) c (Fin.last _)]
    icases HO with ⟨%W, -, HO⟩; iexists W; iexact HO

end Cert.KernelIdeal.Hand

end
-- ==== Proof.Seg1.lean ====
/-
  Region 1 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (V3 m) c 0]
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (V3 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (V3 m) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (V3 m) c (Fin.last _)]
    icases HO with ⟨%W, -, HO⟩; iexists W; iexact HO

end Cert.KernelIdeal.Hand

end
-- ==== Proof.Seg2.lean ====
/-
  Region 2 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun c t => owed_eq2 (V4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (V4 m) c w) (V4 m c) fun w => A_eq2 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (V4 m) c 0]
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2 (V4 m) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Phi2 (V4 m) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (V4 m) c w)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (V4 m) c (Fin.last _)]
    icases HO with ⟨%W, -, HO⟩; iexists W; iexact HO

end Cert.KernelIdeal.Hand

end
-- ==== Proof.Seg3.lean ====
/-
  Region 3 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun c t => owed_eq3 (V6 m) c t
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (V6 m) c w) (V6 m c) fun w => A_eq3 (V6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from owed_eq3 (V6 m) c 0]
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3 (V6 m) c 0]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from Phi3 (V6 m) c (Fin.last _)]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (V6 m) c w)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last _) = 0 from owed_eq3 (V6 m) c (Fin.last _)]
    icases HO with ⟨%W, -, HO⟩; iexists W; iexact HO

end Cert.KernelIdeal.Hand

end
-- ==== Proof.Seg4.lean ====
/-
  Region 4 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m) c).loose
  hwaits := Pipeline.hwaits_of_owed_zero _ _ _ _ L lv 4 fun c t => owed_eq4 (V8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (V8 m) c w) (V8 m c) fun w => A_eq4 (V8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 4 c).owed 0 = 0 from owed_eq4 (V8 m) c 0]
      icases HO with ⟨%W, HO⟩; iexists W; isplitr; · ipureintro; exact fun _ _ => Or.inl trivial
      iexact HO
    isplitl [Hp]; · iexact Hp
    iexact Hrest
  hin c := by
    refine (?_ : _ ⊢ Pipeline.ΦA spec4 c).trans (hin4 (V8 m) c)
    unfold Pipeline.ΦA
    iintro ⟨Hp, -, Hr⟩
    isplitl [Hr]; · iexact Hr
    iexact Hp
  hout c := by
    rw [Pipeline.ownSems0_none]
    refine (hout4 (V8 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (V8 m) c w)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 4 c).owed (Fin.last _) = 0 from owed_eq4 (V8 m) c (Fin.last _)]
    icases HO with ⟨%W, -, HO⟩; iexists W; iexact HO

end Cert.KernelIdeal.Hand

end
-- ==== Proof.Run.lean ====
/-
  The run of @main: its ten items in order (five stretches of host operations, five kernel regions), each a segment
  from the contents before it to the contents after it, and the launch over them: every weakly fair execution
  terminates, and in every final memory each unscoped buffer of core `c` holds the last contents of the fold.
-/
import proofs.«423604_j68796786147746_2_alg».proof.Proof.Seg0
import proofs.«423604_j68796786147746_2_alg».proof.Proof.Seg1
import proofs.«423604_j68796786147746_2_alg».proof.Proof.Seg2
import proofs.«423604_j68796786147746_2_alg».proof.Proof.Seg3
import proofs.«423604_j68796786147746_2_alg».proof.Proof.Seg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's ten items as segments: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)),
    .region (reg4 m),
    .host (hseg hostOps5 hostOps5_sub hostOps5_fresh (W9 m)) ]

-- the launch theorem's implicit arguments are found by unifying its conclusion with this one, which takes unfolding
-- plain definitions in a metavariable's type
set_option backward.isDefEq.respectTransparency.types false in
/-- THE RUN: from any memory with zero counters every weakly fair execution of @main terminates, nothing faulting, and
    every final memory holds each unscoped buffer of each core at the fold's last contents `W10`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W10 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.Keep.lean ====
/-
  What each item of @main leaves alone: a stretch of host operations changes only the buffers its operations write, and a
  kernel region changes only its output array (an input array is read through its window and ends as entered, any other
  buffer is not touched). Hence each argument array holds its launch contents at the end.
-/
import proofs.«423604_j68796786147746_2_alg».proof.Proof.Fold

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

variable (m : (ℓ : Loc nD τ sig) → Buf (Elt F) ℓ)

/-- The stretch `hostOps0` leaves every buffer it does not write. -/
theorem W1_keep (c : Dev nD) (b : Ref sig .tc) (h : b ∉ hostOps0_W) : W1 m c (Proc.devRef .tc b) = W0 m c (Proc.devRef .tc b) :=
  StableHlo.after_of_writes_sub hostOps0 _ hostOps0_writes h
/-- Region 0 leaves every buffer but its output array `main_v28`. -/
theorem W2_keep (c : Dev nD) (b : Ref sig .tc) (hb : b ≠ main_v28) : W2 m c (Proc.devRef .tc b) = W1 m c (Proc.devRef .tc b) := by
  by_cases h : ∀ w, Pipeline.arrRef spec0 w ≠ b
  · exact W2_of_ne m c b h
  · obtain ⟨w, hw⟩ := not_forall.mp h
    have hw' : Pipeline.arrRef spec0 w = b := not_not.mp hw
    subst hw'
    match w with
    | ⟨0, _⟩ => exact (W2_arr m c 0).trans (((dat0 (V1 m) c).arrAt_in 0 rfl _).trans (A_eq0 (V1 m) c 0))
    | ⟨1, _⟩ => exact (W2_arr m c 1).trans (((dat0 (V1 m) c).arrAt_in 1 rfl _).trans (A_eq0 (V1 m) c 1))
    | ⟨2, _⟩ => exact absurd rfl hb
/-- The stretch `hostOps1` leaves every buffer it does not write. -/
theorem W3_keep (c : Dev nD) (b : Ref sig .tc) (h : b ∉ hostOps1_W) : W3 m c (Proc.devRef .tc b) = W2 m c (Proc.devRef .tc b) :=
  StableHlo.after_of_writes_sub hostOps1 _ hostOps1_writes h
/-- Region 1 leaves every buffer but its output array `main_v44`. -/
theorem W4_keep (c : Dev nD) (b : Ref sig .tc) (hb : b ≠ main_v44) : W4 m c (Proc.devRef .tc b) = W3 m c (Proc.devRef .tc b) := by
  by_cases h : ∀ w, Pipeline.arrRef spec1 w ≠ b
  · exact W4_of_ne m c b h
  · obtain ⟨w, hw⟩ := not_forall.mp h
    have hw' : Pipeline.arrRef spec1 w = b := not_not.mp hw
    subst hw'
    match w with
    | ⟨0, _⟩ => exact (W4_arr m c 0).trans (((dat1 (V3 m) c).arrAt_in 0 rfl _).trans (A_eq1 (V3 m) c 0))
    | ⟨1, _⟩ => exact (W4_arr m c 1).trans (((dat1 (V3 m) c).arrAt_in 1 rfl _).trans (A_eq1 (V3 m) c 1))
    | ⟨2, _⟩ => exact (W4_arr m c 2).trans (((dat1 (V3 m) c).arrAt_in 2 rfl _).trans (A_eq1 (V3 m) c 2))
    | ⟨3, _⟩ => exact (W4_arr m c 3).trans (((dat1 (V3 m) c).arrAt_in 3 rfl _).trans (A_eq1 (V3 m) c 3))
    | ⟨4, _⟩ => exact absurd rfl hb
/-- Region 2 leaves every buffer but its output array `main_v45`. -/
theorem W5_keep (c : Dev nD) (b : Ref sig .tc) (hb : b ≠ main_v45) : W5 m c (Proc.devRef .tc b) = W4 m c (Proc.devRef .tc b) := by
  by_cases h : ∀ w, Pipeline.arrRef spec2 w ≠ b
  · exact W5_of_ne m c b h
  · obtain ⟨w, hw⟩ := not_forall.mp h
    have hw' : Pipeline.arrRef spec2 w = b := not_not.mp hw
    subst hw'
    match w with
    | ⟨0, _⟩ => exact (W5_arr m c 0).trans (((dat2 (V4 m) c).arrAt_in 0 rfl _).trans (A_eq2 (V4 m) c 0))
    | ⟨1, _⟩ => exact (W5_arr m c 1).trans (((dat2 (V4 m) c).arrAt_in 1 rfl _).trans (A_eq2 (V4 m) c 1))
    | ⟨2, _⟩ => exact absurd rfl hb
/-- The stretch `hostOps3` leaves every buffer it does not write. -/
theorem W6_keep (c : Dev nD) (b : Ref sig .tc) (h : b ∉ hostOps3_W) : W6 m c (Proc.devRef .tc b) = W5 m c (Proc.devRef .tc b) :=
  StableHlo.after_of_writes_sub hostOps3 _ hostOps3_writes h
/-- Region 3 leaves every buffer but its output array `main_v61`. -/
theorem W7_keep (c : Dev nD) (b : Ref sig .tc) (hb : b ≠ main_v61) : W7 m c (Proc.devRef .tc b) = W6 m c (Proc.devRef .tc b) := by
  by_cases h : ∀ w, Pipeline.arrRef spec3 w ≠ b
  · exact W7_of_ne m c b h
  · obtain ⟨w, hw⟩ := not_forall.mp h
    have hw' : Pipeline.arrRef spec3 w = b := not_not.mp hw
    subst hw'
    match w with
    | ⟨0, _⟩ => exact (W7_arr m c 0).trans (((dat3 (V6 m) c).arrAt_in 0 rfl _).trans (A_eq3 (V6 m) c 0))
    | ⟨1, _⟩ => exact (W7_arr m c 1).trans (((dat3 (V6 m) c).arrAt_in 1 rfl _).trans (A_eq3 (V6 m) c 1))
    | ⟨2, _⟩ => exact (W7_arr m c 2).trans (((dat3 (V6 m) c).arrAt_in 2 rfl _).trans (A_eq3 (V6 m) c 2))
    | ⟨3, _⟩ => exact (W7_arr m c 3).trans (((dat3 (V6 m) c).arrAt_in 3 rfl _).trans (A_eq3 (V6 m) c 3))
    | ⟨4, _⟩ => exact absurd rfl hb
/-- The stretch `hostOps4` leaves every buffer it does not write. -/
theorem W8_keep (c : Dev nD) (b : Ref sig .tc) (h : b ∉ hostOps4_W) : W8 m c (Proc.devRef .tc b) = W7 m c (Proc.devRef .tc b) :=
  StableHlo.after_of_writes_sub hostOps4 _ hostOps4_writes h
/-- Region 4 leaves every buffer but its output array `main_v63`. -/
theorem W9_keep (c : Dev nD) (b : Ref sig .tc) (hb : b ≠ main_v63) : W9 m c (Proc.devRef .tc b) = W8 m c (Proc.devRef .tc b) := by
  by_cases h : ∀ w, Pipeline.arrRef spec4 w ≠ b
  · exact W9_of_ne m c b h
  · obtain ⟨w, hw⟩ := not_forall.mp h
    have hw' : Pipeline.arrRef spec4 w = b := not_not.mp hw
    subst hw'
    match w with
    | ⟨0, _⟩ => exact (W9_arr m c 0).trans (((dat4 (V8 m) c).arrAt_in 0 rfl _).trans (A_eq4 (V8 m) c 0))
    | ⟨1, _⟩ => exact (W9_arr m c 1).trans (((dat4 (V8 m) c).arrAt_in 1 rfl _).trans (A_eq4 (V8 m) c 1))
    | ⟨2, _⟩ => exact absurd rfl hb
/-- The stretch `hostOps5` leaves every buffer it does not write. -/
theorem W10_keep (c : Dev nD) (b : Ref sig .tc) (h : b ∉ hostOps5_W) : W10 m c (Proc.devRef .tc b) = W9 m c (Proc.devRef .tc b) :=
  StableHlo.after_of_writes_sub hostOps5 _ hostOps5_writes h

/-! ## The arguments end as launched -/
theorem W10_main_arg0 (c : Dev nD) : W10 m c (Proc.devRef .tc main_arg0) = m ((c : Thread nD τ).loc main_arg0) :=
  (W10_keep m c main_arg0 (by decide)).trans <| (W9_keep m c main_arg0 (by decide)).trans <| (W8_keep m c main_arg0 (by decide)).trans <|
  (W7_keep m c main_arg0 (by decide)).trans <| (W6_keep m c main_arg0 (by decide)).trans <| (W5_keep m c main_arg0 (by decide)).trans <|
  (W4_keep m c main_arg0 (by decide)).trans <| (W3_keep m c main_arg0 (by decide)).trans <| (W2_keep m c main_arg0 (by decide)).trans <|
  (W1_keep m c main_arg0 (by decide)).trans rfl
theorem W10_main_arg1 (c : Dev nD) : W10 m c (Proc.devRef .tc main_arg1) = m ((c : Thread nD τ).loc main_arg1) :=
  (W10_keep m c main_arg1 (by decide)).trans <| (W9_keep m c main_arg1 (by decide)).trans <| (W8_keep m c main_arg1 (by decide)).trans <|
  (W7_keep m c main_arg1 (by decide)).trans <| (W6_keep m c main_arg1 (by decide)).trans <| (W5_keep m c main_arg1 (by decide)).trans <|
  (W4_keep m c main_arg1 (by decide)).trans <| (W3_keep m c main_arg1 (by decide)).trans <| (W2_keep m c main_arg1 (by decide)).trans <|
  (W1_keep m c main_arg1 (by decide)).trans rfl
theorem W10_main_arg2 (c : Dev nD) : W10 m c (Proc.devRef .tc main_arg2) = m ((c : Thread nD τ).loc main_arg2) :=
  (W10_keep m c main_arg2 (by decide)).trans <| (W9_keep m c main_arg2 (by decide)).trans <| (W8_keep m c main_arg2 (by decide)).trans <|
  (W7_keep m c main_arg2 (by decide)).trans <| (W6_keep m c main_arg2 (by decide)).trans <| (W5_keep m c main_arg2 (by decide)).trans <|
  (W4_keep m c main_arg2 (by decide)).trans <| (W3_keep m c main_arg2 (by decide)).trans <| (W2_keep m c main_arg2 (by decide)).trans <|
  (W1_keep m c main_arg2 (by decide)).trans rfl
theorem W10_main_arg3 (c : Dev nD) : W10 m c (Proc.devRef .tc main_arg3) = m ((c : Thread nD τ).loc main_arg3) :=
  (W10_keep m c main_arg3 (by decide)).trans <| (W9_keep m c main_arg3 (by decide)).trans <| (W8_keep m c main_arg3 (by decide)).trans <|
  (W7_keep m c main_arg3 (by decide)).trans <| (W6_keep m c main_arg3 (by decide)).trans <| (W5_keep m c main_arg3 (by decide)).trans <|
  (W4_keep m c main_arg3 (by decide)).trans <| (W3_keep m c main_arg3 (by decide)).trans <| (W2_keep m c main_arg3 (by decide)).trans <|
  (W1_keep m c main_arg3 (by decide)).trans rfl
theorem W10_main_arg4 (c : Dev nD) : W10 m c (Proc.devRef .tc main_arg4) = m ((c : Thread nD τ).loc main_arg4) :=
  (W10_keep m c main_arg4 (by decide)).trans <| (W9_keep m c main_arg4 (by decide)).trans <| (W8_keep m c main_arg4 (by decide)).trans <|
  (W7_keep m c main_arg4 (by decide)).trans <| (W6_keep m c main_arg4 (by decide)).trans <| (W5_keep m c main_arg4 (by decide)).trans <|
  (W4_keep m c main_arg4 (by decide)).trans <| (W3_keep m c main_arg4 (by decide)).trans <| (W2_keep m c main_arg4 (by decide)).trans <|
  (W1_keep m c main_arg4 (by decide)).trans rfl
theorem W10_main_arg5 (c : Dev nD) : W10 m c (Proc.devRef .tc main_arg5) = m ((c : Thread nD τ).loc main_arg5) :=
  (W10_keep m c main_arg5 (by decide)).trans <| (W9_keep m c main_arg5 (by decide)).trans <| (W8_keep m c main_arg5 (by decide)).trans <|
  (W7_keep m c main_arg5 (by decide)).trans <| (W6_keep m c main_arg5 (by decide)).trans <| (W5_keep m c main_arg5 (by decide)).trans <|
  (W4_keep m c main_arg5 (by decide)).trans <| (W3_keep m c main_arg5 (by decide)).trans <| (W2_keep m c main_arg5 (by decide)).trans <|
  (W1_keep m c main_arg5 (by decide)).trans rfl
theorem W10_main_arg6 (c : Dev nD) : W10 m c (Proc.devRef .tc main_arg6) = m ((c : Thread nD τ).loc main_arg6) :=
  (W10_keep m c main_arg6 (by decide)).trans <| (W9_keep m c main_arg6 (by decide)).trans <| (W8_keep m c main_arg6 (by decide)).trans <|
  (W7_keep m c main_arg6 (by decide)).trans <| (W6_keep m c main_arg6 (by decide)).trans <| (W5_keep m c main_arg6 (by decide)).trans <|
  (W4_keep m c main_arg6 (by decide)).trans <| (W3_keep m c main_arg6 (by decide)).trans <| (W2_keep m c main_arg6 (by decide)).trans <|
  (W1_keep m c main_arg6 (by decide)).trans rfl
theorem W10_main_arg7 (c : Dev nD) : W10 m c (Proc.devRef .tc main_arg7) = m ((c : Thread nD τ).loc main_arg7) :=
  (W10_keep m c main_arg7 (by decide)).trans <| (W9_keep m c main_arg7 (by decide)).trans <| (W8_keep m c main_arg7 (by decide)).trans <|
  (W7_keep m c main_arg7 (by decide)).trans <| (W6_keep m c main_arg7 (by decide)).trans <| (W5_keep m c main_arg7 (by decide)).trans <|
  (W4_keep m c main_arg7 (by decide)).trans <| (W3_keep m c main_arg7 (by decide)).trans <| (W2_keep m c main_arg7 (by decide)).trans <|
  (W1_keep m c main_arg7 (by decide)).trans rfl
theorem W10_main_arg8 (c : Dev nD) : W10 m c (Proc.devRef .tc main_arg8) = m ((c : Thread nD τ).loc main_arg8) :=
  (W10_keep m c main_arg8 (by decide)).trans <| (W9_keep m c main_arg8 (by decide)).trans <| (W8_keep m c main_arg8 (by decide)).trans <|
  (W7_keep m c main_arg8 (by decide)).trans <| (W6_keep m c main_arg8 (by decide)).trans <| (W5_keep m c main_arg8 (by decide)).trans <|
  (W4_keep m c main_arg8 (by decide)).trans <| (W3_keep m c main_arg8 (by decide)).trans <| (W2_keep m c main_arg8 (by decide)).trans <|
  (W1_keep m c main_arg8 (by decide)).trans rfl

end Cert.KernelIdeal.Hand

end
-- ==== Proof.Frame.lean ====
/-
  What the run gives the claims: every weakly fair execution of @main terminates and every argument array ends holding
  its launch contents (the frame); and the same with the result buffer named — it holds what the fold's last contents
  hold at it.
-/
import proofs.«423604_j68796786147746_2_alg».proof.Proof.Run
import proofs.«423604_j68796786147746_2_alg».proof.Proof.Keep

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The frame: the program runs to the end, nothing faulting, and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c),
      (h c _ (mem_uc main_arg8 (by decide))).trans (W10_main_arg8 m c)⟩) (run_main m ρ)

/-- The run with the result named: the result buffer ends at the fold's last contents, the arguments as launched. -/
theorem run_value : θ_run defs (onTc (τ := τ) (main (F := F))) ⟨m, fun _ => 0, ρ⟩ (fun r => ∀ c : Dev nD,
      r.2.mem ((c.tc : Thread nD τ).loc main_v77) = W10 m c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v77 (by decide)),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c),
      (h c _ (mem_uc main_arg8 (by decide))).trans (W10_main_arg8 m c)⟩) (run_main m ρ)

end Cert.KernelIdeal.Hand

end
-- ==== Proof.Bits.Reg0.lean ====
import proofs.«423604_j68796786147746_2_alg».proof.Proof.Gen.Kernel.Launch
import proofs.«423604_j68796786147746_2_alg».proof.Proof.Gen.Kernel.Skeleton
import proofs.«423604_j68796786147746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! # Region 0: a 5000-row tile of the node features times the whole weight matrix -/

/-- Window `w`'s block at grid point `t`, read off its array as the region finds it: rows `5000 t … 5000 t + 4999` of the
    node features (window 0) or of the product (window 2), the whole weight matrix (window 1). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's staging buffer holds the tile of the point: it is fetched at every point and the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point although it is fetched at the first point
    only: its block index never moves, and the body leaves the buffer as found, so the first point's fetch persists. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rTile0 : Rect S5000x128 := Rect.unit (s := S5000x128) ![0, 0] S5000x128.size inb_S5000x128_S5000x128_0_0
abbrev rWeight0 : Rect S128x128 := Rect.unit (s := S128x128) ![0, 0] S128x128.size inb_S128x128_S128x128_0_0

/-- What the body leaves in the product tile's buffer: its one whole store, of the tile's product with the weight matrix. -/
def out0_2 (x0 : Vec F S5000x128 .f32) (x1 : Vec F S128x128 .f32) : Vec F S5000x128 .f32 :=
  View.canon [⟨rTile0, k0_pay1 (View.ld x0 rTile0) (View.ld x1 rWeight0)⟩]

/-- The one store is the whole buffer, so it covers every index. -/
theorem cover0_2 (p0 : Vec F S5000x128 .f32) (y : S5000x128.Idx) :
    ∃ pc ∈ ([⟨rTile0, p0⟩] : List (View.Piece (Elt F) S5000x128 .f32)), y ∈ pc.1.set :=
  View.cover_of_tiled [⟨rTile0, p0⟩] S5000x128.size (by rfl) y

/-! ## The body's triple -/

set_option maxHeartbeats 1000000 in
/-- The kernel body on whole staging buffers: the two inputs at known contents and the output at anything. It reads the
    inputs, reads the output buffer without using what it read, and overwrites the output buffer whole with the product. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t` each input's
    buffer still at its block and the output's at the product of the two input blocks; the untouched rest as invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem Phi0 (c : Dev nD) (t : Fin (cfg0.N + 1)) : (dat0 V c).Φ t = Pipeline.ΦA spec0 c := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the kernel's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Bits.Reg1.lean ====
import proofs.«423604_j68796786147746_2_alg».proof.Proof.Gen.Kernel.Launch
import proofs.«423604_j68796786147746_2_alg».proof.Proof.Gen.Kernel.Skeleton
import proofs.«423604_j68796786147746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The layer's combination kernel on its 20 row tiles: five windows, a pointwise payload -/

/-! ## The windows' blocks -/

/-- Window `w`'s block at point `t`, read off its array as the region finds it (`V`): rows `5000 t … 5000 t + 4999`
    of a row-tiled array, the whole bias row for window 3. -/
def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer whole -/

abbrev r1_a : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0

/-! ## What the body leaves in the output window's buffer -/

/-- The output tile after the body, from the four input blocks: its one store, of the pointwise payload of the
    four whole loads. -/
def out1_4 (x0 : Vec F S5000x128 .f32) (x1 : Vec F S5000x128 .f32) (x2 : Vec F S5000x1 .f32) (x3 : Vec F S1x128 .f32) : Vec F S5000x128 .f32 :=
  View.canon [⟨r1_a, k1_pay1 (View.ld x0 r1_a) (View.ld x1 r1_a) (View.ld x2 r1_d) (View.ld x3 r1_b)⟩]

/-! ## What the body finds in each input window's buffer -/

/-- An input window's current staging buffer holds its block at every point, fetched there or not, for any proof data
    whose array is `V`'s and whose body leaves the block in place: where the pipeline does not fetch (the bias row
    after the first point) the block index has not moved, so the block kept from the point before is this point's. -/
theorem before1_0_of (V : (c : Dev nD) → (b : Ref sig .tc) → Buf (Elt F) ((c : Thread nD τ).loc b)) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (V : (c : Dev nD) → (b : Ref sig .tc) → Buf (Elt F) ((c : Thread nD τ).loc b)) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (V : (c : Dev nD) → (b : Ref sig .tc) → Buf (Elt F) ((c : Thread nD τ).loc b)) {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (V : (c : Dev nD) → (b : Ref sig .tc) → Buf (Elt F) ((c : Thread nD τ).loc b)) {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output tile -/

theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

/-! ## The body's triple -/

set_option maxHeartbeats 1000000 in
/-- The kernel body on whole staging memrefs, the four inputs' at read contents `x0 … x3` and the output's at anything,
    runs to the continuation holding the inputs' as they were and the output's at `out1_4` of the inputs: four whole
    loads, a load of the output buffer whose value nothing reads, and one whole store of the payload. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them; after the body at point `t`
    each input's buffer still at its block and the output's at `out1_4` of the four input blocks; the invariant is the
    untouched rest; nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (V : (c : Dev nD) → (b : Ref sig .tc) → Buf (Elt F) ((c : Thread nD τ).loc b)) (c : Dev nD) (w : Fin cfg1.W) : (dat1 V c).A w = V c (Pipeline.arrRef spec1 w) := by
  dsimp only [dat1]
theorem q_eq1 (V : (c : Dev nD) → (b : Ref sig .tc) → Buf (Elt F) ((c : Thread nD τ).loc b)) (c : Dev nD) (w : Fin cfg1.W) : (dat1 V c).q w = fullShare := by
  dsimp only [dat1]
theorem owed_eq1 (V : (c : Dev nD) → (b : Ref sig .tc) → Buf (Elt F) ((c : Thread nD τ).loc b)) (c : Dev nD) (t : Fin (cfg1.N + 1)) : (dat1 V c).owed t = 0 := by
  dsimp only [dat1]
theorem Phi1 (V : (c : Dev nD) → (b : Ref sig .tc) → Buf (Elt F) ((c : Thread nD τ).loc b)) (c : Dev nD) (t : Fin (cfg1.N + 1)) : (dat1 V c).Φ t = Pipeline.ΦA spec1 c := by
  dsimp only [dat1]

/-- What the body leaves, window by window. -/
theorem after1_0 (V : (c : Dev nD) → (b : Ref sig .tc) → Buf (Elt F) ((c : Thread nD τ).loc b)) (c : Dev nD) (t : Fin cfg1.N) : (dat1 V c).after 0 t = iblk1 V c 0 t := by dsimp only [dat1]
theorem after1_1 (V : (c : Dev nD) → (b : Ref sig .tc) → Buf (Elt F) ((c : Thread nD τ).loc b)) (c : Dev nD) (t : Fin cfg1.N) : (dat1 V c).after 1 t = iblk1 V c 1 t := by dsimp only [dat1]
theorem after1_2 (V : (c : Dev nD) → (b : Ref sig .tc) → Buf (Elt F) ((c : Thread nD τ).loc b)) (c : Dev nD) (t : Fin cfg1.N) : (dat1 V c).after 2 t = iblk1 V c 2 t := by dsimp only [dat1]
theorem after1_3 (V : (c : Dev nD) → (b : Ref sig .tc) → Buf (Elt F) ((c : Thread nD τ).loc b)) (c : Dev nD) (t : Fin cfg1.N) : (dat1 V c).after 3 t = iblk1 V c 3 t := by dsimp only [dat1]
theorem after1_4 (V : (c : Dev nD) → (b : Ref sig .tc) → Buf (Elt F) ((c : Thread nD τ).loc b)) (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (V : (c : Dev nD) → (b : Ref sig .tc) → Buf (Elt F) ((c : Thread nD τ).loc b)) (c : Dev nD) (t : Fin cfg1.N) (d) : (dat1 V c).before 0 t d = iblk1 V c 0 t :=
  before1_0_of V (dat1 V c) (A_eq1 V c 0) (after1_0 V c) t d
theorem before1_1 (V : (c : Dev nD) → (b : Ref sig .tc) → Buf (Elt F) ((c : Thread nD τ).loc b)) (c : Dev nD) (t : Fin cfg1.N) (d) : (dat1 V c).before 1 t d = iblk1 V c 1 t :=
  before1_1_of V (dat1 V c) (A_eq1 V c 1) (after1_1 V c) t d
theorem before1_2 (V : (c : Dev nD) → (b : Ref sig .tc) → Buf (Elt F) ((c : Thread nD τ).loc b)) (c : Dev nD) (t : Fin cfg1.N) (d) : (dat1 V c).before 2 t d = iblk1 V c 2 t :=
  before1_2_of V (dat1 V c) (A_eq1 V c 2) (after1_2 V c) t d
theorem before1_3 (V : (c : Dev nD) → (b : Ref sig .tc) → Buf (Elt F) ((c : Thread nD τ).loc b)) (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's debt pass through unread. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact sound_body1 V c t

end Cert.Kernel.Hand

end
-- ==== Proof.Bits.Reg2.lean ====
import proofs.«423604_j68796786147746_2_alg».proof.Proof.Gen.Kernel.Launch
import proofs.«423604_j68796786147746_2_alg».proof.Proof.Gen.Kernel.Skeleton
import proofs.«423604_j68796786147746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! # Region 2: a 5000-row tile of the node features times the whole weight matrix -/

/-- Window `w`'s block at grid point `t`, read off its array as the region finds it: rows `5000 t … 5000 t + 4999` of the
    node features (window 0) or of the product (window 2), the whole weight matrix (window 1). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature tile's staging buffer holds the tile of the point: it is fetched at every point and the body only reads it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point although it is fetched at the first point
    only: its block index never moves, and the body leaves the buffer as found, so the first point's fetch persists. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev rTile2 : Rect S5000x128 := Rect.unit (s := S5000x128) ![0, 0] S5000x128.size inb_S5000x128_S5000x128_0_0
abbrev rWeight2 : Rect S128x128 := Rect.unit (s := S128x128) ![0, 0] S128x128.size inb_S128x128_S128x128_0_0

/-- What the body leaves in the product tile's buffer: its one whole store, of the tile's product with the weight matrix. -/
def out2_2 (x0 : Vec F S5000x128 .f32) (x1 : Vec F S128x128 .f32) : Vec F S5000x128 .f32 :=
  View.canon [⟨rTile2, k2_pay1 (View.ld x0 rTile2) (View.ld x1 rWeight2)⟩]

/-- The one store is the whole buffer, so it covers every index. -/
theorem cover2_2 (p0 : Vec F S5000x128 .f32) (y : S5000x128.Idx) :
    ∃ pc ∈ ([⟨rTile2, p0⟩] : List (View.Piece (Elt F) S5000x128 .f32)), y ∈ pc.1.set :=
  View.cover_of_tiled [⟨rTile2, p0⟩] S5000x128.size (by rfl) y

/-! ## The body's triple -/

set_option maxHeartbeats 1000000 in
/-- The kernel body on whole staging buffers: the two inputs at known contents and the output at anything. It reads the
    inputs, reads the output buffer without using what it read, and overwrites the output buffer whole with the product. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core `c`: the arrays as the region finds them; after the body at point `t` each input's
    buffer still at its block and the output's at the product of the two input blocks; the untouched rest as invariant;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem Phi2 (c : Dev nD) (t : Fin (cfg2.N + 1)) : (dat2 V c).Φ t = Pipeline.ΦA spec2 c := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the kernel's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.Bits.Reg3.lean ====
import proofs.«423604_j68796786147746_2_alg».proof.Proof.Gen.Kernel.Launch
import proofs.«423604_j68796786147746_2_alg».proof.Proof.Gen.Kernel.Skeleton
import proofs.«423604_j68796786147746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The layer's combination kernel on its 20 row tiles: five windows, a pointwise payload -/

/-! ## The windows' blocks -/

/-- Window `w`'s block at point `t`, read off its array as the region finds it (`V`): rows `5000 t … 5000 t + 4999`
    of a row-tiled array, the whole bias row for window 3. -/
def iblk3 (V : (c : Dev nD) → (b : Ref sig .tc) → Buf (Elt F) ((c : Thread nD τ).loc b)) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each buffer whole -/

abbrev r3_a : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0

/-! ## What the body leaves in the output window's buffer -/

/-- The output tile after the body, from the four input blocks: its one store, of the pointwise payload of the
    four whole loads. -/
def out3_4 (x0 : Vec F S5000x128 .f32) (x1 : Vec F S5000x128 .f32) (x2 : Vec F S5000x1 .f32) (x3 : Vec F S1x128 .f32) : Vec F S5000x128 .f32 :=
  View.canon [⟨r3_a, k3_pay1 (View.ld x0 r3_a) (View.ld x1 r3_a) (View.ld x2 r3_d) (View.ld x3 r3_b)⟩]

/-! ## What the body finds in each input window's buffer -/

/-- An input window's current staging buffer holds its block at every point, fetched there or not, for any proof data
    whose array is `V`'s and whose body leaves the block in place: where the pipeline does not fetch (the bias row
    after the first point) the block index has not moved, so the block kept from the point before is this point's. -/
theorem before3_0_of (V : (c : Dev nD) → (b : Ref sig .tc) → Buf (Elt F) ((c : Thread nD τ).loc b)) {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (V : (c : Dev nD) → (b : Ref sig .tc) → Buf (Elt F) ((c : Thread nD τ).loc b)) {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (V : (c : Dev nD) → (b : Ref sig .tc) → Buf (Elt F) ((c : Thread nD τ).loc b)) {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of (V : (c : Dev nD) → (b : Ref sig .tc) → Buf (Elt F) ((c : Thread nD τ).loc b)) {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The one store covers the output tile -/

theorem cover3_4 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

/-! ## The body's triple -/

set_option maxHeartbeats 1000000 in
/-- The kernel body on whole staging memrefs, the four inputs' at read contents `x0 … x3` and the output's at anything,
    runs to the continuation holding the inputs' as they were and the output's at `out3_4` of the inputs: four whole
    loads, a load of the output buffer whose value nothing reads, and one whole store of the payload. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the pipeline on core `c`: the arrays as the region finds them; after the body at point `t`
    each input's buffer still at its block and the output's at `out3_4` of the four input blocks; the invariant is the
    untouched rest; nothing owed; full shares. -/
def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (V : (c : Dev nD) → (b : Ref sig .tc) → Buf (Elt F) ((c : Thread nD τ).loc b)) (c : Dev nD) (w : Fin cfg3.W) : (dat3 V c).A w = V c (Pipeline.arrRef spec3 w) := by
  dsimp only [dat3]
theorem q_eq3 (V : (c : Dev nD) → (b : Ref sig .tc) → Buf (Elt F) ((c : Thread nD τ).loc b)) (c : Dev nD) (w : Fin cfg3.W) : (dat3 V c).q w = fullShare := by
  dsimp only [dat3]
theorem owed_eq3 (V : (c : Dev nD) → (b : Ref sig .tc) → Buf (Elt F) ((c : Thread nD τ).loc b)) (c : Dev nD) (t : Fin (cfg3.N + 1)) : (dat3 V c).owed t = 0 := by
  dsimp only [dat3]
theorem Phi3 (V : (c : Dev nD) → (b : Ref sig .tc) → Buf (Elt F) ((c : Thread nD τ).loc b)) (c : Dev nD) (t : Fin (cfg3.N + 1)) : (dat3 V c).Φ t = Pipeline.ΦA spec3 c := by
  dsimp only [dat3]

/-- What the body leaves, window by window. -/
theorem after3_0 (V : (c : Dev nD) → (b : Ref sig .tc) → Buf (Elt F) ((c : Thread nD τ).loc b)) (c : Dev nD) (t : Fin cfg3.N) : (dat3 V c).after 0 t = iblk3 V c 0 t := by dsimp only [dat3]
theorem after3_1 (V : (c : Dev nD) → (b : Ref sig .tc) → Buf (Elt F) ((c : Thread nD τ).loc b)) (c : Dev nD) (t : Fin cfg3.N) : (dat3 V c).after 1 t = iblk3 V c 1 t := by dsimp only [dat3]
theorem after3_2 (V : (c : Dev nD) → (b : Ref sig .tc) → Buf (Elt F) ((c : Thread nD τ).loc b)) (c : Dev nD) (t : Fin cfg3.N) : (dat3 V c).after 2 t = iblk3 V c 2 t := by dsimp only [dat3]
theorem after3_3 (V : (c : Dev nD) → (b : Ref sig .tc) → Buf (Elt F) ((c : Thread nD τ).loc b)) (c : Dev nD) (t : Fin cfg3.N) : (dat3 V c).after 3 t = iblk3 V c 3 t := by dsimp only [dat3]
theorem after3_4 (V : (c : Dev nD) → (b : Ref sig .tc) → Buf (Elt F) ((c : Thread nD τ).loc b)) (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (V : (c : Dev nD) → (b : Ref sig .tc) → Buf (Elt F) ((c : Thread nD τ).loc b)) (c : Dev nD) (t : Fin cfg3.N) (d) : (dat3 V c).before 0 t d = iblk3 V c 0 t :=
  before3_0_of V (dat3 V c) (A_eq3 V c 0) (after3_0 V c) t d
theorem before3_1 (V : (c : Dev nD) → (b : Ref sig .tc) → Buf (Elt F) ((c : Thread nD τ).loc b)) (c : Dev nD) (t : Fin cfg3.N) (d) : (dat3 V c).before 1 t d = iblk3 V c 1 t :=
  before3_1_of V (dat3 V c) (A_eq3 V c 1) (after3_1 V c) t d
theorem before3_2 (V : (c : Dev nD) → (b : Ref sig .tc) → Buf (Elt F) ((c : Thread nD τ).loc b)) (c : Dev nD) (t : Fin cfg3.N) (d) : (dat3 V c).before 2 t d = iblk3 V c 2 t :=
  before3_2_of V (dat3 V c) (A_eq3 V c 2) (after3_2 V c) t d
theorem before3_3 (V : (c : Dev nD) → (b : Ref sig .tc) → Buf (Elt F) ((c : Thread nD τ).loc b)) (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (V : (c : Dev nD) → (b : Ref sig .tc) → Buf (Elt F) ((c : Thread nD τ).loc b)) (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (V : (c : Dev nD) → (b : Ref sig .tc) → Buf (Elt F) ((c : Thread nD τ).loc b)) (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's debt pass through unread. -/
theorem sound_body3 (V : (c : Dev nD) → (b : Ref sig .tc) → Buf (Elt F) ((c : Thread nD τ).loc b)) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (V : (c : Dev nD) → (b : Ref sig .tc) → Buf (Elt F) ((c : Thread nD τ).loc b)) (c : Dev nD) : BodyObligation (dat3 (F := F) V c) (defs₀ (F := F)) Variants.none () Set.univ := fun t => by
  rw [bigSep_W3, bigSep_W3]
  exact sound_body3 V c t

end Cert.Kernel.Hand

end
-- ==== Proof.Bits.Reg4.lean ====
import proofs.«423604_j68796786147746_2_alg».proof.Proof.Gen.Kernel.Launch
import proofs.«423604_j68796786147746_2_alg».proof.Proof.Gen.Kernel.Skeleton
import proofs.«423604_j68796786147746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's control and its triples (no reference to the arrays) -/

/-! ## The body's two conditions -/

/-- The condition of the body's first `scf.if` (reset the accumulator), from the grid coordinate. -/
abbrev cond4_1 (i : grid4.Coords) : Prop := (Scalar.cmpi .ne (Scalar.extui (Scalar.cmpi .eq (BitVec.ofNat 32 (i 0).val) 0#32)) 0#32) = 1#1
/-- The condition of the body's second `scf.if` (copy the accumulator to the output), from the grid coordinate. -/
abbrev cond4_2 (i : grid4.Coords) : Prop := k4_cond2 i = 1#1

/-- The first holds at the first point only, -/
theorem hcond4_1 : ∀ t : Fin cfg4.N, cond4_1 (grid4.coords t) ↔ t.val = 0 :=
  (by decide +kernel : ∀ t : Fin grid4.N, cond4_1 (grid4.coords t) ↔ t.val = 0)
/-- the second at the last point only. -/
theorem hcond4_2 : ∀ t : Fin cfg4.N, cond4_2 (grid4.coords t) ↔ t.val = 19 :=
  (by decide +kernel : ∀ t : Fin grid4.N, cond4_2 (grid4.coords t) ↔ t.val = 19)

/-! ## The body's accesses: each buffer is read and written whole -/

/-- The offsets of every access are zero on both axes. -/
theorem zero_off4 : (![0, 0] : Fin 2 → ℕ) = fun _ => 0 := by
  funext a; fin_cases a <;> rfl

/-- A store of the whole accumulator, whatever came before it, leaves its payload. -/
theorem read_store4 {sp : Space} (v : View sig .tc sp S64x128 .f32) (f : v.ty.Contents (Elt F)) (p : Vec F S64x128 .f32)
    (L : List (View.Piece (Elt F) S64x128 .f32)) :
    v.read (Elt F) (v.writes (Elt F) f (⟨Rect.unit (s := S64x128) ![0, 0] S64x128.size inb_S64x128_S64x128_0_0, p⟩ :: L)) = p := by
  have hcov : ∀ y : S64x128.Idx, ∃ pc ∈ ((⟨Rect.unit (s := S64x128) ![0, 0] S64x128.size inb_S64x128_S64x128_0_0, p⟩ : View.Piece (Elt F) S64x128 .f32) :: L), y ∈ pc.1.set :=
    fun y => ⟨⟨Rect.unit (s := S64x128) ![0, 0] S64x128.size inb_S64x128_S64x128_0_0, p⟩, List.mem_cons_self,
      View.mem_set_unit_zero (S := S64x128) zero_off4 inb_S64x128_S64x128_0_0 y⟩
  rw [View.read_writes_eq_canon v f _ hcov]
  exact View.canon_cons_unit_zero (S := S64x128) zero_off4 inb_S64x128_S64x128_0_0 p L

/-! ## The body's triple, in its three control cases -/

set_option maxHeartbeats 1000000 in
/-- THE FIRST POINT. On whole buffers — the two inputs at known contents, the output's at contents handed back
    untouched, the accumulator at anything — the body resets the accumulator to zero and stores into it the tile's
    contribution added to that zero; the second condition fails, so the output's buffer is not touched. -/
theorem sound_kernel4_A (c : Dev nD) (E : Set ℕ) (i : grid4.Coords)
    (arg1 : Memref sig .tc .vmem S5000x128 .f32) (harg1 : arg1.IsWhole)
    (arg2 : Memref sig .tc .vmem S5000x1 .i32) (harg2 : arg2.IsWhole)
    (arg3 : Memref sig .tc .vmem S64x128 .f32) (harg3 : arg3.IsWhole)
    (arg4 : Memref sig .tc .vmem S64x128 .f32) (harg4 : arg4.IsWhole)
    (hc1 : cond4_1 i) (hc2 : ¬ cond4_2 i)
    (x0 : Vec F S5000x128 .f32) (x1 : Vec F S5000x1 .i32) (xi : Vec F S64x128 .f32) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi
            ∗ owns (c : Thread nD τ) arg4 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_store4]
  simp only [View.readAt_eq_ld, View.ld_unit_zero (S := S5000x128) zero_off4, View.ld_unit_zero (S := S5000x1) zero_off4,
    View.ld_unit_zero (S := S64x128) zero_off4, View.readCov_unit_zero (S := S64x128) _ zero_off4]

set_option maxHeartbeats 1000000 in
/-- A MIDDLE POINT. The accumulator holds what the point before left; the body stores into it the tile's contribution
    added to that; neither condition holds, so nothing is reset and the output's buffer is not touched. -/
theorem sound_kernel4_B (c : Dev nD) (E : Set ℕ) (i : grid4.Coords)
    (arg1 : Memref sig .tc .vmem S5000x128 .f32) (harg1 : arg1.IsWhole)
    (arg2 : Memref sig .tc .vmem S5000x1 .i32) (harg2 : arg2.IsWhole)
    (arg3 : Memref sig .tc .vmem S64x128 .f32) (harg3 : arg3.IsWhole)
    (arg4 : Memref sig .tc .vmem S64x128 .f32) (harg4 : arg4.IsWhole)
    (hc1 : ¬ cond4_1 i) (hc2 : ¬ cond4_2 i)
    (x0 : Vec F S5000x128 .f32) (x1 : Vec F S5000x1 .i32) (xi : Vec F S64x128 .f32) (xs : Vec F S64x128 .f32) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi
            ∗ owns (c : Thread nD τ) arg4 fullShare (k4_pay2 x0 x1 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0
  subst hf1
  subst hf2
  subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_store4]
  simp only [View.readAt_eq_ld, View.ld_unit_zero (S := S5000x128) zero_off4, View.ld_unit_zero (S := S5000x1) zero_off4,
    View.ld_unit_zero (S := S64x128) zero_off4]

set_option maxHeartbeats 1000000 in
/-- THE LAST POINT. As at a middle point, and then the second condition holds: the body copies the accumulator into the
    output's buffer, whatever that held. -/
theorem sound_kernel4_C (c : Dev nD) (E : Set ℕ) (i : grid4.Coords)
    (arg1 : Memref sig .tc .vmem S5000x128 .f32) (harg1 : arg1.IsWhole)
    (arg2 : Memref sig .tc .vmem S5000x1 .i32) (harg2 : arg2.IsWhole)
    (arg3 : Memref sig .tc .vmem S64x128 .f32) (harg3 : arg3.IsWhole)
    (arg4 : Memref sig .tc .vmem S64x128 .f32) (harg4 : arg4.IsWhole)
    (hc1 : ¬ cond4_1 i) (hc2 : cond4_2 i)
    (x0 : Vec F S5000x128 .f32) (x1 : Vec F S5000x1 .i32) (xs : Vec F S64x128 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k4_pay2 x0 x1 xs)
            ∗ owns (c : Thread nD τ) arg4 fullShare (k4_pay2 x0 x1 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0
  subst hf1
  subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_store4]
    simp only [View.readAt_eq_ld, View.ld_unit_zero (S := S5000x128) zero_off4, View.ld_unit_zero (S := S5000x1) zero_off4,
      View.ld_unit_zero (S := S64x128) zero_off4, View.readCov_unit_zero (S := S64x128) _ zero_off4]
  iexists _; isplitr
  swap; · iexact H3
  ipureintro
  sl_unfold_words
  rw [read_store4]
  simp only [View.readAt_eq_ld, View.ld_unit_zero (S := S5000x128) zero_off4, View.ld_unit_zero (S := S5000x1) zero_off4,
    View.ld_unit_zero (S := S64x128) zero_off4]

section Region4
-- the TensorCore's buffer contents when the region is entered
variable (V : (c : Dev nD) → (b : Ref sig .tc) → Buf (Elt F) ((c : Thread nD τ).loc b))

/-! # Region 4: the per-graph sum of node rows, accumulated tile by tile

The grid has 20 points; point `t` sees rows `5000 t … 5000 t + 4999` of the node features and of the graph-id column. A
scratch accumulator of one entry per graph and channel is carried from point to point: the first point resets it to
zero, every point adds its tile's contribution into it, and the last point copies it into the output's buffer, which is
the only point at which the output is written back. -/

/-- Window `w`'s block at grid point `t`, read off its array as the region finds it: rows `5000 t … 5000 t + 4999` of the
    node features (window 0) or of the graph-id column (window 1); the whole output array (window 2). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node-feature tile of point `t`, at its literal type. -/
abbrev tile4 (c : Dev nD) (t : Fin cfg4.N) : Vec F S5000x128 .f32 := iblk4 V c 0 t
/-- The graph-id tile of point `t`, at its literal type. -/
abbrev ids4 (c : Dev nD) (t : Fin cfg4.N) : Vec F S5000x1 .i32 := iblk4 V c 1 t

/-- THE ACCUMULATION. What the scratch accumulator holds after the body at point `n`: at the first point the tile's
    contribution added to the zero the point has just reset it to; at a later point the tile's contribution added to
    what the point before left. -/
def acc4 (c : Dev nD) : (n : ℕ) → n < cfg4.N → Vec F S64x128 .f32
  | 0, hn => k4_pay2 (tile4 V c ⟨0, hn⟩) (ids4 V c ⟨0, hn⟩) (k4_pay1 (F := F))
  | n + 1, hn => k4_pay2 (tile4 V c ⟨n + 1, hn⟩) (ids4 V c ⟨n + 1, hn⟩) (acc4 c n (Nat.lt_of_succ_lt hn))

theorem acc4_zero (c : Dev nD) (hn : 0 < cfg4.N) :
    acc4 V c 0 hn = k4_pay2 (tile4 V c ⟨0, hn⟩) (ids4 V c ⟨0, hn⟩) (k4_pay1 (F := F)) := rfl

theorem acc4_succ (c : Dev nD) (n : ℕ) (hn : n + 1 < cfg4.N) :
    acc4 V c (n + 1) hn = k4_pay2 (tile4 V c ⟨n + 1, hn⟩) (ids4 V c ⟨n + 1, hn⟩) (acc4 V c n (Nat.lt_of_succ_lt hn)) := rfl

/-- At a point that is not the first: the tile's contribution added to what the point before left. -/
theorem acc4_pos (c : Dev nD) (t : Fin cfg4.N) (hz : t.val ≠ 0) :
    acc4 V c t.val t.isLt
      = k4_pay2 (tile4 V c t) (ids4 V c t) (acc4 V c (t.val - 1) (Nat.lt_of_le_of_lt (Nat.sub_le _ _) t.isLt)) := by
  obtain ⟨n, hn⟩ := t
  cases n with
  | zero => exact absurd rfl hz
  | succ n => rfl

/-- The scratch accumulator, a whole scoped buffer of the kernel's own, passed beside the windows. -/
abbrev scM4 : Memref sig .tc .vmem S64x128 .f32 := Memref.whole cc4_scratch0

/-- The region invariant before position `n`: before the first point every scoped buffer that is no staging buffer at
    some contents (the accumulator among them) and the generator register at some state; afterwards the accumulator at
    what the point before left in it, beside the other such buffers and the register as before. -/
def Phi4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem Phi4_pos (c : Dev nD) (n : ℕ) (h : n ≤ cfg4.N) (hz : n ≠ 0) :
    Phi4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of the region on core `c`: the arrays as the region finds them; after the body at point `t` each input's
    buffer still at its block and the output's at the accumulator after the point (which the body copies there at the
    last point, the only one that matters: elsewhere the window is idle); the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

/-- The invariant at a point's start, restated at the point's position. -/
theorem Phi4_castSucc (c : Dev nD) (t : Fin cfg4.N) :
    (dat4 V c).Φ t.castSucc = Phi4 V c t.val (Nat.le_of_lt t.isLt) := by
  dsimp only [dat4]; simp only [Fin.coe_castSucc]

/-- At the first point the accumulator ends at the tile's contribution added to zero. -/
theorem acc4_first (c : Dev nD) (t : Fin cfg4.N) (hz : t.val = 0) :
    acc4 V c t.val t.isLt = k4_pay2 (tile4 V c t) (ids4 V c t) (k4_pay1 (F := F)) := by
  obtain ⟨n, hn⟩ := t
  cases n with
  | zero => rfl
  | succ n => exact absurd hz (Nat.succ_ne_zero n)

/-- The node-feature tile's staging buffer holds the tile of the point: it is fetched at every point and the body only reads it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the graph-id tile. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## Where the windows are idle -/

/-- The two inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- Where the second condition fails the output is idle: the body stores nothing into its buffer, -/
theorem idleAt4_2 : ∀ t : Fin cfg4.N, ¬cond4_2 (grid4.coords t) → cfg4.idle 2 (grid4.coords t) = true := by decide +kernel
/-- and the pipeline does not write its block back. -/
theorem noFlush4_2 : ∀ t : Fin cfg4.N, ¬cond4_2 (grid4.coords t) → (cfg4.win 2).flush t = false := by decide +kernel
/-- Where it holds the output is live. -/
theorem liveAt4_2 : ∀ t : Fin cfg4.N, cond4_2 (grid4.coords t) → cfg4.idle 2 (grid4.coords t) = false := by decide +kernel

/-- What the launch hands the region, with the accumulator named as a memref owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' buffers hold their tiles; the closed forms of the two conditions say which of the
    three cases the point is in. The invariant hands the body the accumulator — at anything at the first point, at what
    the point before left afterwards — and takes it back at this point's contents; where the second condition fails the
    output's buffer is handed back as found, and at the last point it is left at the accumulator. The core owes nothing
    throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 20 := lt_of_lt_of_eq t.isLt (show cfg4.N = 20 from N_4)
  by_cases h0 : t.val = 0
  · -- the first point
    have hc1 : cond4_1 (grid4.coords t) := (hcond4_1 t).mpr h0
    have hc2 : ¬cond4_2 (grid4.coords t) := fun h => by have := (hcond4_2 t).mp h; omega
    rw [Dat.leavesExact_idle (dat4 V c) 2 t (idleAt4_2 t hc2) (noFlush4_2 t hc2)]
    rw [acc4_first V c t h0]
    rw [Phi4_castSucc V c t, Phi4_zero V c _ _ h0, PhiA4_eq]
    iintro ⟨⟨⟨HS, HR⟩, Hg⟩, Ho, ⟨%d0, H0⟩, ⟨%d1, H1⟩, ⟨%d2, H2⟩⟩
    iapply (sound_kernel4_A c Set.univ (grid4.coords t) _ _ _ _ _ _ _ _ hc1 hc2 (tile4 V c t) (ids4 V c t) ((dat4 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hc1 : ¬cond4_1 (grid4.coords t) := fun h => h0 ((hcond4_1 t).mp h)
    rw [acc4_pos V c t h0]
    rw [Phi4_castSucc V c t, Phi4_pos V c _ _ h0]
    by_cases h19 : t.val = 19
    · -- the last point
      have hc2 : cond4_2 (grid4.coords t) := (hcond4_2 t).mpr h19
      rw [show (dat4 V c).leavesExact 2 t = owns (c : Thread nD τ) (st4_2 t) fullShare ((dat4 V c).after 2 t) from by
        unfold Dat.leavesExact; rw [liveAt4_2 t hc2], after4_2, acc4_pos V c t h0]
      iintro ⟨⟨⟨HS, HR⟩, Hg⟩, Ho, ⟨%d0, H0⟩, ⟨%d1, H1⟩, ⟨%d2, H2⟩⟩
      iapply (sound_kernel4_C c Set.univ (grid4.coords t) _ _ _ _ _ _ _ _ hc1 hc2 (tile4 V c t) (ids4 V c t)
        (acc4 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- a middle point
      have hc2 : ¬cond4_2 (grid4.coords t) := fun h => h19 ((hcond4_2 t).mp h)
      rw [Dat.leavesExact_idle (dat4 V c) 2 t (idleAt4_2 t hc2) (noFlush4_2 t hc2)]
      iintro ⟨⟨⟨HS, HR⟩, Hg⟩, Ho, ⟨%d0, H0⟩, ⟨%d1, H1⟩, ⟨%d2, H2⟩⟩
      iapply (sound_kernel4_B c Set.univ (grid4.coords t) _ _ _ _ _ _ _ _ hc1 hc2 (tile4 V c t) (ids4 V c t) ((dat4 V c).before 2 t d2)
        (acc4 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point but the first the invariant gives that back: the accumulator's named contents are forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, HR⟩, Hg⟩
  isplitl [HS HR]
  · isplitl [HS]; · iexists _; iexact HS
    iexact HR
  iexact Hg

/-- The same after the last point. -/
theorem hout4 (c : Dev nD) : (dat4 V c).Φ (Fin.last cfg4.N) ⊢ Pipeline.ΦA spec4 c :=
  Phi4_out V c _ (by rw [Fin.val_last]; have : cfg4.N = 20 := N_4; omega)

end Region4

end Cert.Kernel.Hand

end
-- ==== Proof.Bits.Fold.lean ====
/-
  The contents of every unscoped buffer of core `c` at each boundary between two items of @main, as a fold from the
  launch memory: a stretch of host operations applies them in order; a kernel region leaves each of its arrays at
  what its write-backs leave (an input as entered, an output as the fold of the blocks written back) and every other
  buffer as entered. Each region's proof data are taken at the contents the region is entered from.
-/
import proofs.«423604_j68796786147746_2_alg».proof.Proof.Gen.Kernel.Regions
import proofs.«423604_j68796786147746_2_alg».proof.Proof.Bits.Reg0
import proofs.«423604_j68796786147746_2_alg».proof.Proof.Bits.Reg1
import proofs.«423604_j68796786147746_2_alg».proof.Proof.Bits.Reg2
import proofs.«423604_j68796786147746_2_alg».proof.Proof.Bits.Reg3
import proofs.«423604_j68796786147746_2_alg».proof.Proof.Bits.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- At launch. -/
abbrev W0 : Dev nD → Valuation τ sig (Elt F) := fun c b => m (c, b)
/-- After the stretch `hostOps0`. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the stretch `hostOps1`. -/
abbrev W3 : Dev nD → Valuation τ sig (Elt F) := fun c => StableHlo.after hostOps1 (W2 m c)
/-- The same, read at the TensorCore's references. -/
abbrev V3 : (c : Dev nD) → (b : Ref sig .tc) → Buf (Elt F) ((c : Thread nD τ).loc b) := fun c b => W3 m c b
/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After region 2: its arrays at what the pipeline leaves, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same, read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- After the stretch `hostOps3`. -/
abbrev W6 : Dev nD → Valuation τ sig (Elt F) := fun c => StableHlo.after hostOps3 (W5 m c)
/-- The same, read at the TensorCore's references. -/
abbrev V6 : (c : Dev nD) → (b : Ref sig .tc) → Buf (Elt F) ((c : Thread nD τ).loc b) := fun c b => W6 m c b
/-- After region 3: its arrays at what the pipeline leaves, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same, read at the TensorCore's references. -/
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)
/-- After the stretch `hostOps4`. -/
abbrev W8 : Dev nD → Valuation τ sig (Elt F) := fun c => StableHlo.after hostOps4 (W7 m c)
/-- The same, read at the TensorCore's references. -/
abbrev V8 : (c : Dev nD) → (b : Ref sig .tc) → Buf (Elt F) ((c : Thread nD τ).loc b) := fun c b => W8 m c b
/-- After region 4: its arrays at what the pipeline leaves, every other buffer as entered. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- The same, read at the TensorCore's references. -/
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)
/-- After the stretch `hostOps5`. -/
abbrev W10 : Dev nD → Valuation τ sig (Elt F) := fun c => StableHlo.after hostOps5 (W9 m c)
/-- The same, read at the TensorCore's references. -/
abbrev V10 : (c : Dev nD) → (b : Ref sig .tc) → Buf (Elt F) ((c : Thread nD τ).loc b) := fun c b => W10 m c b

/-! ## The proof data family and what rides beside the buffers -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V8 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the register at some state. -/
abbrev Tₙ (c : Dev nD) : sProp 𝕄 := iprop(StableHlo.held (c : Thread nD τ) (Pipeline.ucRefs τ sig) (W10 m c) ∗ ∃ r, prngReg c r)

end Cert.Kernel.Hand

end
-- ==== Proof.Bits.Seg0.lean ====
/-
  Region 0 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Bits.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (V1 m) c 0]
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0 (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (V1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (V1 m) c (Fin.last _)]
    icases HO with ⟨%W, -, HO⟩; iexists W; iexact HO

end Cert.Kernel.Hand

end
-- ==== Proof.Bits.Seg1.lean ====
/-
  Region 1 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Bits.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (V3 m) c 0]
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (V3 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (V3 m) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (V3 m) c (Fin.last _)]
    icases HO with ⟨%W, -, HO⟩; iexists W; iexact HO

end Cert.Kernel.Hand

end
-- ==== Proof.Bits.Seg2.lean ====
/-
  Region 2 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Bits.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun c t => owed_eq2 (V4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (V4 m) c w) (V4 m c) fun w => A_eq2 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (V4 m) c 0]
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2 (V4 m) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Phi2 (V4 m) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (V4 m) c w)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (V4 m) c (Fin.last _)]
    icases HO with ⟨%W, -, HO⟩; iexists W; iexact HO

end Cert.Kernel.Hand

end
-- ==== Proof.Bits.Seg3.lean ====
/-
  Region 3 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Bits.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun c t => owed_eq3 (V6 m) c t
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (V6 m) c w) (V6 m c) fun w => A_eq3 (V6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from owed_eq3 (V6 m) c 0]
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3 (V6 m) c 0]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from Phi3 (V6 m) c (Fin.last _)]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (V6 m) c w)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last _) = 0 from owed_eq3 (V6 m) c (Fin.last _)]
    icases HO with ⟨%W, -, HO⟩; iexists W; iexact HO

end Cert.Kernel.Hand

end
-- ==== Proof.Bits.Seg4.lean ====
/-
  Region 4 of @main as a segment over the thread state "every unscoped buffer at the boundary's contents, the
  generator register at some state, nothing owed": entered from the contents before it, left at the contents after
  it. Its arrays are split out of the unscoped buffers at entry and put back at what the pipeline leaves at exit; the
  register goes into the body's invariant and comes back; the kernel has no semaphore of its own.
-/
import proofs.«423604_j68796786147746_2_alg».proof.Proof.Bits.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m) c).loose
  hwaits := Pipeline.hwaits_of_owed_zero _ _ _ _ L lv 4 fun c t => owed_eq4 (V8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (V8 m) c w) (V8 m c) fun w => A_eq4 (V8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 4 c).owed 0 = 0 from owed_eq4 (V8 m) c 0]
      icases HO with ⟨%W, HO⟩; iexists W; isplitr; · ipureintro; exact fun _ _ => Or.inl trivial
      iexact HO
    isplitl [Hp]; · iexact Hp
    iexact Hrest
  hin c := by
    refine (?_ : _ ⊢ Pipeline.ΦA spec4 c).trans (hin4 (V8 m) c)
    unfold Pipeline.ΦA
    iintro ⟨Hp, -, Hr⟩
    isplitl [Hr]; · iexact Hr
    iexact Hp
  hout c := by
    rw [Pipeline.ownSems0_none]
    refine (hout4 (V8 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (V8 m) c w)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 4 c).owed (Fin.last _) = 0 from owed_eq4 (V8 m) c (Fin.last _)]
    icases HO with ⟨%W, -, HO⟩; iexists W; iexact HO

end Cert.Kernel.Hand

end
-- ==== Proof.Bits.Run.lean ====
/-
  The run of @main: its ten items in order (five stretches of host operations, five kernel regions), each a segment
  from the contents before it to the contents after it, and the launch over them: every weakly fair execution
  terminates, and in every final memory each unscoped buffer of core `c` holds the last contents of the fold.
-/
import proofs.«423604_j68796786147746_2_alg».proof.Proof.Bits.Seg0
import proofs.«423604_j68796786147746_2_alg».proof.Proof.Bits.Seg1
import proofs.«423604_j68796786147746_2_alg».proof.Proof.Bits.Seg2
import proofs.«423604_j68796786147746_2_alg».proof.Proof.Bits.Seg3
import proofs.«423604_j68796786147746_2_alg».proof.Proof.Bits.Seg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's ten items as segments: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)),
    .region (reg4 m),
    .host (hseg hostOps5 hostOps5_sub hostOps5_fresh (W9 m)) ]

-- the launch theorem's implicit arguments are found by unifying its conclusion with this one, which takes unfolding
-- plain definitions in a metavariable's type
set_option backward.isDefEq.respectTransparency.types false in
/-- THE RUN: from any memory with zero counters every weakly fair execution of @main terminates, nothing faulting, and
    every final memory holds each unscoped buffer of each core at the fold's last contents `W10`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W10 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.Bits.Keep.lean ====
/-
  What each item of @main leaves alone: a stretch of host operations changes only the buffers its operations write, and a
  kernel region changes only its output array (an input array is read through its window and ends as entered, any other
  buffer is not touched). Hence each argument array holds its launch contents at the end.
-/
import proofs.«423604_j68796786147746_2_alg».proof.Proof.Bits.Fold

set_option maxRecDepth 16384

noncomputable section

namespace Cert.Kernel.Hand

open Cert.Kernel Cert.Kernel.Gen
open Idealize.ShloMosaic Idealize.ShloMosaic.TcCoe
open Idealize.ShloMosaic.Pipeline (Dat)

variable {F : FTy → Type} [FloatOps F]

variable (m : (ℓ : Loc nD τ sig) → Buf (Elt F) ℓ)

/-- The stretch `hostOps0` leaves every buffer it does not write. -/
theorem W1_keep (c : Dev nD) (b : Ref sig .tc) (h : b ∉ hostOps0_W) : W1 m c (Proc.devRef .tc b) = W0 m c (Proc.devRef .tc b) :=
  StableHlo.after_of_writes_sub hostOps0 _ hostOps0_writes h
/-- Region 0 leaves every buffer but its output array `main_v28`. -/
theorem W2_keep (c : Dev nD) (b : Ref sig .tc) (hb : b ≠ main_v28) : W2 m c (Proc.devRef .tc b) = W1 m c (Proc.devRef .tc b) := by
  by_cases h : ∀ w, Pipeline.arrRef spec0 w ≠ b
  · exact W2_of_ne m c b h
  · obtain ⟨w, hw⟩ := not_forall.mp h
    have hw' : Pipeline.arrRef spec0 w = b := not_not.mp hw
    subst hw'
    match w with
    | ⟨0, _⟩ => exact (W2_arr m c 0).trans (((dat0 (V1 m) c).arrAt_in 0 rfl _).trans (A_eq0 (V1 m) c 0))
    | ⟨1, _⟩ => exact (W2_arr m c 1).trans (((dat0 (V1 m) c).arrAt_in 1 rfl _).trans (A_eq0 (V1 m) c 1))
    | ⟨2, _⟩ => exact absurd rfl hb
/-- The stretch `hostOps1` leaves every buffer it does not write. -/
theorem W3_keep (c : Dev nD) (b : Ref sig .tc) (h : b ∉ hostOps1_W) : W3 m c (Proc.devRef .tc b) = W2 m c (Proc.devRef .tc b) :=
  StableHlo.after_of_writes_sub hostOps1 _ hostOps1_writes h
/-- Region 1 leaves every buffer but its output array `main_v44`. -/
theorem W4_keep (c : Dev nD) (b : Ref sig .tc) (hb : b ≠ main_v44) : W4 m c (Proc.devRef .tc b) = W3 m c (Proc.devRef .tc b) := by
  by_cases h : ∀ w, Pipeline.arrRef spec1 w ≠ b
  · exact W4_of_ne m c b h
  · obtain ⟨w, hw⟩ := not_forall.mp h
    have hw' : Pipeline.arrRef spec1 w = b := not_not.mp hw
    subst hw'
    match w with
    | ⟨0, _⟩ => exact (W4_arr m c 0).trans (((dat1 (V3 m) c).arrAt_in 0 rfl _).trans (A_eq1 (V3 m) c 0))
    | ⟨1, _⟩ => exact (W4_arr m c 1).trans (((dat1 (V3 m) c).arrAt_in 1 rfl _).trans (A_eq1 (V3 m) c 1))
    | ⟨2, _⟩ => exact (W4_arr m c 2).trans (((dat1 (V3 m) c).arrAt_in 2 rfl _).trans (A_eq1 (V3 m) c 2))
    | ⟨3, _⟩ => exact (W4_arr m c 3).trans (((dat1 (V3 m) c).arrAt_in 3 rfl _).trans (A_eq1 (V3 m) c 3))
    | ⟨4, _⟩ => exact absurd rfl hb
/-- Region 2 leaves every buffer but its output array `main_v45`. -/
theorem W5_keep (c : Dev nD) (b : Ref sig .tc) (hb : b ≠ main_v45) : W5 m c (Proc.devRef .tc b) = W4 m c (Proc.devRef .tc b) := by
  by_cases h : ∀ w, Pipeline.arrRef spec2 w ≠ b
  · exact W5_of_ne m c b h
  · obtain ⟨w, hw⟩ := not_forall.mp h
    have hw' : Pipeline.arrRef spec2 w = b := not_not.mp hw
    subst hw'
    match w with
    | ⟨0, _⟩ => exact (W5_arr m c 0).trans (((dat2 (V4 m) c).arrAt_in 0 rfl _).trans (A_eq2 (V4 m) c 0))
    | ⟨1, _⟩ => exact (W5_arr m c 1).trans (((dat2 (V4 m) c).arrAt_in 1 rfl _).trans (A_eq2 (V4 m) c 1))
    | ⟨2, _⟩ => exact absurd rfl hb
/-- The stretch `hostOps3` leaves every buffer it does not write. -/
theorem W6_keep (c : Dev nD) (b : Ref sig .tc) (h : b ∉ hostOps3_W) : W6 m c (Proc.devRef .tc b) = W5 m c (Proc.devRef .tc b) :=
  StableHlo.after_of_writes_sub hostOps3 _ hostOps3_writes h
/-- Region 3 leaves every buffer but its output array `main_v61`. -/
theorem W7_keep (c : Dev nD) (b : Ref sig .tc) (hb : b ≠ main_v61) : W7 m c (Proc.devRef .tc b) = W6 m c (Proc.devRef .tc b) := by
  by_cases h : ∀ w, Pipeline.arrRef spec3 w ≠ b
  · exact W7_of_ne m c b h
  · obtain ⟨w, hw⟩ := not_forall.mp h
    have hw' : Pipeline.arrRef spec3 w = b := not_not.mp hw
    subst hw'
    match w with
    | ⟨0, _⟩ => exact (W7_arr m c 0).trans (((dat3 (V6 m) c).arrAt_in 0 rfl _).trans (A_eq3 (V6 m) c 0))
    | ⟨1, _⟩ => exact (W7_arr m c 1).trans (((dat3 (V6 m) c).arrAt_in 1 rfl _).trans (A_eq3 (V6 m) c 1))
    | ⟨2, _⟩ => exact (W7_arr m c 2).trans (((dat3 (V6 m) c).arrAt_in 2 rfl _).trans (A_eq3 (V6 m) c 2))
    | ⟨3, _⟩ => exact (W7_arr m c 3).trans (((dat3 (V6 m) c).arrAt_in 3 rfl _).trans (A_eq3 (V6 m) c 3))
    | ⟨4, _⟩ => exact absurd rfl hb
/-- The stretch `hostOps4` leaves every buffer it does not write. -/
theorem W8_keep (c : Dev nD) (b : Ref sig .tc) (h : b ∉ hostOps4_W) : W8 m c (Proc.devRef .tc b) = W7 m c (Proc.devRef .tc b) :=
  StableHlo.after_of_writes_sub hostOps4 _ hostOps4_writes h
/-- Region 4 leaves every buffer but its output array `main_v63`. -/
theorem W9_keep (c : Dev nD) (b : Ref sig .tc) (hb : b ≠ main_v63) : W9 m c (Proc.devRef .tc b) = W8 m c (Proc.devRef .tc b) := by
  by_cases h : ∀ w, Pipeline.arrRef spec4 w ≠ b
  · exact W9_of_ne m c b h
  · obtain ⟨w, hw⟩ := not_forall.mp h
    have hw' : Pipeline.arrRef spec4 w = b := not_not.mp hw
    subst hw'
    match w with
    | ⟨0, _⟩ => exact (W9_arr m c 0).trans (((dat4 (V8 m) c).arrAt_in 0 rfl _).trans (A_eq4 (V8 m) c 0))
    | ⟨1, _⟩ => exact (W9_arr m c 1).trans (((dat4 (V8 m) c).arrAt_in 1 rfl _).trans (A_eq4 (V8 m) c 1))
    | ⟨2, _⟩ => exact absurd rfl hb
/-- The stretch `hostOps5` leaves every buffer it does not write. -/
theorem W10_keep (c : Dev nD) (b : Ref sig .tc) (h : b ∉ hostOps5_W) : W10 m c (Proc.devRef .tc b) = W9 m c (Proc.devRef .tc b) :=
  StableHlo.after_of_writes_sub hostOps5 _ hostOps5_writes h

/-! ## The arguments end as launched -/
theorem W10_main_arg0 (c : Dev nD) : W10 m c (Proc.devRef .tc main_arg0) = m ((c : Thread nD τ).loc main_arg0) :=
  (W10_keep m c main_arg0 (by decide)).trans <| (W9_keep m c main_arg0 (by decide)).trans <| (W8_keep m c main_arg0 (by decide)).trans <|
  (W7_keep m c main_arg0 (by decide)).trans <| (W6_keep m c main_arg0 (by decide)).trans <| (W5_keep m c main_arg0 (by decide)).trans <|
  (W4_keep m c main_arg0 (by decide)).trans <| (W3_keep m c main_arg0 (by decide)).trans <| (W2_keep m c main_arg0 (by decide)).trans <|
  (W1_keep m c main_arg0 (by decide)).trans rfl
theorem W10_main_arg1 (c : Dev nD) : W10 m c (Proc.devRef .tc main_arg1) = m ((c : Thread nD τ).loc main_arg1) :=
  (W10_keep m c main_arg1 (by decide)).trans <| (W9_keep m c main_arg1 (by decide)).trans <| (W8_keep m c main_arg1 (by decide)).trans <|
  (W7_keep m c main_arg1 (by decide)).trans <| (W6_keep m c main_arg1 (by decide)).trans <| (W5_keep m c main_arg1 (by decide)).trans <|
  (W4_keep m c main_arg1 (by decide)).trans <| (W3_keep m c main_arg1 (by decide)).trans <| (W2_keep m c main_arg1 (by decide)).trans <|
  (W1_keep m c main_arg1 (by decide)).trans rfl
theorem W10_main_arg2 (c : Dev nD) : W10 m c (Proc.devRef .tc main_arg2) = m ((c : Thread nD τ).loc main_arg2) :=
  (W10_keep m c main_arg2 (by decide)).trans <| (W9_keep m c main_arg2 (by decide)).trans <| (W8_keep m c main_arg2 (by decide)).trans <|
  (W7_keep m c main_arg2 (by decide)).trans <| (W6_keep m c main_arg2 (by decide)).trans <| (W5_keep m c main_arg2 (by decide)).trans <|
  (W4_keep m c main_arg2 (by decide)).trans <| (W3_keep m c main_arg2 (by decide)).trans <| (W2_keep m c main_arg2 (by decide)).trans <|
  (W1_keep m c main_arg2 (by decide)).trans rfl
theorem W10_main_arg3 (c : Dev nD) : W10 m c (Proc.devRef .tc main_arg3) = m ((c : Thread nD τ).loc main_arg3) :=
  (W10_keep m c main_arg3 (by decide)).trans <| (W9_keep m c main_arg3 (by decide)).trans <| (W8_keep m c main_arg3 (by decide)).trans <|
  (W7_keep m c main_arg3 (by decide)).trans <| (W6_keep m c main_arg3 (by decide)).trans <| (W5_keep m c main_arg3 (by decide)).trans <|
  (W4_keep m c main_arg3 (by decide)).trans <| (W3_keep m c main_arg3 (by decide)).trans <| (W2_keep m c main_arg3 (by decide)).trans <|
  (W1_keep m c main_arg3 (by decide)).trans rfl
theorem W10_main_arg4 (c : Dev nD) : W10 m c (Proc.devRef .tc main_arg4) = m ((c : Thread nD τ).loc main_arg4) :=
  (W10_keep m c main_arg4 (by decide)).trans <| (W9_keep m c main_arg4 (by decide)).trans <| (W8_keep m c main_arg4 (by decide)).trans <|
  (W7_keep m c main_arg4 (by decide)).trans <| (W6_keep m c main_arg4 (by decide)).trans <| (W5_keep m c main_arg4 (by decide)).trans <|
  (W4_keep m c main_arg4 (by decide)).trans <| (W3_keep m c main_arg4 (by decide)).trans <| (W2_keep m c main_arg4 (by decide)).trans <|
  (W1_keep m c main_arg4 (by decide)).trans rfl
theorem W10_main_arg5 (c : Dev nD) : W10 m c (Proc.devRef .tc main_arg5) = m ((c : Thread nD τ).loc main_arg5) :=
  (W10_keep m c main_arg5 (by decide)).trans <| (W9_keep m c main_arg5 (by decide)).trans <| (W8_keep m c main_arg5 (by decide)).trans <|
  (W7_keep m c main_arg5 (by decide)).trans <| (W6_keep m c main_arg5 (by decide)).trans <| (W5_keep m c main_arg5 (by decide)).trans <|
  (W4_keep m c main_arg5 (by decide)).trans <| (W3_keep m c main_arg5 (by decide)).trans <| (W2_keep m c main_arg5 (by decide)).trans <|
  (W1_keep m c main_arg5 (by decide)).trans rfl
theorem W10_main_arg6 (c : Dev nD) : W10 m c (Proc.devRef .tc main_arg6) = m ((c : Thread nD τ).loc main_arg6) :=
  (W10_keep m c main_arg6 (by decide)).trans <| (W9_keep m c main_arg6 (by decide)).trans <| (W8_keep m c main_arg6 (by decide)).trans <|
  (W7_keep m c main_arg6 (by decide)).trans <| (W6_keep m c main_arg6 (by decide)).trans <| (W5_keep m c main_arg6 (by decide)).trans <|
  (W4_keep m c main_arg6 (by decide)).trans <| (W3_keep m c main_arg6 (by decide)).trans <| (W2_keep m c main_arg6 (by decide)).trans <|
  (W1_keep m c main_arg6 (by decide)).trans rfl
theorem W10_main_arg7 (c : Dev nD) : W10 m c (Proc.devRef .tc main_arg7) = m ((c : Thread nD τ).loc main_arg7) :=
  (W10_keep m c main_arg7 (by decide)).trans <| (W9_keep m c main_arg7 (by decide)).trans <| (W8_keep m c main_arg7 (by decide)).trans <|
  (W7_keep m c main_arg7 (by decide)).trans <| (W6_keep m c main_arg7 (by decide)).trans <| (W5_keep m c main_arg7 (by decide)).trans <|
  (W4_keep m c main_arg7 (by decide)).trans <| (W3_keep m c main_arg7 (by decide)).trans <| (W2_keep m c main_arg7 (by decide)).trans <|
  (W1_keep m c main_arg7 (by decide)).trans rfl
theorem W10_main_arg8 (c : Dev nD) : W10 m c (Proc.devRef .tc main_arg8) = m ((c : Thread nD τ).loc main_arg8) :=
  (W10_keep m c main_arg8 (by decide)).trans <| (W9_keep m c main_arg8 (by decide)).trans <| (W8_keep m c main_arg8 (by decide)).trans <|
  (W7_keep m c main_arg8 (by decide)).trans <| (W6_keep m c main_arg8 (by decide)).trans <| (W5_keep m c main_arg8 (by decide)).trans <|
  (W4_keep m c main_arg8 (by decide)).trans <| (W3_keep m c main_arg8 (by decide)).trans <| (W2_keep m c main_arg8 (by decide)).trans <|
  (W1_keep m c main_arg8 (by decide)).trans rfl

end Cert.Kernel.Hand

end
-- ==== Proof.Bits.Frame.lean ====
/-
  What the run gives the claims: every weakly fair execution of @main terminates and every argument array ends holding
  its launch contents (the frame); and the same with the result buffer named — it holds what the fold's last contents
  hold at it.
-/
import proofs.«423604_j68796786147746_2_alg».proof.Proof.Bits.Run
import proofs.«423604_j68796786147746_2_alg».proof.Proof.Bits.Keep

set_option maxRecDepth 16384

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The frame: the program runs to the end, nothing faulting, and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c),
      (h c _ (mem_uc main_arg8 (by decide))).trans (W10_main_arg8 m c)⟩) (run_main m ρ)

/-- The run with the result named: the result buffer ends at the fold's last contents, the arguments as launched. -/
theorem run_value : θ_run defs (onTc (τ := τ) (main (F := F))) ⟨m, fun _ => 0, ρ⟩ (fun r => ∀ c : Dev nD,
      r.2.mem ((c.tc : Thread nD τ).loc main_v77) = W10 m c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v77 (by decide)),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c),
      (h c _ (mem_uc main_arg8 (by decide))).trans (W10_main_arg8 m c)⟩) (run_main m ρ)

end Cert.Kernel.Hand

end
-- ==== Proof.Spec.lean ====
/-
  What the three kinds of kernel region of this graph network compute, as whole-array functions over the extended reals,
  index by index: a node-feature matrix times a weight matrix (`mm`), the layer's combination of the neighbour sum, the
  self-loop term and the bias followed by the leaky rectifier (`comb`), and the per-graph sum of node rows selected by
  the graph id of each node (`pool`, and `poolNested`, the same sum taken tile by tile).
-/
import Idealize.ShloMosaic.PureOps.Ideal
import Idealize.ShloMosaic.Lib.ValueIdx

noncomputable section

open scoped BigOperators

namespace Cert.Spec

open Idealize.ShloMosaic Idealize.ShloMosaic.ValueIdx

/-- node features: 100000 nodes, 128 channels -/
abbrev SNF : Shape := ⟨2, ![100000, 128]⟩
/-- a weight matrix -/
abbrev SFF : Shape := ⟨2, ![128, 128]⟩
/-- one number per node, as a column -/
abbrev SN1 : Shape := ⟨2, ![100000, 1]⟩
/-- one number per channel, as a row -/
abbrev S1F : Shape := ⟨2, ![1, 128]⟩
/-- graph features: 64 graphs, 128 channels -/
abbrev SGF : Shape := ⟨2, ![64, 128]⟩

/-- Row `n` of `x` against column `f` of `w`: the exact sum over the 128 input channels. -/
def mm (x : SNF.Idx → EReal) (w : SFF.Idx → EReal) : SNF.Idx → EReal :=
  fun i => ∑ k : Fin 128, x (ix2 (i 0 : Fin 100000) k) * w (ix2 k (i 1 : Fin 128))

/-- The leaky rectifier with slope 0.2 (the slope kept as its binary32 word): `p` where `p ≥ 0`, else slope times `p`. -/
def lrelu (p : EReal) : EReal :=
  Scalar.select (FloatOps.cmpf (F := Ideal) (φ := .f32) .oge p (Ideal.ofBits .f32 0x00000000#32)) p
    (Ideal.ofBits .f32 0x3E4CCCCD#32 * p)

/-- One layer's output at node `n`, channel `f`: the neighbour sum plus the node's own transformed row scaled by the
    node's inverse degree, plus the bias, through the leaky rectifier. -/
def comb (agg h : SNF.Idx → EReal) (d : SN1.Idx → EReal) (b : S1F.Idx → EReal) : SNF.Idx → EReal :=
  fun i => lrelu (agg i + h i * d (ix2 (i 0 : Fin 100000) (0 : Fin 1)) + b (ix2 (0 : Fin 1) (i 1 : Fin 128)))

/-- The indicator that a node's graph id (a 32-bit word) is graph `g`, as the number 1 or 0. -/
def hot (b : BitVec 32) (g : Fin 64) : EReal :=
  FloatOps.sitofp (F := Ideal) .f32 ((IntOp.cmpi .eq b (BitVec.ofNat 32 g.val)).setWidth 32)

/-- The per-graph sum: graph `g`, channel `f` is the sum over all nodes of the indicator times the node's entry. -/
def pool (h : SNF.Idx → EReal) (bt : SN1.Idx → BitVec 32) : SGF.Idx → EReal :=
  fun j => ∑ n : Fin 100000, hot (bt (ix2 n (0 : Fin 1))) (j 0 : Fin 64) * h (ix2 n (j 1 : Fin 128))

/-- Node `5000 * t + r`: row `r` of tile `t`. -/
def node (t : Fin 20) (r : Fin 5000) : Fin 100000 := ⟨5000 * t.val + r.val, by omega⟩

/-- The same sum taken tile by tile: 20 tiles of 5000 nodes. -/
def poolNested (h : SNF.Idx → EReal) (bt : SN1.Idx → BitVec 32) : SGF.Idx → EReal :=
  fun j => ∑ t : Fin 20, ∑ r : Fin 5000,
    hot (bt (ix2 (node t r) (0 : Fin 1))) (j 0 : Fin 64) * h (ix2 (node t r) (j 1 : Fin 128))

end Cert.Spec

end
-- ==== Proof.Val0.lean ====
import proofs.«423604_j68796786147746_2_alg».proof.Proof.Reg0
import proofs.«423604_j68796786147746_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

open scoped BigOperators

/-! ## The product tile at an index

The body's payload narrows both operands' format (the identity on extended reals) and contracts the feature tile's
column axis with the weight matrix's row axis into a zero accumulator: entry (p, q) is the exact sum over the 128
channels of tile row p against weight column q. -/

/-- The left operand is read at the output's row … -/
theorem lhs_row0 (j : S5000x128.Idx) (k : dot_S5000x128_S128x128_S5000x128_1_0_0_1_n_n.contr.Idx) :
    (dot_S5000x128_S128x128_S5000x128_1_0_0_1_n_n.lhsIdx j k 0).val = (j 0).val := rfl
/-- … and at the contraction position on its column axis; -/
theorem lhs_col0 (j : S5000x128.Idx) (k : dot_S5000x128_S128x128_S5000x128_1_0_0_1_n_n.contr.Idx) :
    (dot_S5000x128_S128x128_S5000x128_1_0_0_1_n_n.lhsIdx j k 1).val = (k ⟨0, by decide⟩).val := rfl
/-- the right operand at the contraction position on its row axis … -/
theorem rhs_row0 (j : S5000x128.Idx) (k : dot_S5000x128_S128x128_S5000x128_1_0_0_1_n_n.contr.Idx) :
    (dot_S5000x128_S128x128_S5000x128_1_0_0_1_n_n.rhsIdx j k 0).val = (k ⟨0, by decide⟩).val := rfl
/-- … and at the output's column. -/
theorem rhs_col0 (j : S5000x128.Idx) (k : dot_S5000x128_S128x128_S5000x128_1_0_0_1_n_n.contr.Idx) :
    (dot_S5000x128_S128x128_S5000x128_1_0_0_1_n_n.rhsIdx j k 1).val = (j 1).val := rfl

/-- At output index (p, q) and channel k the left operand's index is (p, k) … -/
theorem lhs_at0 (p : Fin 5000) (q k : Fin 128) :
    dot_S5000x128_S128x128_S5000x128_1_0_0_1_n_n.lhsIdx (ix2 p q) ((contrEquiv1 dot_S5000x128_S128x128_S5000x128_1_0_0_1_n_n 128 rfl rfl).symm k) = ix2 p k := by
  funext a; apply Fin.ext
  match a with
  | ⟨0, _⟩ => exact lhs_row0 _ _
  | ⟨1, _⟩ => exact (lhs_col0 _ _).trans (contrEquiv1_symm_val dot_S5000x128_S128x128_S5000x128_1_0_0_1_n_n 128 rfl rfl k)
/-- … and the right operand's is (k, q). -/
theorem rhs_at0 (p : Fin 5000) (q k : Fin 128) :
    dot_S5000x128_S128x128_S5000x128_1_0_0_1_n_n.rhsIdx (ix2 p q) ((contrEquiv1 dot_S5000x128_S128x128_S5000x128_1_0_0_1_n_n 128 rfl rfl).symm k) = ix2 k q := by
  funext a; apply Fin.ext
  match a with
  | ⟨0, _⟩ => exact (rhs_row0 _ _).trans (contrEquiv1_symm_val dot_S5000x128_S128x128_S5000x128_1_0_0_1_n_n 128 rfl rfl k)
  | ⟨1, _⟩ => exact rhs_col0 _ _

/-- The payload at (p, q): the sum over the channels of the tile's row p against the weight matrix's column q. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul]
  rw [Ideal.matmul_constant_zero_apply]
  rw [← Equiv.sum_comp (contrEquiv1 dot_S5000x128_S128x128_S5000x128_1_0_0_1_n_n 128 rfl rfl).symm]
  refine Finset.sum_congr rfl fun k _ => ?_
  rw [truncf_apply, truncf_apply, lhs_at0, rhs_at0]

/-! ## From the tiles to the array -/

theorem hz0 : (![0, 0] : Fin 2 → Nat) = fun _ => 0 := funext fun a => by fin_cases a <;> rfl

/-- The index maps over the grid: point t's feature tile and product tile are block row t of their arrays, and the
    weight matrix's one block is the whole matrix. -/
theorem idxFacts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- Row r of point t's feature tile is row 5000 t + r of the feature array. -/
theorem tile0_apply (t : Fin cfg0.N) (r : Fin 5000) (k : Fin 128) (n : Fin 100000) (hn : n.val = 5000 * t.val + r.val) :
    (iblk0 V c 0 t : Vec Ideal S5000x128 .f32) (ix2 r k) = (V c main_arg0 : S100000x128.Idx → EReal) (ix2 n k) := by
  obtain ⟨e0, e1, -⟩ := idxFacts0 t
  unfold iblk0
  rw [View.read_apply]
  show V c main_arg0 _ = V c main_arg0 _
  congr 1
  funext a; apply Fin.ext
  match a with
  | ⟨0, _⟩ => show win0_0.index t (0 : Fin 2) * 5000 + 1 * r.val = n.val; omega
  | ⟨1, _⟩ => show win0_0.index t (1 : Fin 2) * 128 + 1 * k.val = k.val; omega

/-- The weight block at every point is the weight matrix. -/
theorem weight0_apply (t : Fin cfg0.N) (k q : Fin 128) :
    (iblk0 V c 1 t : Vec Ideal S128x128 .f32) (ix2 k q) = (V c main_arg3 : S128x128.Idx → EReal) (ix2 k q) := by
  obtain ⟨-, -, e2, e3, -⟩ := idxFacts0 t
  unfold iblk0
  rw [View.read_apply]
  show V c main_arg3 _ = V c main_arg3 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point t leaves at (r, q) of the product tile is the matrix product at row 5000 t + r, column q. -/
theorem tileOut0_apply (t : Fin cfg0.N) (r : Fin 5000) (q : Fin 128) (n : Fin 100000) (hn : n.val = 5000 * t.val + r.val) :
    k0_pay1 (iblk0 V c 0 t) (iblk0 V c 1 t) (ix2 r q) = Cert.Spec.mm (V c main_arg0) (V c main_arg3) (ix2 n q) := by
  refine (pay0_apply (iblk0 V c 0 t) (iblk0 V c 1 t) r q).trans ?_
  unfold Cert.Spec.mm
  refine Finset.sum_congr rfl fun k _ => ?_
  rw [tile0_apply V c t r k n hn, weight0_apply V c t k q]

/-- What point t leaves at an index of the product tile is the matrix product at the index the tile's block puts it at. -/
theorem flushedAt0 (t : Fin cfg0.N) (j : S5000x128.Idx) :
    k0_pay1 (iblk0 V c 0 t) (iblk0 V c 1 t) j = Cert.Spec.mm (V c main_arg0) (V c main_arg3) (((cfg0.win 2).blk t).view.emb j) := by
  obtain ⟨r, q, rfl⟩ : ∃ (r : Fin 5000) (q : Fin 128), j = ix2 r q := ⟨j 0, j 1, eq_ix2 j⟩
  obtain ⟨-, -, -, -, e4, e5⟩ := idxFacts0 t
  have ht : t.val < 20 := lt_of_lt_of_eq t.isLt (N_0 : cfg0.N = 20)
  refine (tileOut0_apply V c t r q ⟨5000 * t.val + r.val, by omega⟩ rfl).trans ?_
  congr 1
  funext a; apply Fin.ext
  match a with
  | ⟨0, _⟩ => show 5000 * t.val + r.val = win0_2.index t (0 : Fin 2) * 5000 + 1 * r.val; omega
  | ⟨1, _⟩ => show q.val = win0_2.index t (1 : Fin 2) * 128 + 1 * q.val; omega

/-- What point t writes back is block t of the matrix product of the two arrays as the region finds them. -/
theorem flushed0_eq (t : Fin cfg0.N) :
    (dat0 (F := Ideal) V c).flushed 2 t = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  funext j
  exact flushedAt0 V c t j

end

/-- An index of the product array is in point t's block iff each coordinate is in the block's range on its axis. -/
theorem memBlk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every index of the product array is in some point's block: row n is in the block of point n / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := idxFacts0 t
  have ht : t.val = (i 0).val / 5000 := rfl
  refine ⟨t, flush0_2 t, ?_⟩
  rw [memBlk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The product array after the region: the node-feature matrix times the weight matrix, index by index. -/
theorem final0 (V : (c : Dev nD) → (b : Ref sig .tc) → Buf (Elt Ideal) ((c : Thread nD τ).loc b)) (c : Dev nD) :
    (dat0 (F := Ideal) V c).arrAt 2 cfg0.N = Cert.Spec.mm (V c main_arg0) (V c main_arg3) :=
  (dat0 (F := Ideal) V c).arrAt_eq_of_cover 2 (Cert.Spec.mm (V c main_arg0) (V c main_arg3)) (fun t _ => flushed0_eq V c t) cover0

end Cert.KernelIdeal.Hand

end
-- ==== Proof.Val1.lean ====
import proofs.«423604_j68796786147746_2_alg».proof.Proof.Reg1
import proofs.«423604_j68796786147746_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! # The combination kernel's output array, index by index -/

/-! ## The payload at an index -/

/-- The zero offsets of a whole-buffer access, however spelt. -/
theorem hz1 : (![0, 0] : Fin 2 → Nat) = fun _ => 0 :=
  funext fun a => by match a with | ⟨0, _⟩ => rfl | ⟨1, _⟩ => rfl

/-- A column `[a, 1]` broadcast along the lanes to `[a, b]` reads, at `(p, q)`, the column's entry of row `p`. -/
theorem colb1 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The payload at row `p`, lane `q` of a tile: the neighbour sum plus the transformed row scaled by the row's
    inverse degree, plus the bias of the lane, through the leaky rectifier — every operation pointwise but the two
    broadcasts, which read the column at the row and the bias row at the lane. -/
theorem pay_at1 (x0 x1 : Vec Ideal S5000x128 .f32) (x2 : Vec Ideal S5000x1 .f32) (x3 : Vec Ideal S1x128 .f32)
    (p : Fin 5000) (q : Fin 128) :
    k1_pay1 x0 x1 x2 x3 (ix2 p q)
      = Cert.Spec.lrelu (x0 (ix2 p q) + x1 (ix2 p q) * x2 (ix2 p (0 : Fin 1)) + x3 (ix2 (0 : Fin 1) q)) := by
  unfold k1_pay1 Cert.Spec.lrelu
  simp only [shapeCast_self]
  rw [select_apply, cmpf_apply, mulf_apply, broadcast_apply, broadcast_apply, addf_apply, addf_apply, mulf_apply,
    colb1, broadcastTo_1b_ab_apply]
  rfl

/-! ## From tiles to the array -/

/-- The printed index maps, decided over the 20 grid points: at point `t` the row-tiled windows (neighbour sums,
    transformed features, inverse degrees, output) sit at row block `t`, lane block 0; the bias row's window stays at
    block (0, 0). -/
theorem idxf1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, q)` of tile `t`, over any four arrays of the windows' shapes: the two full-width inputs read at the tile's
    own entry, the column at the entry's row, the bias row at the entry's lane, combine to the layer's combination at
    the array index the output tile puts that entry at (row `5000 t + p`, lane `q`). -/
theorem comb_at1 (A H : S100000x128.Idx → EReal) (D : S100000x1.Idx → EReal) (B : S1x128.Idx → EReal)
    (t : Fin cfg1.N) (p : Fin 5000) (q : Fin 128) :
    Cert.Spec.lrelu (A (((cfg1.win 0).blk t).view.emb (ix2 p q))
        + H (((cfg1.win 1).blk t).view.emb (ix2 p q)) * D (((cfg1.win 2).blk t).view.emb (ix2 p (0 : Fin 1)))
        + B (((cfg1.win 3).blk t).view.emb (ix2 (0 : Fin 1) q)))
      = Cert.Spec.comb A H D B (((cfg1.win 4).blk t).view.emb (ix2 p q)) := by
  obtain ⟨e00, e01, e10, e11, e20, e21, e30, e31, e40, e41⟩ := idxf1 t
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1)) = ix2 ((((cfg1.win 4).blk t).view.emb (ix2 p q)) 0 : Fin 100000) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 4).blk t).view.emb (ix2 p q)) 1 : Fin 128) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  rw [h0, h1, h2, h3]
  rfl

/-- What point `t` writes back is tile `t` of the layer's combination of the four arrays as the region finds them:
    the one whole store leaves the payload of the four whole loads, and each load is its window's block. -/
theorem flushed_eq1 (V : (c : Dev nD) → (b : Ref sig .tc) → Buf (Elt Ideal) ((c : Thread nD τ).loc b)) (c : Dev nD) (t : Fin cfg1.N) :
    (dat1 (F := Ideal) V c).flushed 4 t = ((cfg1.win 4).blk t).view.read (Elt Ideal)
      (Cert.Spec.comb (V c main_v41) (V c main_v28) (V c main_v42) (V c main_v43)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1, View.ld_unit_zero (S := S1x128) hz1]
  funext j
  obtain ⟨p, q, rfl⟩ : ∃ (p : Fin 5000) (q : Fin 128), j = ix2 p q := ⟨j 0, j 1, eq_ix2 j⟩
  refine (pay_at1 _ _ _ _ p q).trans ?_
  exact comb_at1 (V c main_v41) (V c main_v28) (V c main_v42) (V c main_v43) t p q

/-- An index of the output array is in point `t`'s tile iff each coordinate is in the tile's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- The 20 tiles cover the array: row `n` lies in the tile of point `n / 5000`, and every point writes back. -/
theorem covered1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, e40, e41⟩ := idxf1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region is the layer's combination of the four input arrays, index by index. -/
theorem final1 (V : (c : Dev nD) → (b : Ref sig .tc) → Buf (Elt Ideal) ((c : Thread nD τ).loc b)) (c : Dev nD) :
    (dat1 (F := Ideal) V c).arrAt 4 cfg1.N = Cert.Spec.comb (V c main_v41) (V c main_v28) (V c main_v42) (V c main_v43) :=
  (dat1 (F := Ideal) V c).arrAt_eq_of_cover 4 (Cert.Spec.comb (V c main_v41) (V c main_v28) (V c main_v42) (V c main_v43))
    (fun t _ => flushed_eq1 V c t) covered1

end Cert.KernelIdeal.Hand

end
-- ==== Proof.Val2.lean ====
import proofs.«423604_j68796786147746_2_alg».proof.Proof.Reg2
import proofs.«423604_j68796786147746_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

open scoped BigOperators

/-! ## The product tile at an index

The body's payload casts the feature tile to its own shape (the identity), narrows both operands' format (the identity on extended reals) and contracts the feature tile's
column axis with the weight matrix's row axis into a zero accumulator: entry (p, q) is the exact sum over the 128
channels of tile row p against weight column q. -/

/-- The left operand is read at the output's row … -/
theorem lhs_row2 (j : S5000x128.Idx) (k : dot_S5000x128_S128x128_S5000x128_1_0_0_1_n_n.contr.Idx) :
    (dot_S5000x128_S128x128_S5000x128_1_0_0_1_n_n.lhsIdx j k 0).val = (j 0).val := rfl
/-- … and at the contraction position on its column axis; -/
theorem lhs_col2 (j : S5000x128.Idx) (k : dot_S5000x128_S128x128_S5000x128_1_0_0_1_n_n.contr.Idx) :
    (dot_S5000x128_S128x128_S5000x128_1_0_0_1_n_n.lhsIdx j k 1).val = (k ⟨0, by decide⟩).val := rfl
/-- the right operand at the contraction position on its row axis … -/
theorem rhs_row2 (j : S5000x128.Idx) (k : dot_S5000x128_S128x128_S5000x128_1_0_0_1_n_n.contr.Idx) :
    (dot_S5000x128_S128x128_S5000x128_1_0_0_1_n_n.rhsIdx j k 0).val = (k ⟨0, by decide⟩).val := rfl
/-- … and at the output's column. -/
theorem rhs_col2 (j : S5000x128.Idx) (k : dot_S5000x128_S128x128_S5000x128_1_0_0_1_n_n.contr.Idx) :
    (dot_S5000x128_S128x128_S5000x128_1_0_0_1_n_n.rhsIdx j k 1).val = (j 1).val := rfl

/-- At output index (p, q) and channel k the left operand's index is (p, k) … -/
theorem lhs_at2 (p : Fin 5000) (q k : Fin 128) :
    dot_S5000x128_S128x128_S5000x128_1_0_0_1_n_n.lhsIdx (ix2 p q) ((contrEquiv1 dot_S5000x128_S128x128_S5000x128_1_0_0_1_n_n 128 rfl rfl).symm k) = ix2 p k := by
  funext a; apply Fin.ext
  match a with
  | ⟨0, _⟩ => exact lhs_row2 _ _
  | ⟨1, _⟩ => exact (lhs_col2 _ _).trans (contrEquiv1_symm_val dot_S5000x128_S128x128_S5000x128_1_0_0_1_n_n 128 rfl rfl k)
/-- … and the right operand's is (k, q). -/
theorem rhs_at2 (p : Fin 5000) (q k : Fin 128) :
    dot_S5000x128_S128x128_S5000x128_1_0_0_1_n_n.rhsIdx (ix2 p q) ((contrEquiv1 dot_S5000x128_S128x128_S5000x128_1_0_0_1_n_n 128 rfl rfl).symm k) = ix2 k q := by
  funext a; apply Fin.ext
  match a with
  | ⟨0, _⟩ => exact (rhs_row2 _ _).trans (contrEquiv1_symm_val dot_S5000x128_S128x128_S5000x128_1_0_0_1_n_n 128 rfl rfl k)
  | ⟨1, _⟩ => exact rhs_col2 _ _

/-- The payload at (p, q): the sum over the channels of the tile's row p against the weight matrix's column q. -/
theorem pay2_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [matmul]
  rw [Ideal.matmul_constant_zero_apply]
  rw [← Equiv.sum_comp (contrEquiv1 dot_S5000x128_S128x128_S5000x128_1_0_0_1_n_n 128 rfl rfl).symm]
  refine Finset.sum_congr rfl fun k _ => ?_
  rw [truncf_apply, truncf_apply, shapeCast_self, lhs_at2, rhs_at2]

/-! ## From the tiles to the array -/

theorem hz2 : (![0, 0] : Fin 2 → Nat) = fun _ => 0 := funext fun a => by fin_cases a <;> rfl

/-- The index maps over the grid: point t's feature tile and product tile are block row t of their arrays, and the
    weight matrix's one block is the whole matrix. -/
theorem idxFacts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- Row r of point t's feature tile is row 5000 t + r of the feature array. -/
theorem tile2_apply (t : Fin cfg2.N) (r : Fin 5000) (k : Fin 128) (n : Fin 100000) (hn : n.val = 5000 * t.val + r.val) :
    (iblk2 V c 0 t : Vec Ideal S5000x128 .f32) (ix2 r k) = (V c main_v44 : S100000x128.Idx → EReal) (ix2 n k) := by
  obtain ⟨e0, e1, -⟩ := idxFacts2 t
  unfold iblk2
  rw [View.read_apply]
  show V c main_v44 _ = V c main_v44 _
  congr 1
  funext a; apply Fin.ext
  match a with
  | ⟨0, _⟩ => show win2_0.index t (0 : Fin 2) * 5000 + 1 * r.val = n.val; omega
  | ⟨1, _⟩ => show win2_0.index t (1 : Fin 2) * 128 + 1 * k.val = k.val; omega

/-- The weight block at every point is the weight matrix. -/
theorem weight2_apply (t : Fin cfg2.N) (k q : Fin 128) :
    (iblk2 V c 1 t : Vec Ideal S128x128 .f32) (ix2 k q) = (V c main_arg5 : S128x128.Idx → EReal) (ix2 k q) := by
  obtain ⟨-, -, e2, e3, -⟩ := idxFacts2 t
  unfold iblk2
  rw [View.read_apply]
  show V c main_arg5 _ = V c main_arg5 _
  congr 1
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- What point t leaves at (r, q) of the product tile is the matrix product at row 5000 t + r, column q. -/
theorem tileOut2_apply (t : Fin cfg2.N) (r : Fin 5000) (q : Fin 128) (n : Fin 100000) (hn : n.val = 5000 * t.val + r.val) :
    k2_pay1 (iblk2 V c 0 t) (iblk2 V c 1 t) (ix2 r q) = Cert.Spec.mm (V c main_v44) (V c main_arg5) (ix2 n q) := by
  refine (pay2_apply (iblk2 V c 0 t) (iblk2 V c 1 t) r q).trans ?_
  unfold Cert.Spec.mm
  refine Finset.sum_congr rfl fun k _ => ?_
  rw [tile2_apply V c t r k n hn, weight2_apply V c t k q]

/-- What point t leaves at an index of the product tile is the matrix product at the index the tile's block puts it at. -/
theorem flushedAt2 (t : Fin cfg2.N) (j : S5000x128.Idx) :
    k2_pay1 (iblk2 V c 0 t) (iblk2 V c 1 t) j = Cert.Spec.mm (V c main_v44) (V c main_arg5) (((cfg2.win 2).blk t).view.emb j) := by
  obtain ⟨r, q, rfl⟩ : ∃ (r : Fin 5000) (q : Fin 128), j = ix2 r q := ⟨j 0, j 1, eq_ix2 j⟩
  obtain ⟨-, -, -, -, e4, e5⟩ := idxFacts2 t
  have ht : t.val < 20 := lt_of_lt_of_eq t.isLt (N_2 : cfg2.N = 20)
  refine (tileOut2_apply V c t r q ⟨5000 * t.val + r.val, by omega⟩ rfl).trans ?_
  congr 1
  funext a; apply Fin.ext
  match a with
  | ⟨0, _⟩ => show 5000 * t.val + r.val = win2_2.index t (0 : Fin 2) * 5000 + 1 * r.val; omega
  | ⟨1, _⟩ => show q.val = win2_2.index t (1 : Fin 2) * 128 + 1 * q.val; omega

/-- What point t writes back is block t of the matrix product of the two arrays as the region finds them. -/
theorem flushed2_eq (t : Fin cfg2.N) :
    (dat2 (F := Ideal) V c).flushed 2 t = ((cfg2.win 2).blk t).view.read (Elt Ideal) (Cert.Spec.mm (V c main_v44) (V c main_arg5)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  funext j
  exact flushedAt2 V c t j

end

/-- An index of the product array is in point t's block iff each coordinate is in the block's range on its axis. -/
theorem memBlk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every index of the product array is in some point's block: row n is in the block of point n / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, e4, e5⟩ := idxFacts2 t
  have ht : t.val = (i 0).val / 5000 := rfl
  refine ⟨t, flush2_2 t, ?_⟩
  rw [memBlk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The product array after the region: the node-feature matrix times the weight matrix, index by index. -/
theorem final2 (V : (c : Dev nD) → (b : Ref sig .tc) → Buf (Elt Ideal) ((c : Thread nD τ).loc b)) (c : Dev nD) :
    (dat2 (F := Ideal) V c).arrAt 2 cfg2.N = Cert.Spec.mm (V c main_v44) (V c main_arg5) :=
  (dat2 (F := Ideal) V c).arrAt_eq_of_cover 2 (Cert.Spec.mm (V c main_v44) (V c main_arg5)) (fun t _ => flushed2_eq V c t) cover2

end Cert.KernelIdeal.Hand

end
-- ==== Proof.Val3.lean ====
import proofs.«423604_j68796786147746_2_alg».proof.Proof.Reg3
import proofs.«423604_j68796786147746_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! # The combination kernel's output array, index by index -/

/-! ## The payload at an index -/

/-- The zero offsets of a whole-buffer access, however spelt. -/
theorem hz3 : (![0, 0] : Fin 2 → Nat) = fun _ => 0 :=
  funext fun a => by match a with | ⟨0, _⟩ => rfl | ⟨1, _⟩ => rfl

/-- A column `[a, 1]` broadcast along the lanes to `[a, b]` reads, at `(p, q)`, the column's entry of row `p`. -/
theorem colb3 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The payload at row `p`, lane `q` of a tile: the neighbour sum plus the transformed row scaled by the row's
    inverse degree, plus the bias of the lane, through the leaky rectifier — every operation pointwise but the two
    broadcasts, which read the column at the row and the bias row at the lane. -/
theorem pay_at3 (x0 x1 : Vec Ideal S5000x128 .f32) (x2 : Vec Ideal S5000x1 .f32) (x3 : Vec Ideal S1x128 .f32)
    (p : Fin 5000) (q : Fin 128) :
    k3_pay1 x0 x1 x2 x3 (ix2 p q)
      = Cert.Spec.lrelu (x0 (ix2 p q) + x1 (ix2 p q) * x2 (ix2 p (0 : Fin 1)) + x3 (ix2 (0 : Fin 1) q)) := by
  unfold k3_pay1 Cert.Spec.lrelu
  simp only [shapeCast_self]
  rw [select_apply, cmpf_apply, mulf_apply, broadcast_apply, broadcast_apply, addf_apply, addf_apply, mulf_apply,
    colb3, broadcastTo_1b_ab_apply]
  rfl

/-! ## From tiles to the array -/

/-- The printed index maps, decided over the 20 grid points: at point `t` the row-tiled windows (neighbour sums,
    transformed features, inverse degrees, output) sit at row block `t`, lane block 0; the bias row's window stays at
    block (0, 0). -/
theorem idxf3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry `(p, q)` of tile `t`, over any four arrays of the windows' shapes: the two full-width inputs read at the tile's
    own entry, the column at the entry's row, the bias row at the entry's lane, combine to the layer's combination at
    the array index the output tile puts that entry at (row `5000 t + p`, lane `q`). -/
theorem comb_at3 (A H : S100000x128.Idx → EReal) (D : S100000x1.Idx → EReal) (B : S1x128.Idx → EReal)
    (t : Fin cfg3.N) (p : Fin 5000) (q : Fin 128) :
    Cert.Spec.lrelu (A (((cfg3.win 0).blk t).view.emb (ix2 p q))
        + H (((cfg3.win 1).blk t).view.emb (ix2 p q)) * D (((cfg3.win 2).blk t).view.emb (ix2 p (0 : Fin 1)))
        + B (((cfg3.win 3).blk t).view.emb (ix2 (0 : Fin 1) q)))
      = Cert.Spec.comb A H D B (((cfg3.win 4).blk t).view.emb (ix2 p q)) := by
  obtain ⟨e00, e01, e10, e11, e20, e21, e30, e31, e40, e41⟩ := idxf3 t
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  have h2 : ((cfg3.win 2).blk t).view.emb (ix2 p (0 : Fin 1)) = ix2 ((((cfg3.win 4).blk t).view.emb (ix2 p q)) 0 : Fin 100000) (0 : Fin 1) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have h3 : ((cfg3.win 3).blk t).view.emb (ix2 (0 : Fin 1) q) = ix2 (0 : Fin 1) ((((cfg3.win 4).blk t).view.emb (ix2 p q)) 1 : Fin 128) := by
    funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  rw [h0, h1, h2, h3]
  rfl

/-- What point `t` writes back is tile `t` of the layer's combination of the four arrays as the region finds them:
    the one whole store leaves the payload of the four whole loads, and each load is its window's block. -/
theorem flushed_eq3 (V : (c : Dev nD) → (b : Ref sig .tc) → Buf (Elt Ideal) ((c : Thread nD τ).loc b)) (c : Dev nD) (t : Fin cfg3.N) :
    (dat3 (F := Ideal) V c).flushed 4 t = ((cfg3.win 4).blk t).view.read (Elt Ideal)
      (Cert.Spec.comb (V c main_v58) (V c main_v45) (V c main_v59) (V c main_v60)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S5000x1) hz3, View.ld_unit_zero (S := S1x128) hz3]
  funext j
  obtain ⟨p, q, rfl⟩ : ∃ (p : Fin 5000) (q : Fin 128), j = ix2 p q := ⟨j 0, j 1, eq_ix2 j⟩
  refine (pay_at3 _ _ _ _ p q).trans ?_
  exact comb_at3 (V c main_v58) (V c main_v45) (V c main_v59) (V c main_v60) t p q

/-- An index of the output array is in point `t`'s tile iff each coordinate is in the tile's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v61).slice (win3_4.rect t)).set ↔ _
  rw [View.set_slice_whole, Rect.mem_set_unit]
  exact Iff.rfl

/-- The 20 tiles cover the array: row `n` lies in the tile of point `n / 5000`, and every point writes back. -/
theorem covered3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_1
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, -, -, -, -, e40, e41⟩ := idxf3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region is the layer's combination of the four input arrays, index by index. -/
theorem final3 (V : (c : Dev nD) → (b : Ref sig .tc) → Buf (Elt Ideal) ((c : Thread nD τ).loc b)) (c : Dev nD) :
    (dat3 (F := Ideal) V c).arrAt 4 cfg3.N = Cert.Spec.comb (V c main_v58) (V c main_v45) (V c main_v59) (V c main_v60) :=
  (dat3 (F := Ideal) V c).arrAt_eq_of_cover 4 (Cert.Spec.comb (V c main_v58) (V c main_v45) (V c main_v59) (V c main_v60))
    (fun t _ => flushed_eq3 V c t) covered3

end Cert.KernelIdeal.Hand

end
-- ==== Proof.Val4.lean ====
import proofs.«423604_j68796786147746_2_alg».proof.Proof.Reg4
import proofs.«423604_j68796786147746_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

/-! # Region 4 at the ideal values: the output is the per-graph sum, taken tile by tile

## The one-hot product: a matrix product contracting the 5000 rows of a tile

The body multiplies the transposed one-hot matrix of the tile's graph ids (5000 rows, 64 graphs) with the tile of node
features (5000 rows, 128 channels), contracting the row axis of both: entry (graph `g`, channel `f`) is the sum over the
tile's rows `r` of the indicator that row `r` belongs to graph `g`, times the row's entry at channel `f`. -/

/-- On the left operand the contracted axis (the rows) carries the contraction index, -/
theorem lhs4_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
/-- and its free axis (the graphs) the output's first coordinate. -/
theorem lhs4_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
/-- On the right operand the contracted axis (the rows) carries the contraction index, -/
theorem rhs4_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
/-- and its free axis (the channels) the output's second coordinate. -/
theorem rhs4_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product into a zero accumulator, at graph `g` and channel `f`: the sum over the tile's rows. -/
theorem matmul4_apply (l : FVec Ideal S5000x64 .bf16) (r : FVec Ideal S5000x128 .bf16) (g : Fin 64) (f : Fin 128) :
    FloatOps.matmul dot_S5000x64_S5000x128_S64x128_0_0_1_1_n_n none l r (constant (F := Ideal) S64x128 .f32 0x00000000#32) (ix2 g f)
      = ∑ k : Fin 5000, l (ix2 k g) * r (ix2 k f) := by
  rw [Ideal.matmul_constant_zero_apply, ← Equiv.sum_comp (ValueIdx.contrEquiv1 dot_S5000x64_S5000x128_S64x128_0_0_1_1_n_n 5000 rfl rfl).symm]
  refine Finset.sum_congr rfl fun k _ => ?_
  have hk := ValueIdx.contrEquiv1_symm_val dot_S5000x64_S5000x128_S64x128_0_0_1_1_n_n 5000 rfl rfl k
  have el : dot_S5000x64_S5000x128_S64x128_0_0_1_1_n_n.lhsIdx (ix2 g f) ((ValueIdx.contrEquiv1 dot_S5000x64_S5000x128_S64x128_0_0_1_1_n_n 5000 rfl rfl).symm k) = ix2 k g := funext fun a => Fin.ext (by
    match a with
    | ⟨0, _⟩ => exact (lhs4_0 _ _).trans hk
    | ⟨1, _⟩ => exact lhs4_1 _ _)
  have er : dot_S5000x64_S5000x128_S64x128_0_0_1_1_n_n.rhsIdx (ix2 g f) ((ValueIdx.contrEquiv1 dot_S5000x64_S5000x128_S64x128_0_0_1_1_n_n 5000 rfl rfl).symm k) = ix2 k f := funext fun a => Fin.ext (by
    match a with
    | ⟨0, _⟩ => exact (rhs4_0 _ _).trans hk
    | ⟨1, _⟩ => exact rhs4_1 _ _)
  rw [el, er]

/-! ## The body's two payloads at an index -/

/-- The reset value is zero everywhere. -/
theorem pay1_apply (g : Fin 64) (f : Fin 128) : (k4_pay1 (F := Ideal)) (ix2 g f) = 0 := by
  unfold k4_pay1
  rw [shapeCast_self]
  exact Ideal.ofBits_zero_f32

/-- The one-hot matrix the body builds from a tile of graph ids, at row `r` and graph `g`: the indicator of the specification. -/
theorem onehot4_apply (ids : Vec Ideal S5000x1 .i32) (r : Fin 5000) (g : Fin 64) :
    (sitofp .f32 (extui 32 (cmpi .eq (broadcastTo S5000x64 (shapeCast S5000x1 ids shapeCasts_S5000x1_S5000x1) broadcasts_S5000x1_S5000x64)
        (iota .tc S5000x64 32 [1] iota_S5000x64_d1_w32)) natLt_1_32) : FVec Ideal S5000x64 .f32) (ix2 r g)
      = Cert.Spec.hot (ids (ix2 r (0 : Fin 1))) g := by
  rw [shapeCast_self]
  show FloatOps.sitofp (F := Ideal) .f32 ((IntOp.cmpi .eq (broadcastTo S5000x64 ids broadcasts_S5000x1_S5000x64 (ix2 r g))
      (iota .tc S5000x64 32 [1] iota_S5000x64_d1_w32 (ix2 r g))).setWidth 32) = _
  rw [iota_single_apply, broadcastTo_apply ids broadcasts_S5000x1_S5000x64 (ix2 r g) (ix2 r (0 : Fin 1))
    (fun a => by match a with | ⟨0, _⟩ => rfl | ⟨1, _⟩ => rfl)]
  rfl

/-- What the body stores into the accumulator, at graph `g` and channel `f`: what the accumulator held there plus the
    tile's contribution, the sum over the tile's rows of the indicator times the row's entry. -/
theorem poolpay2_apply (x : Vec Ideal S5000x128 .f32) (ids : Vec Ideal S5000x1 .i32) (a : Vec Ideal S64x128 .f32) (g : Fin 64) (f : Fin 128) :
    k4_pay2 (F := Ideal) x ids a (ix2 g f)
      = a (ix2 g f) + ∑ r : Fin 5000, Cert.Spec.hot (ids (ix2 r (0 : Fin 1))) g * x (ix2 r f) := by
  unfold k4_pay2
  dsimp only
  rw [shapeCast_self]
  refine (addf_apply _ _ _).trans ?_
  refine congrArg (a (ix2 g f) + ·) ?_
  refine (matmul4_apply _ _ g f).trans ?_
  refine Finset.sum_congr rfl fun r _ => ?_
  refine congrArg₂ (· * ·) ?_ ?_
  · exact onehot4_apply ids r g
  · rw [shapeCast_self]; rfl

section Region4Value
-- the TensorCore's buffer contents when the region is entered, at the ideal values
variable (V : (c : Dev nD) → (b : Ref sig .tc) → Buf (Elt Ideal) ((c : Thread nD τ).loc b))

/-! ## The tiles, read off the arrays -/

/-- The node-feature array, at its literal type. -/
abbrev feat4 (c : Dev nD) : Vec Ideal S100000x128 .f32 := V c main_v61
/-- The graph-id column, at its literal type. -/
abbrev gid4 (c : Dev nD) : Vec Ideal S100000x1 .i32 := V c main_v62

/-- A grid point as one of the 20 tiles. -/
abbrev tileOf (t : Fin cfg4.N) : Fin 20 := ⟨t.val, lt_of_lt_of_eq t.isLt N_4⟩

/-- The block index of the two inputs at point `t`: tile `t` along the rows, the only block along the other axis. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = t.val ∧ win4_1.index t 1 = 0 :=
  (by decide +kernel : ∀ t : Fin grid4.N, win4_1.index t 0 = t.val ∧ win4_1.index t 1 = 0)

/-- Row `r` of the node-feature tile of point `t` is row `5000 t + r` of the array. -/
theorem tile4_apply (c : Dev nD) (t : Fin cfg4.N) (r : Fin 5000) (f : Fin 128) :
    tile4 V c t (ix2 r f) = feat4 V c (ix2 (Cert.Spec.node (tileOf t) r) f) := by
  unfold tile4 iblk4
  rw [View.read_apply]
  show V c main_v61 _ = V c main_v61 _
  congr 1
  funext a
  apply Fin.ext
  match a with
  | ⟨0, _⟩ => show win4_0.index t 0 * 5000 + 1 * r.val = 5000 * t.val + r.val; rw [(index4_0 t).1]; omega
  | ⟨1, _⟩ => show win4_0.index t 1 * 128 + 1 * f.val = f.val; rw [(index4_0 t).2]; omega

/-- Row `r` of the graph-id tile of point `t` is row `5000 t + r` of the column. -/
theorem ids4_apply (c : Dev nD) (t : Fin cfg4.N) (r : Fin 5000) :
    ids4 V c t (ix2 r (0 : Fin 1)) = gid4 V c (ix2 (Cert.Spec.node (tileOf t) r) (0 : Fin 1)) := by
  unfold ids4 iblk4
  rw [View.read_apply]
  show V c main_v62 _ = V c main_v62 _
  congr 1
  funext a
  apply Fin.ext
  match a with
  | ⟨0, _⟩ => show win4_1.index t 0 * 5000 + 1 * r.val = 5000 * t.val + r.val; rw [(index4_1 t).1]; omega
  | ⟨1, _⟩ => show win4_1.index t 1 * 1 + 1 * (0 : Fin 1).val = (0 : Fin 1).val; rw [(index4_1 t).2]; rfl

/-! ## The accumulator after each point: the sum over the tiles so far -/

/-- Tile `t`'s contribution to graph `g`, channel `f`: the sum over the tile's rows of the indicator times the entry. -/
def contrib4 (c : Dev nD) (t : Fin 20) (g : Fin 64) (f : Fin 128) : EReal :=
  ∑ r : Fin 5000, Cert.Spec.hot (gid4 V c (ix2 (Cert.Spec.node t r) (0 : Fin 1))) g * feat4 V c (ix2 (Cert.Spec.node t r) f)

/-- What the body adds at point `t` is tile `t`'s contribution. -/
theorem step4_eq (c : Dev nD) (t : Fin cfg4.N) (g : Fin 64) (f : Fin 128) :
    ∑ r : Fin 5000, Cert.Spec.hot (ids4 V c t (ix2 r (0 : Fin 1))) g * tile4 V c t (ix2 r f) = contrib4 V c (tileOf t) g f := by
  unfold contrib4
  refine Finset.sum_congr rfl fun r _ => ?_
  rw [tile4_apply V c t r f, ids4_apply V c t r]

/-- THE INVARIANT. After point `n` the accumulator holds, at graph `g` and channel `f`, the sum of the contributions of
    tiles `0 … n`: at the first point zero plus the first tile's, at each later point what it held plus that tile's. -/
theorem acc4_eq (c : Dev nD) : ∀ (n : ℕ) (hn : n < 20) (g : Fin 64) (f : Fin 128),
    acc4 V c n (lt_of_lt_of_eq hn N_4.symm) (ix2 g f)
      = ∑ t : Fin (n + 1), contrib4 V c ⟨t.val, lt_of_lt_of_le t.isLt hn⟩ g f
  | 0, hn, g, f => by
    rw [acc4_zero]
    refine (poolpay2_apply (tile4 V c ⟨0, lt_of_lt_of_eq hn N_4.symm⟩) (ids4 V c ⟨0, lt_of_lt_of_eq hn N_4.symm⟩) (k4_pay1 (F := Ideal)) g f).trans ?_
    rw [pay1_apply, zero_add, step4_eq V c ⟨0, lt_of_lt_of_eq hn N_4.symm⟩ g f, Fin.sum_univ_one]
    rfl
  | n + 1, hn, g, f => by
    rw [acc4_succ]
    refine (poolpay2_apply (tile4 V c ⟨n + 1, lt_of_lt_of_eq hn N_4.symm⟩) (ids4 V c ⟨n + 1, lt_of_lt_of_eq hn N_4.symm⟩)
      (acc4 V c n (Nat.lt_of_succ_lt (lt_of_lt_of_eq hn N_4.symm))) g f).trans ?_
    rw [acc4_eq c n (Nat.lt_of_succ_lt hn) g f, step4_eq V c ⟨n + 1, lt_of_lt_of_eq hn N_4.symm⟩ g f]
    conv_rhs => rw [Fin.sum_univ_castSucc]
    rfl

/-! ## The output array: the accumulator after the last point -/

/-- The last point. -/
abbrev last4 : Fin cfg4.N := ⟨19, lt_of_lt_of_eq (by decide : 19 < 20) N_4.symm⟩

/-- The result: the accumulator after the last point, as contents of the output array (its one block is the array). -/
abbrev result4 (c : Dev nD) : Buf (Elt Ideal) ((c : Thread nD τ).loc main_v63) := acc4 V c 19 last4.isLt

/-- The one write-back, at the last point, writes it: block (0, 0) of the array read through zero offsets is the array. -/
theorem flushed4_eq (c : Dev nD) (t : Fin cfg4.N) (hf : (cfg4.win 2).flush t = true) :
    (dat4 V c).flushed 2 t = ((cfg4.win 2).blk t).view.read (Elt Ideal) (result4 V c) := by
  have hN : cfg4.N = 20 := N_4
  have h19 : t.val = 19 := by have := (flush4_2 t).mp hf; have := t.isLt; omega
  obtain rfl : t = last4 := Fin.ext h19
  show (cfg4.win 2).cut (grid4.coords last4) ((dat4 V c).after 2 last4) = _
  rw [after4_2]
  have hz' : (fun a => win4_2.index last4 a * main_v63.ty.shape.size a) = fun _ => 0 := funext fun a => by fin_cases a <;> decide
  exact (Memref.read_access_unit_zero (Elt Ideal) main_v63 hz' (fun a => by rw [congrFun hz' a]; simp) (result4 V c)).symm

/-- So the output array ends holding the accumulator after the last point: that point's block covers the array. -/
theorem final4_acc (c : Dev nD) : (dat4 V c).arrAt 2 cfg4.N = result4 V c :=
  (dat4 V c).arrAt_eq_of_cover 2 (result4 V c) (flushed4_eq V c) fun i =>
    ⟨last4, (flush4_2 last4).mpr rfl, by
      show i ∈ ((View.whole main_v63).slice (win4_2.rect last4)).set
      rw [View.set_slice_whole, Rect.mem_set_unit]
      intro a
      have h0 : (i 0 : Nat) < 64 := (i 0).isLt
      have h1 : (i 1 : Nat) < 128 := (i 1).isLt
      match a with
      | ⟨0, _⟩ => show win4_2.index last4 0 * win4_2.size 0 ≤ (i 0 : Nat) ∧ (i 0 : Nat) < win4_2.index last4 0 * win4_2.size 0 + win4_2.xsize (grid4.coords last4) 0
                  rw [show win4_2.index last4 0 * win4_2.size 0 = 0 from by decide +kernel, show win4_2.xsize (grid4.coords last4) 0 = 64 from by decide +kernel]; omega
      | ⟨1, _⟩ => show win4_2.index last4 1 * win4_2.size 1 ≤ (i 1 : Nat) ∧ (i 1 : Nat) < win4_2.index last4 1 * win4_2.size 1 + win4_2.xsize (grid4.coords last4) 1
                  rw [show win4_2.index last4 1 * win4_2.size 1 = 0 from by decide +kernel, show win4_2.xsize (grid4.coords last4) 1 = 128 from by decide +kernel]; omega⟩

end Region4Value

/-- The output array after the region is the per-graph sum of the node rows, taken tile by tile. -/
theorem final4 (V : (c : Dev nD) → (b : Ref sig .tc) → Buf (Elt Ideal) ((c : Thread nD τ).loc b)) (c : Dev nD) :
    (dat4 (F := Ideal) V c).arrAt 2 cfg4.N = Cert.Spec.poolNested (V c main_v61) (V c main_v62) := by
  rw [final4_acc V c]
  funext j
  obtain ⟨g, f, rfl⟩ : ∃ (g : Fin 64) (f : Fin 128), j = ix2 g f := ⟨j 0, j 1, eq_ix2 j⟩
  refine (acc4_eq V c 19 (by decide) g f).trans ?_
  rfl

end Cert.KernelIdeal.Hand

end
-- ==== Proof.Stages.lean ====
/-
  The host-side stages both programs share, each as ONE function of its inputs (generic in the float instance): the edge
  list's source and destination rows, the node degrees with their inverse and inverse square root, the per-edge
  normalisation, the neighbour sum of a feature matrix (gather rows by source, scale by the edge's normalisation,
  scatter-add by destination), the reference's layer and pooling, and the common tail (divide by the clamped graph sizes,
  the final linear map). The two programs' results are compositions of these; only the matrix product, the layer's
  pointwise combination and the pooling differ in form between them.
-/
import proofs.«423604_j68796786147746_2_alg».proof.Proof.Gen.ReferenceIdeal

noncomputable section

namespace Cert.Stages

open Idealize.ShloMosaic Cert.ReferenceIdeal Cert.ReferenceIdeal.Facts₀ Cert.ReferenceIdeal.Facts

variable {F : FTy → Type} [FloatOps F]

/-- The edges' source nodes: row 0 of the edge list. -/
def src (ei : IVec S2x1600000 32) : IVec S1600000 32 :=
  shapeCast S1600000 (extractStridedSlice S1x1600000 ![0, 0] ei slices_S2x1600000_S1x1600000_0_0) shapeCasts_S1x1600000_S1600000

/-- The edges' destination nodes: row 1 of the edge list. -/
def dst (ei : IVec S2x1600000 32) : IVec S1600000 32 :=
  shapeCast S1600000 (extractStridedSlice S1x1600000 ![1, 0] ei slices_S2x1600000_S1x1600000_1_0) shapeCasts_S1x1600000_S1600000

/-- Node degrees counting the self loop: the number of edges arriving at each node, plus one. -/
def deg (ei : IVec S2x1600000 32) : FVec F S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 (dst ei))
      (broadcastInDim S1600000 ![] bcast_S_S1600000 (constant S_ .f32 0x3F800000#32)))
    (broadcastInDim S100000 ![] bcast_S_S100000 (constant S_ .f32 0x3F800000#32))

/-- One over the degree. -/
def invDeg (ei : IVec S2x1600000 32) : FVec F S100000 .f32 :=
  Host.divf (broadcastInDim S100000 ![] bcast_S_S100000 (constant S_ .f32 0x3F800000#32)) (deg ei)

/-- A node index with a negative value counted from the end. -/
def wrap (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

/-- The per-edge normalisation: the inverse square roots of the degrees of the edge's two ends, multiplied. -/
def norm (ei : IVec S2x1600000 32) : FVec F S1600000 .f32 :=
  mulf
    (Host.gather gather_S100000_S1600000x1_S1600000_n_0_n_n_0_1_1 (Host.rsqrt (deg ei))
      (broadcastInDim S1600000x1 ![0] bcast_S1600000_S1600000x1_0 (wrap (src ei))))
    (Host.gather gather_S100000_S1600000x1_S1600000_n_0_n_n_0_1_1 (Host.rsqrt (deg ei))
      (broadcastInDim S1600000x1 ![0] bcast_S1600000_S1600000x1_0 (wrap (dst ei))))

/-- The neighbour sum: each edge carries its source node's row scaled by the edge's normalisation to its destination. -/
def agg (h : FVec F S100000x128 .f32) (ei : IVec S2x1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst ei))
    (mulf
      (Host.gather gather_S100000x128_S1600000x1_S1600000x128_1_0_n_n_0_1_1128 h
        (broadcastInDim S1600000x1 ![0] bcast_S1600000_S1600000x1_0 (wrap (src ei))))
      (broadcastInDim S1600000x128 ![0, 1] bcast_S1600000x1_S1600000x128_0_1
        (broadcastInDim S1600000x1 ![0] bcast_S1600000_S1600000x1_0 (norm (F := F) ei))))

/-- The reference's matrix product. -/
def dotR (x : FVec F S100000x128 .f32) (w : FVec F S128x128 .f32) : FVec F S100000x128 .f32 :=
  Host.dotGeneral dot_S100000x128_S128x128_S100000x128_1_0_0_1_n_n none x w

/-- The reference's leaky rectifier, as jax prints it: compare with zero, scale by the slope, select. -/
def leakyR (x : FVec F S100000x128 .f32) : FVec F S100000x128 .f32 :=
  select (cmpf .oge x (broadcastInDim S100000x128 ![] bcast_S_S100000x128 (constant S_ .f32 0x00000000#32))) x
    (mulf (broadcastInDim S100000x128 ![] bcast_S_S100000x128 (id (constant S_ .f32 0x3E4CCCCD#32))) x)

/-- The reference's layer on the transformed features `h`: neighbour sum, plus `h` over the degree, plus the bias, rectified. -/
def layerR (h : FVec F S100000x128 .f32) (ei : IVec S2x1600000 32) (b : FVec F S128 .f32) : FVec F S100000x128 .f32 :=
  leakyR (addf
    (addf (agg h ei)
      (mulf h (broadcastInDim S100000x128 ![0, 1] bcast_S100000x1_S100000x128_0_1
        (broadcastInDim S100000x1 ![0] bcast_S100000_S100000x1_0 (invDeg (F := F) ei)))))
    (broadcastInDim S100000x128 ![0, 1] bcast_S1x128_S100000x128_0_1 (broadcastInDim S1x128 ![1] bcast_S128_S1x128_1 b)))

/-- The reference's pooling: node rows scatter-added by graph id. -/
def poolR (h : FVec F S100000x128 .f32) (bt : IVec S100000 32) : FVec F S64x128 .f32 :=
  Host.scatterAdd scatter_S64x128_S100000x1_S100000x128_1_0_0_1
    (broadcastInDim S64x128 ![] bcast_S_S64x128 (constant S_ .f32 0x00000000#32))
    (broadcastInDim S100000x1 ![0] bcast_S100000_S100000x1_0 bt) h

/-- The common tail: per-graph sums over the graph sizes clamped below at one, the final linear map and its bias. -/
def tail (p : FVec F S64x128 .f32) (bt : IVec S100000 32) (fw : FVec F S128x1 .f32) (fb : FVec F S1 .f32) : FVec F S64 .f32 :=
  shapeCast S64 (addf
    (Host.dotGeneral dot_S64x128_S128x1_S64x1_1_0_0_1_n_n none
      (Host.divf p (broadcastInDim S64x128 ![0, 1] bcast_S64x1_S64x128_0_1 (broadcastInDim S64x1 ![0] bcast_S64_S64x1_0
        (maximumf (Host.scatterAdd scatter_S64_S100000x1_S100000_n_0_0_1
            (broadcastInDim S64 ![] bcast_S_S64 (constant S_ .f32 0x00000000#32))
            (broadcastInDim S100000x1 ![0] bcast_S100000_S100000x1_0 bt)
            (broadcastInDim S100000 ![] bcast_S_S100000 (constant S_ .f32 0x3F800000#32)))
          (broadcastInDim S64 ![] bcast_S_S64 (constant S_ .f32 0x3F800000#32)))))) fw)
    (broadcastInDim S64x1 ![0, 1] bcast_S1x1_S64x1_0_1 (broadcastInDim S1x1 ![1] bcast_S1_S1x1_1 fb))) shapeCasts_S64x1_S64

/-- The reference's result as the composition of its stages. -/
def refRes (x : FVec F S100000x128 .f32) (ei : IVec S2x1600000 32) (bt : IVec S100000 32) (w1 : FVec F S128x128 .f32)
    (b1 : FVec F S128 .f32) (w2 : FVec F S128x128 .f32) (b2 : FVec F S128 .f32) (fw : FVec F S128x1 .f32) (fb : FVec F S1 .f32) :
    FVec F S64 .f32 :=
  tail (poolR (layerR (dotR (layerR (dotR x w1) ei b1) w2) ei b2) bt) bt fw fb

/-- The kernel program's result as the composition of its stages: the regions' whole-array functions (`mmK`, `combK`,
    `poolK`, parameters here) between the shared host stages. -/
def kerRes (mmK : FVec F S100000x128 .f32 → FVec F S128x128 .f32 → FVec F S100000x128 .f32)
    (combK : FVec F S100000x128 .f32 → FVec F S100000x128 .f32 → FVec F S100000x1 .f32 → FVec F S1x128 .f32 → FVec F S100000x128 .f32)
    (poolK : FVec F S100000x128 .f32 → IVec S100000x1 32 → FVec F S64x128 .f32)
    (hcol : S100000.ShapeCasts S100000x1) (hrow : S128.ShapeCasts S1x128)
    (x : FVec F S100000x128 .f32) (ei : IVec S2x1600000 32) (bt : IVec S100000 32) (w1 : FVec F S128x128 .f32)
    (b1 : FVec F S128 .f32) (w2 : FVec F S128x128 .f32) (b2 : FVec F S128 .f32) (fw : FVec F S128x1 .f32) (fb : FVec F S1 .f32) :
    FVec F S64 .f32 :=
  let h1 := mmK x w1
  let o1 := combK (agg h1 ei) h1 (shapeCast S100000x1 (invDeg (F := F) ei) hcol) (shapeCast S1x128 b1 hrow)
  let h2 := mmK o1 w2
  let o2 := combK (agg h2 ei) h2 (shapeCast S100000x1 (invDeg (F := F) ei) hcol) (shapeCast S1x128 b2 hrow)
  tail (poolK o2 (shapeCast S100000x1 bt hcol)) bt fw fb

end Cert.Stages

end
-- ==== Proof.KVal.lean ====
/-
  The kernel program's result as the composition of its stages. Each stretch of host operations, read at the buffers the
  later items use, is one of the shared host stages applied to the contents it finds (the edge list's rows, the inverse
  degrees, the per-edge normalisation, the neighbour sum, a column or a row of the same entries, the common tail); each
  region's output array is the region's whole-array function of its input arrays; a buffer an item does not write is as
  the item found it. Composing these along the fold of contents gives the result buffer as the stages' composition over
  the launch contents of the nine arguments.
-/
import proofs.«423604_j68796786147746_2_alg».proof.Proof.Fold
import proofs.«423604_j68796786147746_2_alg».proof.Proof.Keep
import proofs.«423604_j68796786147746_2_alg».proof.Proof.Val0
import proofs.«423604_j68796786147746_2_alg».proof.Proof.Val1
import proofs.«423604_j68796786147746_2_alg».proof.Proof.Val2
import proofs.«423604_j68796786147746_2_alg».proof.Proof.Val3
import proofs.«423604_j68796786147746_2_alg».proof.Proof.Val4
import proofs.«423604_j68796786147746_2_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

section Stretches
variable (W : Valuation τ sig (Elt Ideal))

/-! ## The first stretch: the edge list's rows, the inverse degrees, the per-edge normalisation -/

/-- The edges' source nodes. -/
private theorem ops0_v1 : StableHlo.after hostOps0 W (Proc.devRef .tc main_v1) = Cert.Stages.src (W (Proc.devRef .tc main_arg1)) := by
  after_results_simp
  rfl
/-- The edges' destination nodes. -/
private theorem ops0_v3 : StableHlo.after hostOps0 W (Proc.devRef .tc main_v3) = Cert.Stages.dst (W (Proc.devRef .tc main_arg1)) := by
  after_results_simp
  rfl
/-- One over each node's degree. -/
private theorem ops0_v12 : StableHlo.after hostOps0 W (Proc.devRef .tc main_v12) = Cert.Stages.invDeg (F := Ideal) (W (Proc.devRef .tc main_arg1)) := by
  after_results_simp
  rfl
/-- The per-edge normalisation. -/
private theorem ops0_v27 : StableHlo.after hostOps0 W (Proc.devRef .tc main_v27) = Cert.Stages.norm (F := Ideal) (W (Proc.devRef .tc main_arg1)) := by
  after_results_simp
  rfl

end Stretches

section Stretches13
variable (W : Valuation τ sig (Elt Ideal))

/-! ## The stretch before each combination: the neighbour sum, the inverse degrees as a column, the bias as a row -/

/-- The neighbour sum of the first product, given the edge list's rows and normalisation where the first stretch left them. -/
private theorem ops1_v41 (ei : IVec Cert.ReferenceIdeal.S2x1600000 32)
    (h1 : W (Proc.devRef .tc main_v1) = Cert.Stages.src ei) (h3 : W (Proc.devRef .tc main_v3) = Cert.Stages.dst ei)
    (h27 : W (Proc.devRef .tc main_v27) = Cert.Stages.norm (F := Ideal) ei) :
    StableHlo.after hostOps1 W (Proc.devRef .tc main_v41) = Cert.Stages.agg (F := Ideal) (W (Proc.devRef .tc main_v28)) ei := by
  after_results_simp
  rw [h1, h3, h27]
  rfl
/-- The inverse degrees as a column. -/
private theorem ops1_v42 (hcol : Cert.ReferenceIdeal.S100000.ShapeCasts Cert.ReferenceIdeal.S100000x1) :
    StableHlo.after hostOps1 W (Proc.devRef .tc main_v42)
      = shapeCast Cert.ReferenceIdeal.S100000x1 (W (Proc.devRef .tc main_v12) : FVec Ideal Cert.ReferenceIdeal.S100000 .f32) hcol := by
  after_results_simp
  rfl
/-- The first bias as a row. -/
private theorem ops1_v43 (hrow : Cert.ReferenceIdeal.S128.ShapeCasts Cert.ReferenceIdeal.S1x128) :
    StableHlo.after hostOps1 W (Proc.devRef .tc main_v43)
      = shapeCast Cert.ReferenceIdeal.S1x128 (W (Proc.devRef .tc main_arg4) : FVec Ideal Cert.ReferenceIdeal.S128 .f32) hrow := by
  after_results_simp
  rfl

/-- The neighbour sum of the second product. -/
private theorem ops3_v58 (ei : IVec Cert.ReferenceIdeal.S2x1600000 32)
    (h1 : W (Proc.devRef .tc main_v1) = Cert.Stages.src ei) (h3 : W (Proc.devRef .tc main_v3) = Cert.Stages.dst ei)
    (h27 : W (Proc.devRef .tc main_v27) = Cert.Stages.norm (F := Ideal) ei) :
    StableHlo.after hostOps3 W (Proc.devRef .tc main_v58) = Cert.Stages.agg (F := Ideal) (W (Proc.devRef .tc main_v45)) ei := by
  after_results_simp
  rw [h1, h3, h27]
  rfl
/-- The inverse degrees as a column, again. -/
private theorem ops3_v59 (hcol : Cert.ReferenceIdeal.S100000.ShapeCasts Cert.ReferenceIdeal.S100000x1) :
    StableHlo.after hostOps3 W (Proc.devRef .tc main_v59)
      = shapeCast Cert.ReferenceIdeal.S100000x1 (W (Proc.devRef .tc main_v12) : FVec Ideal Cert.ReferenceIdeal.S100000 .f32) hcol := by
  after_results_simp
  rfl
/-- The second bias as a row. -/
private theorem ops3_v60 (hrow : Cert.ReferenceIdeal.S128.ShapeCasts Cert.ReferenceIdeal.S1x128) :
    StableHlo.after hostOps3 W (Proc.devRef .tc main_v60)
      = shapeCast Cert.ReferenceIdeal.S1x128 (W (Proc.devRef .tc main_arg6) : FVec Ideal Cert.ReferenceIdeal.S128 .f32) hrow := by
  after_results_simp
  rfl

end Stretches13

section Stretch45
variable (W : Valuation τ sig (Elt Ideal))

/-! ## The one reshape before the pooling region, and the last stretch -/

/-- The graph ids as a column. -/
private theorem ops4_v62 (hcol : Cert.ReferenceIdeal.S100000.ShapeCasts Cert.ReferenceIdeal.S100000x1) :
    StableHlo.after hostOps4 W (Proc.devRef .tc main_v62)
      = shapeCast Cert.ReferenceIdeal.S100000x1 (W (Proc.devRef .tc main_arg2) : IVec Cert.ReferenceIdeal.S100000 32) hcol := by
  after_results
  rfl

/-- The common tail: the pooled sums over the clamped graph sizes, through the final linear map. -/
private theorem ops5_v77 :
    StableHlo.after hostOps5 W (Proc.devRef .tc main_v77)
      = Cert.Stages.tail (F := Ideal) (W (Proc.devRef .tc main_v63)) (W (Proc.devRef .tc main_arg2))
          (W (Proc.devRef .tc main_arg7)) (W (Proc.devRef .tc main_arg8)) := by
  after_results_simp
  rfl

end Stretch45

section Compose
variable (m : (ℓ : Loc nD τ sig) → Buf (Elt Ideal) ℓ) (c : Dev nD)
variable (hcol : Cert.ReferenceIdeal.S100000.ShapeCasts Cert.ReferenceIdeal.S100000x1) (hrow : Cert.ReferenceIdeal.S128.ShapeCasts Cert.ReferenceIdeal.S1x128)

/-! ## The stage values, over the launch contents of the nine arguments -/

/-- The edge list at launch. -/
private abbrev eiK : IVec Cert.ReferenceIdeal.S2x1600000 32 := m ((c.tc : Thread nD τ).loc main_arg1)
/-- The first product: the node features times the first weight matrix. -/
private def h1K : FVec Ideal Cert.ReferenceIdeal.S100000x128 .f32 :=
  Cert.Spec.mm (m ((c.tc : Thread nD τ).loc main_arg0)) (m ((c.tc : Thread nD τ).loc main_arg3))
/-- The first layer's output. -/
private def o1K : FVec Ideal Cert.ReferenceIdeal.S100000x128 .f32 :=
  Cert.Spec.comb (Cert.Stages.agg (F := Ideal) (h1K m c) (eiK m c)) (h1K m c)
    (shapeCast Cert.ReferenceIdeal.S100000x1 (Cert.Stages.invDeg (F := Ideal) (eiK m c)) hcol)
    (shapeCast Cert.ReferenceIdeal.S1x128 (m ((c.tc : Thread nD τ).loc main_arg4) : FVec Ideal Cert.ReferenceIdeal.S128 .f32) hrow)
/-- The second product. -/
private def h2K : FVec Ideal Cert.ReferenceIdeal.S100000x128 .f32 :=
  Cert.Spec.mm (o1K m c hcol hrow) (m ((c.tc : Thread nD τ).loc main_arg5))
/-- The second layer's output. -/
private def o2K : FVec Ideal Cert.ReferenceIdeal.S100000x128 .f32 :=
  Cert.Spec.comb (Cert.Stages.agg (F := Ideal) (h2K m c hcol hrow) (eiK m c)) (h2K m c hcol hrow)
    (shapeCast Cert.ReferenceIdeal.S100000x1 (Cert.Stages.invDeg (F := Ideal) (eiK m c)) hcol)
    (shapeCast Cert.ReferenceIdeal.S1x128 (m ((c.tc : Thread nD τ).loc main_arg6) : FVec Ideal Cert.ReferenceIdeal.S128 .f32) hrow)

/-! ## What the first stretch wrote, where the later stretches read it -/

private theorem W1_v1 : W1 m c (Proc.devRef .tc main_v1) = Cert.Stages.src (eiK m c) := ops0_v1 (W0 m c)
private theorem W1_v3 : W1 m c (Proc.devRef .tc main_v3) = Cert.Stages.dst (eiK m c) := ops0_v3 (W0 m c)
private theorem W1_v12 : W1 m c (Proc.devRef .tc main_v12) = Cert.Stages.invDeg (F := Ideal) (eiK m c) := ops0_v12 (W0 m c)
private theorem W1_v27 : W1 m c (Proc.devRef .tc main_v27) = Cert.Stages.norm (F := Ideal) (eiK m c) := ops0_v27 (W0 m c)

/-- Region 0 leaves the first stretch's results. -/
private theorem W2_of_W1 (b : Ref sig .tc) (hb : b ≠ main_v28) : W2 m c (Proc.devRef .tc b) = W1 m c (Proc.devRef .tc b) := W2_keep m c b hb
/-- From after region 0 to after region 2, a buffer neither the second stretch nor the two regions' outputs touch. -/
private theorem W5_of_W2 (b : Ref sig .tc) (h1 : b ∉ hostOps1_W) (h44 : b ≠ main_v44) (h45 : b ≠ main_v45) :
    W5 m c (Proc.devRef .tc b) = W2 m c (Proc.devRef .tc b) :=
  (W5_keep m c b h45).trans <| (W4_keep m c b h44).trans (W3_keep m c b h1)

/-! ## Stage by stage -/

/-- After region 0: the first product. -/
private theorem W2_v28 : W2 m c (Proc.devRef .tc main_v28) = h1K m c := by
  refine (W2_arr m c 2).trans ((final0 (V1 m) c).trans ?_)
  show Cert.Spec.mm (W1 m c (Proc.devRef .tc main_arg0)) (W1 m c (Proc.devRef .tc main_arg3)) = _
  rw [W1_keep m c main_arg0 (by decide), W1_keep m c main_arg3 (by decide)]
  rfl

/-- After the second stretch: the neighbour sum of the first product … -/
private theorem W3_v41 : W3 m c (Proc.devRef .tc main_v41) = Cert.Stages.agg (F := Ideal) (h1K m c) (eiK m c) := by
  refine (ops1_v41 (W2 m c) (eiK m c)
    ((W2_of_W1 m c main_v1 (by decide)).trans (W1_v1 m c)) ((W2_of_W1 m c main_v3 (by decide)).trans (W1_v3 m c))
    ((W2_of_W1 m c main_v27 (by decide)).trans (W1_v27 m c))).trans ?_
  rw [W2_v28]
/-- … the first product still in place … -/
private theorem W3_v28 : W3 m c (Proc.devRef .tc main_v28) = h1K m c := (W3_keep m c main_v28 (by decide)).trans (W2_v28 m c)
/-- … the inverse degrees as a column … -/
private theorem W3_v42 : W3 m c (Proc.devRef .tc main_v42) = shapeCast Cert.ReferenceIdeal.S100000x1 (Cert.Stages.invDeg (F := Ideal) (eiK m c)) hcol := by
  refine (ops1_v42 (W2 m c) hcol).trans ?_
  rw [(W2_of_W1 m c main_v12 (by decide)).trans (W1_v12 m c)]
/-- … and the first bias as a row. -/
private theorem W3_v43 : W3 m c (Proc.devRef .tc main_v43)
    = shapeCast Cert.ReferenceIdeal.S1x128 (m ((c.tc : Thread nD τ).loc main_arg4) : FVec Ideal Cert.ReferenceIdeal.S128 .f32) hrow := by
  refine (ops1_v43 (W2 m c) hrow).trans ?_
  rw [(W2_keep m c main_arg4 (by decide)).trans (W1_keep m c main_arg4 (by decide))]

/-- After region 1: the first layer's output. -/
private theorem W4_v44 : W4 m c (Proc.devRef .tc main_v44) = o1K m c hcol hrow := by
  refine (W4_arr m c 4).trans ((final1 (V3 m) c).trans ?_)
  show Cert.Spec.comb (W3 m c (Proc.devRef .tc main_v41)) (W3 m c (Proc.devRef .tc main_v28)) (W3 m c (Proc.devRef .tc main_v42)) (W3 m c (Proc.devRef .tc main_v43)) = _
  rw [W3_v41, W3_v28, W3_v42 m c hcol, W3_v43 m c hrow]
  rfl

/-- After region 2: the second product. -/
private theorem W5_v45 : W5 m c (Proc.devRef .tc main_v45) = h2K m c hcol hrow := by
  refine (W5_arr m c 2).trans ((final2 (V4 m) c).trans ?_)
  show Cert.Spec.mm (W4 m c (Proc.devRef .tc main_v44)) (W4 m c (Proc.devRef .tc main_arg5)) = _
  rw [W4_v44 m c hcol hrow, (W4_keep m c main_arg5 (by decide)).trans <| (W3_keep m c main_arg5 (by decide)).trans <|
    (W2_keep m c main_arg5 (by decide)).trans (W1_keep m c main_arg5 (by decide))]
  rfl

/-- After the third stretch: the neighbour sum of the second product … -/
private theorem W6_v58 : W6 m c (Proc.devRef .tc main_v58) = Cert.Stages.agg (F := Ideal) (h2K m c hcol hrow) (eiK m c) := by
  refine (ops3_v58 (W5 m c) (eiK m c)
    ((W5_of_W2 m c main_v1 (by decide) (by decide) (by decide)).trans <| (W2_of_W1 m c main_v1 (by decide)).trans (W1_v1 m c))
    ((W5_of_W2 m c main_v3 (by decide) (by decide) (by decide)).trans <| (W2_of_W1 m c main_v3 (by decide)).trans (W1_v3 m c))
    ((W5_of_W2 m c main_v27 (by decide) (by decide) (by decide)).trans <| (W2_of_W1 m c main_v27 (by decide)).trans (W1_v27 m c))).trans ?_
  rw [W5_v45 m c hcol hrow]
/-- … the second product still in place … -/
private theorem W6_v45 : W6 m c (Proc.devRef .tc main_v45) = h2K m c hcol hrow := (W6_keep m c main_v45 (by decide)).trans (W5_v45 m c hcol hrow)
/-- … the inverse degrees as a column … -/
private theorem W6_v59 : W6 m c (Proc.devRef .tc main_v59) = shapeCast Cert.ReferenceIdeal.S100000x1 (Cert.Stages.invDeg (F := Ideal) (eiK m c)) hcol := by
  refine (ops3_v59 (W5 m c) hcol).trans ?_
  rw [(W5_of_W2 m c main_v12 (by decide) (by decide) (by decide)).trans <| (W2_of_W1 m c main_v12 (by decide)).trans (W1_v12 m c)]
/-- … and the second bias as a row. -/
private theorem W6_v60 : W6 m c (Proc.devRef .tc main_v60)
    = shapeCast Cert.ReferenceIdeal.S1x128 (m ((c.tc : Thread nD τ).loc main_arg6) : FVec Ideal Cert.ReferenceIdeal.S128 .f32) hrow := by
  refine (ops3_v60 (W5 m c) hrow).trans ?_
  rw [(W5_of_W2 m c main_arg6 (by decide) (by decide) (by decide)).trans <| (W2_keep m c main_arg6 (by decide)).trans (W1_keep m c main_arg6 (by decide))]

/-- After region 3: the second layer's output. -/
private theorem W7_v61 : W7 m c (Proc.devRef .tc main_v61) = o2K m c hcol hrow := by
  refine (W7_arr m c 4).trans ((final3 (V6 m) c).trans ?_)
  show Cert.Spec.comb (W6 m c (Proc.devRef .tc main_v58)) (W6 m c (Proc.devRef .tc main_v45)) (W6 m c (Proc.devRef .tc main_v59)) (W6 m c (Proc.devRef .tc main_v60)) = _
  rw [W6_v58 m c hcol hrow, W6_v45 m c hcol hrow, W6_v59 m c hcol, W6_v60 m c hrow]
  rfl

/-- An argument no item of @main writes holds its launch contents before the pooling region's stretch. -/
private theorem W7_arg (b : Ref sig .tc) (h0 : b ∉ hostOps0_W) (h28 : b ≠ main_v28) (h1 : b ∉ hostOps1_W) (h44 : b ≠ main_v44)
    (h45 : b ≠ main_v45) (h3 : b ∉ hostOps3_W) (h61 : b ≠ main_v61) : W7 m c (Proc.devRef .tc b) = W0 m c (Proc.devRef .tc b) :=
  (W7_keep m c b h61).trans <| (W6_keep m c b h3).trans <| (W5_of_W2 m c b h1 h44 h45).trans <| (W2_keep m c b h28).trans (W1_keep m c b h0)

/-- After the fourth stretch: the graph ids as a column, the second layer's output still in place. -/
private theorem W8_v62 : W8 m c (Proc.devRef .tc main_v62)
    = shapeCast Cert.ReferenceIdeal.S100000x1 (m ((c.tc : Thread nD τ).loc main_arg2) : IVec Cert.ReferenceIdeal.S100000 32) hcol := by
  refine (ops4_v62 (W7 m c) hcol).trans ?_
  rw [W7_arg m c main_arg2 (by decide) (by decide) (by decide) (by decide) (by decide) (by decide) (by decide)]
private theorem W8_v61 : W8 m c (Proc.devRef .tc main_v61) = o2K m c hcol hrow := (W8_keep m c main_v61 (by decide)).trans (W7_v61 m c hcol hrow)

/-- After region 4: the per-graph sums of the second layer's output. -/
private theorem W9_v63 : W9 m c (Proc.devRef .tc main_v63)
    = Cert.Spec.poolNested (o2K m c hcol hrow) (shapeCast Cert.ReferenceIdeal.S100000x1 (m ((c.tc : Thread nD τ).loc main_arg2) : IVec Cert.ReferenceIdeal.S100000 32) hcol) := by
  refine (W9_arr m c 2).trans ((final4 (V8 m) c).trans ?_)
  show Cert.Spec.poolNested (W8 m c (Proc.devRef .tc main_v61)) (W8 m c (Proc.devRef .tc main_v62)) = _
  rw [W8_v61 m c hcol hrow, W8_v62 m c hcol]

/-- An argument no item of @main writes holds its launch contents before the last stretch. -/
private theorem W9_arg (b : Ref sig .tc) (h0 : b ∉ hostOps0_W) (h28 : b ≠ main_v28) (h1 : b ∉ hostOps1_W) (h44 : b ≠ main_v44)
    (h45 : b ≠ main_v45) (h3 : b ∉ hostOps3_W) (h61 : b ≠ main_v61) (h4 : b ∉ hostOps4_W) (h63 : b ≠ main_v63) :
    W9 m c (Proc.devRef .tc b) = W0 m c (Proc.devRef .tc b) :=
  (W9_keep m c b h63).trans <| (W8_keep m c b h4).trans (W7_arg m c b h0 h28 h1 h44 h45 h3 h61)

end Compose

theorem kval (m : (ℓ : Loc nD τ sig) → Buf (Elt Ideal) ℓ) (c : Dev nD)
    (hcol : Cert.ReferenceIdeal.S100000.ShapeCasts Cert.ReferenceIdeal.S100000x1) (hrow : Cert.ReferenceIdeal.S128.ShapeCasts Cert.ReferenceIdeal.S1x128) :
    W10 (F := Ideal) m c (Proc.devRef .tc main_v77)
      = Cert.Stages.kerRes (F := Ideal) Cert.Spec.mm Cert.Spec.comb Cert.Spec.poolNested hcol hrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (ops5_v77 (W9 m c)).trans ?_
  rw [W9_v63 m c hcol hrow,
    W9_arg m c main_arg2 (by decide) (by decide) (by decide) (by decide) (by decide) (by decide) (by decide) (by decide) (by decide),
    W9_arg m c main_arg7 (by decide) (by decide) (by decide) (by decide) (by decide) (by decide) (by decide) (by decide) (by decide),
    W9_arg m c main_arg8 (by decide) (by decide) (by decide) (by decide) (by decide) (by decide) (by decide) (by decide) (by decide)]
  rfl

end Cert.KernelIdeal.Hand

end
-- ==== Proof.RefOpsA.lean ====
/-
  The first window of the reference program as the list of its 60 host operations, in order; an operation of a
  function the window calls stands at the call, over that call's own buffers.
-/
import proofs.«423604_j68796786147746_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window's 60 operations, in order. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_cst_2 (constant S_ .f32 0x3F800000#32),
    unary main_cst_2 main_v11 (broadcastInDim S100000 ![] bcast_S_S100000 : (⟨S_, .f32⟩ : BufTy).Contents (Elt F) → (⟨S100000, .f32⟩ : BufTy).Contents (Elt F)),
    binary main_v11 main_v9 main_v12 (Host.divf : (⟨S100000, .f32⟩ : BufTy).Contents (Elt F) → (⟨S100000, .f32⟩ : BufTy).Contents (Elt F) → (⟨S100000, .f32⟩ : BufTy).Contents (Elt F)),
    binary main_arg0 main_arg3 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v10 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_4 (constantI S_ 32 0#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v23 (broadcastInDim S1600000 ![] bcast_S_S1600000 : (⟨S_, .i32⟩ : BufTy).Contents (Elt F) → (⟨S1600000, .i32⟩ : BufTy).Contents (Elt F)),
    binary main_v3 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v3 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v10 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v20 main_v27 main_v28 (mulf : (⟨S1600000, .f32⟩ : BufTy).Contents (Elt F) → (⟨S1600000, .f32⟩ : BufTy).Contents (Elt F) → (⟨S1600000, .f32⟩ : BufTy).Contents (Elt F)),
    nullary main_c_6 (constantI S_ 32 0#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v31 (broadcastInDim S1600000 ![] bcast_S_S1600000 : (⟨S_, .i32⟩ : BufTy).Contents (Elt F) → (⟨S1600000, .i32⟩ : BufTy).Contents (Elt F)),
    binary main_v1 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_v1 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v13 main_v34 main_v35 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v28 main_v36 (broadcastInDim S1600000x1 ![0] bcast_S1600000_S1600000x1_0 : (⟨S1600000, .f32⟩ : BufTy).Contents (Elt F) → (⟨S1600000x1, .f32⟩ : BufTy).Contents (Elt F)),
    unary main_v36 main_v37 (broadcastInDim S1600000x128 ![0, 1] bcast_S1600000x1_S1600000x128_0_1 : (⟨S1600000x1, .f32⟩ : BufTy).Contents (Elt F) → (⟨S1600000x128, .f32⟩ : BufTy).Contents (Elt F)),
    binary main_v35 main_v37 main_v38 (mulf : (⟨S1600000x128, .f32⟩ : BufTy).Contents (Elt F) → (⟨S1600000x128, .f32⟩ : BufTy).Contents (Elt F) → (⟨S1600000x128, .f32⟩ : BufTy).Contents (Elt F)),
    nullary main_cst_8 (constant S_ .f32 0x00000000#32),
    unary main_cst_8 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x128 ![0, 1] bcast_S100000x1_S100000x128_0_1 : (⟨S100000x1, .f32⟩ : BufTy).Contents (Elt F) → (⟨S100000x128, .f32⟩ : BufTy).Contents (Elt F)),
    binary main_v13 main_v43 main_v44 (mulf : (⟨S100000x128, .f32⟩ : BufTy).Contents (Elt F) → (⟨S100000x128, .f32⟩ : BufTy).Contents (Elt F) → (⟨S100000x128, .f32⟩ : BufTy).Contents (Elt F)),
    binary main_v41 main_v44 main_v45 (addf : (⟨S100000x128, .f32⟩ : BufTy).Contents (Elt F) → (⟨S100000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

end Cert.ReferenceIdeal.Hand

end
-- ==== Proof.RefRunA.lean ====
/-
  The first window of the reference program is the run of its list of sixty host operations, and what the buffers hold
  once the list has run from ANY contents: the edge list's two rows, the inverse square root and the inverse of the node
  degrees, and the first layer before its rectifier, each as a stage function of the argument buffers' contents; the nine
  argument buffers are written by no operation of the window.
-/
import proofs.«423604_j68796786147746_2_alg».proof.Proof.RefOpsA
import proofs.«423604_j68796786147746_2_alg».proof.Proof.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window is the run of its list: both sides are the same chain of steps. -/
theorem main_part0_eq (c : Dev nD) : main_part0 (F := F) c = seq opsA := rfl

/-- Every operation of the list touches TensorCore references only. -/
theorem opsA_sub : (opsA : List (HloOp τ sig (Elt F))).Forall fun op => op.bufs ⊆ tcRefs τ sig := by
  simp only [opsA, List.Forall, nullary_bufs_sub, unary_bufs_sub, binary_bufs_sub, ternary_bufs_sub, reshape_bufs_sub, and_self]

/-- Every operation of the list determines what it writes. -/
theorem opsA_fresh : ∀ op ∈ (opsA : List (HloOp τ sig (Elt F))), op.fresh = ∅ := by
  intro _ h; (repeat (cases h with | head => rfl | tail _ h => ?_)); exact nomatch h

/-- A layer before its rectifier: the neighbour sum of the transformed features, plus those features over the degree,
    plus the bias. -/
def preR (h : FVec F S100000x128 .f32) (ei : IVec S2x1600000 32) (b : FVec F S128 .f32) : FVec F S100000x128 .f32 :=
  addf
    (addf (Cert.Stages.agg h ei)
      (mulf h (broadcastInDim S100000x128 ![0, 1] bcast_S100000x1_S100000x128_0_1
        (broadcastInDim S100000x1 ![0] bcast_S100000_S100000x1_0 (Cert.Stages.invDeg (F := F) ei)))))
    (broadcastInDim S100000x128 ![0, 1] bcast_S1x128_S100000x128_0_1 (broadcastInDim S1x128 ![1] bcast_S128_S1x128_1 b))

/-- The edges' source nodes: row 0 of the edge list, reshaped. -/
theorem A_v1 (V : Valuation τ sig (Elt F)) :
    after opsA V (Proc.devRef .tc main_v1) = Cert.Stages.src (V (Proc.devRef .tc main_arg1)) := by
  after_results_simp
  rfl

/-- The edges' destination nodes: row 1 of the edge list, reshaped. -/
theorem A_v3 (V : Valuation τ sig (Elt F)) :
    after opsA V (Proc.devRef .tc main_v3) = Cert.Stages.dst (V (Proc.devRef .tc main_arg1)) := by
  after_results_simp
  rfl

/-- The inverse square roots of the node degrees. -/
theorem A_v10 (V : Valuation τ sig (Elt F)) :
    after opsA V (Proc.devRef .tc main_v10) = Host.rsqrt (Cert.Stages.deg (F := F) (V (Proc.devRef .tc main_arg1))) := by
  after_results_simp
  rfl

/-- The inverses of the node degrees. -/
theorem A_v12 (V : Valuation τ sig (Elt F)) :
    after opsA V (Proc.devRef .tc main_v12) = Cert.Stages.invDeg (F := F) (V (Proc.devRef .tc main_arg1)) := by
  after_results_simp
  rfl

/-- The first layer before its rectifier, on the product of the node features with the first weight matrix. -/
theorem A_v48 (V : Valuation τ sig (Elt F)) :
    after opsA V (Proc.devRef .tc main_v48)
      = preR (Cert.Stages.dotR (V (Proc.devRef .tc main_arg0)) (V (Proc.devRef .tc main_arg3))) (V (Proc.devRef .tc main_arg1))
          (V (Proc.devRef .tc main_arg4)) := by
  after_results_simp
  rfl

set_option maxHeartbeats 4000000 in
/-- No operation of the window writes an argument. -/
theorem A_args (V : Valuation τ sig (Elt F)) :
    after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5)
    ∧ after opsA V (Proc.devRef .tc main_arg6) = V (Proc.devRef .tc main_arg6)
    ∧ after opsA V (Proc.devRef .tc main_arg7) = V (Proc.devRef .tc main_arg7)
    ∧ after opsA V (Proc.devRef .tc main_arg8) = V (Proc.devRef .tc main_arg8) := by
  refine ⟨?_, ?_, ?_, ?_, ?_, ?_, ?_, ?_, ?_⟩ <;> after_results_simp

end Cert.ReferenceIdeal.Hand

end
-- ==== Proof.RefOpsB.lean ====
/-
  The second window of the reference program as the list of its 72 host operations, in order; an operation of a
  function the window calls stands at the call, over that call's own buffers.
-/
import proofs.«423604_j68796786147746_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The second window's 72 operations, in order. -/
abbrev opsB : List (HloOp τ sig (Elt F)) :=
  [ nullary main_cst_9 (constant S_ .f32 0x3E4CCCCD#32),
    TRef.nullary main_call0.cst (constant S_ .f32 0x00000000#32),
    TRef.unary main_call0.cst main_call0.v0 (broadcastInDim S100000x128 ![] bcast_S_S100000x128),
    TRef.binary (TRef.of main_v48 : TRef sig ⟨S100000x128, .f32⟩) main_call0.v0 main_call0.v1 (cmpf .oge),
    TRef.unary (TRef.of main_cst_9 : TRef sig ⟨S_, .f32⟩) main_call0.v2 id,
    TRef.unary main_call0.v2 main_call0.v3 (broadcastInDim S100000x128 ![] bcast_S_S100000x128),
    TRef.binary main_call0.v3 (TRef.of main_v48 : TRef sig ⟨S100000x128, .f32⟩) main_call0.v4 mulf,
    TRef.ternary main_call0.v1 (TRef.of main_v48 : TRef sig ⟨S100000x128, .f32⟩) main_call0.v4 main_call0.call0.v0 select,
    binary main_v49 main_arg5 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1600000 ![] bcast_S_S1600000 : (⟨S_, .i32⟩ : BufTy).Contents (Elt F) → (⟨S1600000, .i32⟩ : BufTy).Contents (Elt F)),
    binary main_v1 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v53 (broadcastInDim S1600000 ![] bcast_S_S1600000 : (⟨S_, .i32⟩ : BufTy).Contents (Elt F) → (⟨S1600000, .i32⟩ : BufTy).Contents (Elt F)),
    binary main_v1 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v10 main_v56 main_v57 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_12 (constantI S_ 32 0#32),
    unary main_c_12 main_v58 (broadcastInDim S1600000 ![] bcast_S_S1600000 : (⟨S_, .i32⟩ : BufTy).Contents (Elt F) → (⟨S1600000, .i32⟩ : BufTy).Contents (Elt F)),
    binary main_v3 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v60 (broadcastInDim S1600000 ![] bcast_S_S1600000 : (⟨S_, .i32⟩ : BufTy).Contents (Elt F) → (⟨S1600000, .i32⟩ : BufTy).Contents (Elt F)),
    binary main_v3 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_v3 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v10 main_v63 main_v64 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v57 main_v64 main_v65 (mulf : (⟨S1600000, .f32⟩ : BufTy).Contents (Elt F) → (⟨S1600000, .f32⟩ : BufTy).Contents (Elt F) → (⟨S1600000, .f32⟩ : BufTy).Contents (Elt F)),
    nullary main_c_14 (constantI S_ 32 0#32),
    unary main_c_14 main_v66 (broadcastInDim S1600000 ![] bcast_S_S1600000 : (⟨S_, .i32⟩ : BufTy).Contents (Elt F) → (⟨S1600000, .i32⟩ : BufTy).Contents (Elt F)),
    binary main_v1 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v68 (broadcastInDim S1600000 ![] bcast_S_S1600000 : (⟨S_, .i32⟩ : BufTy).Contents (Elt F) → (⟨S1600000, .i32⟩ : BufTy).Contents (Elt F)),
    binary main_v1 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_v1 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v50 main_v71 main_v72 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v65 main_v73 (broadcastInDim S1600000x1 ![0] bcast_S1600000_S1600000x1_0 : (⟨S1600000, .f32⟩ : BufTy).Contents (Elt F) → (⟨S1600000x1, .f32⟩ : BufTy).Contents (Elt F)),
    unary main_v73 main_v74 (broadcastInDim S1600000x128 ![0, 1] bcast_S1600000x1_S1600000x128_0_1 : (⟨S1600000x1, .f32⟩ : BufTy).Contents (Elt F) → (⟨S1600000x128, .f32⟩ : BufTy).Contents (Elt F)),
    binary main_v72 main_v74 main_v75 (mulf : (⟨S1600000x128, .f32⟩ : BufTy).Contents (Elt F) → (⟨S1600000x128, .f32⟩ : BufTy).Contents (Elt F) → (⟨S1600000x128, .f32⟩ : BufTy).Contents (Elt F)),
    nullary main_cst_16 (constant S_ .f32 0x00000000#32),
    unary main_cst_16 main_v76 (broadcastInDim S100000x128 ![] bcast_S_S100000x128 : (⟨S_, .f32⟩ : BufTy).Contents (Elt F) → (⟨S100000x128, .f32⟩ : BufTy).Contents (Elt F)),
    unary main_v3 main_v77 (broadcastInDim S1600000x1 ![0] bcast_S1600000_S1600000x1_0 : (⟨S1600000, .i32⟩ : BufTy).Contents (Elt F) → (⟨S1600000x1, .i32⟩ : BufTy).Contents (Elt F)),
    ternary main_v76 main_v77 main_v75 main_v78 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v79 (broadcastInDim S100000x1 ![0] bcast_S100000_S100000x1_0 : (⟨S100000, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v50 main_v80 main_v81 (mulf : (⟨S100000x128, .f32⟩ : BufTy).Contents (Elt F) → (⟨S100000x128, .f32⟩ : BufTy).Contents (Elt F) → (⟨S100000x128, .f32⟩ : BufTy).Contents (Elt F)),
    binary main_v78 main_v81 main_v82 (addf : (⟨S100000x128, .f32⟩ : BufTy).Contents (Elt F) → (⟨S100000x128, .f32⟩ : BufTy).Contents (Elt F) → (⟨S100000x128, .f32⟩ : BufTy).Contents (Elt F)),
    unary main_arg6 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x3E4CCCCD#32),
    TRef.nullary main_call1.cst (constant S_ .f32 0x00000000#32),
    TRef.unary main_call1.cst main_call1.v0 (broadcastInDim S100000x128 ![] bcast_S_S100000x128),
    TRef.binary (TRef.of main_v85 : TRef sig ⟨S100000x128, .f32⟩) main_call1.v0 main_call1.v1 (cmpf .oge),
    TRef.unary (TRef.of main_cst_17 : TRef sig ⟨S_, .f32⟩) main_call1.v2 id,
    TRef.unary main_call1.v2 main_call1.v3 (broadcastInDim S100000x128 ![] bcast_S_S100000x128),
    TRef.binary main_call1.v3 (TRef.of main_v85 : TRef sig ⟨S100000x128, .f32⟩) main_call1.v4 mulf,
    TRef.ternary main_call1.v1 (TRef.of main_v85 : TRef sig ⟨S100000x128, .f32⟩) main_call1.v4 main_call1.call0.v0 select,
    nullary main_cst_18 (constant S_ .f32 0x00000000#32),
    unary main_cst_18 main_v87 (broadcastInDim S64x128 ![] bcast_S_S64x128 : (⟨S_, .f32⟩ : BufTy).Contents (Elt F) → (⟨S64x128, .f32⟩ : BufTy).Contents (Elt F)),
    unary main_arg2 main_v88 (broadcastInDim S100000x1 ![0] bcast_S100000_S100000x1_0 : (⟨S100000, .i32⟩ : BufTy).Contents (Elt F) → (⟨S100000x1, .i32⟩ : BufTy).Contents (Elt F)),
    ternary main_v87 main_v88 main_v86 main_v89 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_19 (constant S_ .f32 0x3F800000#32),
    unary main_cst_19 main_v90 (broadcastInDim S100000 ![] bcast_S_S100000 : (⟨S_, .f32⟩ : BufTy).Contents (Elt F) → (⟨S100000, .f32⟩ : BufTy).Contents (Elt F)),
    nullary main_cst_20 (constant S_ .f32 0x00000000#32),
    unary main_cst_20 main_v91 (broadcastInDim S64 ![] bcast_S_S64 : (⟨S_, .f32⟩ : BufTy).Contents (Elt F) → (⟨S64, .f32⟩ : BufTy).Contents (Elt F)),
    unary main_arg2 main_v92 (broadcastInDim S100000x1 ![0] bcast_S100000_S100000x1_0 : (⟨S100000, .i32⟩ : BufTy).Contents (Elt F) → (⟨S100000x1, .i32⟩ : BufTy).Contents (Elt F)),
    ternary main_v91 main_v92 main_v90 main_v93 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_21 (constant S_ .f32 0x3F800000#32),
    unary main_cst_21 main_v94 (broadcastInDim S64 ![] bcast_S_S64 : (⟨S_, .f32⟩ : BufTy).Contents (Elt F) → (⟨S64, .f32⟩ : BufTy).Contents (Elt F)),
    binary main_v93 main_v94 main_v95 (maximumf : (⟨S64, .f32⟩ : BufTy).Contents (Elt F) → (⟨S64, .f32⟩ : BufTy).Contents (Elt F) → (⟨S64, .f32⟩ : BufTy).Contents (Elt F)) ]

end Cert.ReferenceIdeal.Hand

end
-- ==== Proof.RefRunB.lean ====
/-
  The second window of the reference program is the run of its list of host operations (the two calls of the leaky
  rectifier written out at their call sites), and what the buffers hold once the list has run from ANY contents: the
  pooled second layer and the clamped graph sizes, as stage functions of what the first window left (its layer before the
  rectifier, the edges' end nodes, the inverse square roots and inverses of the degrees) and of the argument buffers; the
  nine argument buffers are written by no operation of the window.
-/
import proofs.«423604_j68796786147746_2_alg».proof.Proof.RefOpsB
import proofs.«423604_j68796786147746_2_alg».proof.Proof.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The second window is the run of its list: the two functions' bodies unfolded at their calls and the calls' records at
    their fields, both sides are one chain of steps once sequencing is reassociated. -/
theorem main_part1_eq (c : Dev nD) : main_part1 (F := F) c = seq opsB := by
  simp only [main_part1, fn_leaky_relu.body, fn_where.body, seq, bind_assoc, pure_bind]
  rfl

/-- Every operation of the list touches TensorCore references only. -/
theorem opsB_sub : (opsB : List (HloOp τ sig (Elt F))).Forall fun op => op.bufs ⊆ tcRefs τ sig := by
  simp only [opsB, List.Forall, nullary_bufs_sub, unary_bufs_sub, binary_bufs_sub, ternary_bufs_sub, reshape_bufs_sub, and_self]

/-- Every operation of the list determines what it writes. -/
theorem opsB_fresh : ∀ op ∈ (opsB : List (HloOp τ sig (Elt F))), op.fresh = ∅ := by
  intro _ h; (repeat (cases h with | head => rfl | tail _ h => ?_)); exact nomatch h

/-- The per-edge normalisation from given end nodes of the edges and given inverse square roots of the degrees. -/
def normG (s d : IVec S1600000 32) (r : FVec F S100000 .f32) : FVec F S1600000 .f32 :=
  mulf
    (Host.gather gather_S100000_S1600000x1_S1600000_n_0_n_n_0_1_1 r
      (broadcastInDim S1600000x1 ![0] bcast_S1600000_S1600000x1_0 (Cert.Stages.wrap s)))
    (Host.gather gather_S100000_S1600000x1_S1600000_n_0_n_n_0_1_1 r
      (broadcastInDim S1600000x1 ![0] bcast_S1600000_S1600000x1_0 (Cert.Stages.wrap d)))

/-- The neighbour sum from given end nodes of the edges and a given per-edge normalisation. -/
def aggG (h : FVec F S100000x128 .f32) (s d : IVec S1600000 32) (nrm : FVec F S1600000 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf
      (Host.gather gather_S100000x128_S1600000x1_S1600000x128_1_0_n_n_0_1_1128 h
        (broadcastInDim S1600000x1 ![0] bcast_S1600000_S1600000x1_0 (Cert.Stages.wrap s)))
      (broadcastInDim S1600000x128 ![0, 1] bcast_S1600000x1_S1600000x128_0_1
        (broadcastInDim S1600000x1 ![0] bcast_S1600000_S1600000x1_0 nrm)))

/-- A layer before its rectifier, from given end nodes, inverse square roots of the degrees and inverse degrees. -/
def preG (h : FVec F S100000x128 .f32) (s d : IVec S1600000 32) (r q : FVec F S100000 .f32) (b : FVec F S128 .f32) :
    FVec F S100000x128 .f32 :=
  addf
    (addf (aggG h s d (normG s d r))
      (mulf h (broadcastInDim S100000x128 ![0, 1] bcast_S100000x1_S100000x128_0_1
        (broadcastInDim S100000x1 ![0] bcast_S100000_S100000x1_0 q))))
    (broadcastInDim S100000x128 ![0, 1] bcast_S1x128_S100000x128_0_1 (broadcastInDim S1x128 ![1] bcast_S128_S1x128_1 b))

/-- The graph sizes clamped below at one. -/
def cntG (bt : IVec S100000 32) : FVec F S64 .f32 :=
  maximumf
    (Host.scatterAdd scatter_S64_S100000x1_S100000_n_0_0_1
      (broadcastInDim S64 ![] bcast_S_S64 (constant S_ .f32 0x00000000#32))
      (broadcastInDim S100000x1 ![0] bcast_S100000_S100000x1_0 bt)
      (broadcastInDim S100000 ![] bcast_S_S100000 (constant S_ .f32 0x3F800000#32)))
    (broadcastInDim S64 ![] bcast_S_S64 (constant S_ .f32 0x3F800000#32))

/-- The pooled second layer: the first layer's value before its rectifier, the end nodes of the edges and the degree
    vectors are read from the buffers the first window left; a call's transports of contents along its references'
    types are the identity. -/
theorem B_v89 (V : Valuation τ sig (Elt F)) :
    after opsB V (Proc.devRef .tc main_v89)
      = Cert.Stages.poolR
          (Cert.Stages.leakyR
            (preG (Cert.Stages.dotR (Cert.Stages.leakyR (V (Proc.devRef .tc main_v48))) (V (Proc.devRef .tc main_arg5)))
              (V (Proc.devRef .tc main_v1)) (V (Proc.devRef .tc main_v3)) (V (Proc.devRef .tc main_v10))
              (V (Proc.devRef .tc main_v12)) (V (Proc.devRef .tc main_arg6))))
          (V (Proc.devRef .tc main_arg2)) := by
  after_results_simp
  try simp only [TRef.ofBuf, TRef.toBuf, cast_eq]
  rfl

/-- The graph sizes, clamped below at one. -/
theorem B_v95 (V : Valuation τ sig (Elt F)) :
    after opsB V (Proc.devRef .tc main_v95) = cntG (F := F) (V (Proc.devRef .tc main_arg2)) := by
  after_results_simp
  rfl

set_option maxHeartbeats 4000000 in
/-- No operation of the window writes an argument. -/
theorem B_args (V : Valuation τ sig (Elt F)) :
    after opsB V (Proc.devRef .tc main_arg0) = V (Proc.devRef .tc main_arg0)
    ∧ after opsB V (Proc.devRef .tc main_arg1) = V (Proc.devRef .tc main_arg1)
    ∧ after opsB V (Proc.devRef .tc main_arg2) = V (Proc.devRef .tc main_arg2)
    ∧ after opsB V (Proc.devRef .tc main_arg3) = V (Proc.devRef .tc main_arg3)
    ∧ after opsB V (Proc.devRef .tc main_arg4) = V (Proc.devRef .tc main_arg4)
    ∧ after opsB V (Proc.devRef .tc main_arg5) = V (Proc.devRef .tc main_arg5)
    ∧ after opsB V (Proc.devRef .tc main_arg6) = V (Proc.devRef .tc main_arg6)
    ∧ after opsB V (Proc.devRef .tc main_arg7) = V (Proc.devRef .tc main_arg7)
    ∧ after opsB V (Proc.devRef .tc main_arg8) = V (Proc.devRef .tc main_arg8) := by
  refine ⟨?_, ?_, ?_, ?_, ?_, ?_, ?_, ?_, ?_⟩ <;> after_results_simp

end Cert.ReferenceIdeal.Hand

end
-- ==== Proof.RefOpsC.lean ====
/-
  The last window of the reference program as the list of its 8 host operations, in order; an operation of a
  function the window calls stands at the call, over that call's own buffers.
-/
import proofs.«423604_j68796786147746_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The last window's 8 operations, in order. -/
abbrev opsC : List (HloOp τ sig (Elt F)) :=
  [ unary main_v95 main_v96 (broadcastInDim S64x1 ![0] bcast_S64_S64x1_0 : (⟨S64, .f32⟩ : BufTy).Contents (Elt F) → (⟨S64x1, .f32⟩ : BufTy).Contents (Elt F)),
    unary main_v96 main_v97 (broadcastInDim S64x128 ![0, 1] bcast_S64x1_S64x128_0_1 : (⟨S64x1, .f32⟩ : BufTy).Contents (Elt F) → (⟨S64x128, .f32⟩ : BufTy).Contents (Elt F)),
    binary main_v89 main_v97 main_v98 (Host.divf : (⟨S64x128, .f32⟩ : BufTy).Contents (Elt F) → (⟨S64x128, .f32⟩ : BufTy).Contents (Elt F) → (⟨S64x128, .f32⟩ : BufTy).Contents (Elt F)),
    binary main_v98 main_arg7 main_v99 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    unary main_arg8 main_v100 (broadcastInDim S1x1 ![1] bcast_S1_S1x1_1 : (⟨S1, .f32⟩ : BufTy).Contents (Elt F) → (⟨S1x1, .f32⟩ : BufTy).Contents (Elt F)),
    unary main_v100 main_v101 (broadcastInDim S64x1 ![0, 1] bcast_S1x1_S64x1_0_1 : (⟨S1x1, .f32⟩ : BufTy).Contents (Elt F) → (⟨S64x1, .f32⟩ : BufTy).Contents (Elt F)),
    binary main_v99 main_v101 main_v102 (addf : (⟨S64x1, .f32⟩ : BufTy).Contents (Elt F) → (⟨S64x1, .f32⟩ : BufTy).Contents (Elt F) → (⟨S64x1, .f32⟩ : BufTy).Contents (Elt F)),
    reshape main_v102 main_v103 rfl shapeCasts_S64x1_S64 ]

end Cert.ReferenceIdeal.Hand

end
-- ==== Proof.RefRunC.lean ====
/-
  The last window of the reference program is the run of its list of eight host operations, and what the result buffer
  holds once the list has run from ANY contents: the tail (divide the graph sums by the clamped graph sizes, the final
  linear map and its bias, reshaped to a vector) of the buffers the second window left; the nine argument buffers are
  written by no operation of the window.
-/
import proofs.«423604_j68796786147746_2_alg».proof.Proof.RefOpsC
import proofs.«423604_j68796786147746_2_alg».proof.Proof.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The last window is the run of its list: both sides are the same chain of steps. -/
theorem main_part2_eq (c : Dev nD) : main_part2 (F := F) c = seq opsC := rfl

/-- Every operation of the list touches TensorCore references only. -/
theorem opsC_sub : (opsC : List (HloOp τ sig (Elt F))).Forall fun op => op.bufs ⊆ tcRefs τ sig := by
  simp only [opsC, List.Forall, nullary_bufs_sub, unary_bufs_sub, binary_bufs_sub, ternary_bufs_sub, reshape_bufs_sub, and_self]

/-- Every operation of the list determines what it writes. -/
theorem opsC_fresh : ∀ op ∈ (opsC : List (HloOp τ sig (Elt F))), op.fresh = ∅ := by
  intro _ h; (repeat (cases h with | head => rfl | tail _ h => ?_)); exact nomatch h

/-- The tail on given graph sums and given clamped graph sizes. -/
def tailG (p : FVec F S64x128 .f32) (cnt : FVec F S64 .f32) (fw : FVec F S128x1 .f32) (fb : FVec F S1 .f32) : FVec F S64 .f32 :=
  shapeCast S64 (addf
    (Host.dotGeneral dot_S64x128_S128x1_S64x1_1_0_0_1_n_n none
      (Host.divf p (broadcastInDim S64x128 ![0, 1] bcast_S64x1_S64x128_0_1 (broadcastInDim S64x1 ![0] bcast_S64_S64x1_0 cnt))) fw)
    (broadcastInDim S64x1 ![0, 1] bcast_S1x1_S64x1_0_1 (broadcastInDim S1x1 ![1] bcast_S1_S1x1_1 fb))) shapeCasts_S64x1_S64

/-- The result: the tail of the graph sums and clamped graph sizes the second window left. -/
theorem C_v103 (V : Valuation τ sig (Elt F)) :
    after opsC V (Proc.devRef .tc main_v103)
      = tailG (V (Proc.devRef .tc main_v89)) (V (Proc.devRef .tc main_v95)) (V (Proc.devRef .tc main_arg7)) (V (Proc.devRef .tc main_arg8)) := by
  after_results_simp
  rfl

/-- No operation of the window writes an argument. -/
theorem C_args (V : Valuation τ sig (Elt F)) :
    after opsC V (Proc.devRef .tc main_arg0) = V (Proc.devRef .tc main_arg0)
    ∧ after opsC V (Proc.devRef .tc main_arg1) = V (Proc.devRef .tc main_arg1)
    ∧ after opsC V (Proc.devRef .tc main_arg2) = V (Proc.devRef .tc main_arg2)
    ∧ after opsC V (Proc.devRef .tc main_arg3) = V (Proc.devRef .tc main_arg3)
    ∧ after opsC V (Proc.devRef .tc main_arg4) = V (Proc.devRef .tc main_arg4)
    ∧ after opsC V (Proc.devRef .tc main_arg5) = V (Proc.devRef .tc main_arg5)
    ∧ after opsC V (Proc.devRef .tc main_arg6) = V (Proc.devRef .tc main_arg6)
    ∧ after opsC V (Proc.devRef .tc main_arg7) = V (Proc.devRef .tc main_arg7)
    ∧ after opsC V (Proc.devRef .tc main_arg8) = V (Proc.devRef .tc main_arg8) := by
  refine ⟨?_, ?_, ?_, ?_, ?_, ?_, ?_, ?_, ?_⟩ <;> after_results_simp

end Cert.ReferenceIdeal.Hand

end
-- ==== Proof.RefRun.lean ====
/-
  The run of the reference program. @main runs its three windows in order; each window is the run of its list of host
  operations, so @main is the run of the three lists' concatenation, and from any memory with zero counters every weakly
  fair execution terminates with each TensorCore buffer at the lists' fold over its launch contents. The fold is read
  window by window: the first leaves the edge list's two rows, the degree vectors and the first layer before its rectifier;
  the second, from those, the pooled second layer and the clamped graph sizes; the last, from those, the result. Composed,
  the result buffer holds the composition of the stages on the nine argument arrays, and no window writes an argument.
-/
import proofs.«423604_j68796786147746_2_alg».proof.Proof.Gen.ReferenceIdeal
import proofs.«423604_j68796786147746_2_alg».proof.Proof.Stages
import proofs.«423604_j68796786147746_2_alg».proof.Proof.RefRunA
import proofs.«423604_j68796786147746_2_alg».proof.Proof.RefRunB
import proofs.«423604_j68796786147746_2_alg».proof.Proof.RefRunC
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations: the three windows' lists, in order. -/
abbrev ops : List (HloOp τ sig (Elt F)) := opsA ++ (opsB ++ opsC)

/-- @main is the run of that list: it runs its three windows in order, each the run of its own list, and two lists run
    one after the other are their concatenation run as one. -/
theorem main_eq (c : Dev nD) : main (F := F) c = seq ops :=
  calc main (F := F) c
      = main_part0 c >>= fun _ => main_part1 c >>= fun _ => main_part2 c := rfl
    _ = seq opsA >>= fun _ => seq opsB >>= fun _ => seq opsC := by
        rw [main_part0_eq c, main_part1_eq c, main_part2_eq c]
    _ = seq ops := by
        rw [show (ops : List (HloOp τ sig (Elt F))) = opsA ++ (opsB ++ opsC) from rfl, seq_append, seq_append]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of @main touches TensorCore references only, as every operation of each window does. -/
theorem ops_sub : (ops : List (HloOp τ sig (Elt F))).Forall fun op => op.bufs ⊆ tcRefs τ sig :=
  List.forall_append.2 ⟨opsA_sub, List.forall_append.2 ⟨opsB_sub, opsC_sub⟩⟩

/-- Every operation of @main determines what it writes, as every operation of each window does. -/
theorem ops_fresh : ∀ op ∈ (ops : List (HloOp τ sig (Elt F))), op.fresh = ∅ := by
  intro op h
  rcases List.mem_append.1 h with h | h
  · exact opsA_fresh op h
  · rcases List.mem_append.1 h with h | h
    · exact opsB_fresh op h
    · exact opsC_fresh op h

/-- The contents after two lists run one after the other: the second list's, from the first list's. -/
private theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The contents after @main: the last window's, from the second's, from the first's. -/
theorem after_ops (V : Valuation τ sig (Elt F)) : after ops V = after opsC (after opsB (after opsA V)) := by
  rw [show (ops : List (HloOp τ sig (Elt F))) = opsA ++ (opsB ++ opsC) from rfl, after_append', after_append']

/-- The composition of the stages, written over the windows' stage functions: a layer is the rectifier of the layer
    before it; the layer before the rectifier, the per-edge normalisation and the neighbour sum read the edge list only
    through its two rows and the degrees; the tail reads the graph ids only through the clamped graph sizes. -/
theorem refRes_eq (x : FVec F S100000x128 .f32) (ei : IVec S2x1600000 32) (bt : IVec S100000 32) (w1 : FVec F S128x128 .f32)
    (b1 : FVec F S128 .f32) (w2 : FVec F S128x128 .f32) (b2 : FVec F S128 .f32) (fw : FVec F S128x1 .f32) (fb : FVec F S1 .f32) :
    Cert.Stages.refRes x ei bt w1 b1 w2 b2 fw fb
      = tailG
          (Cert.Stages.poolR
            (Cert.Stages.leakyR
              (preG (Cert.Stages.dotR (Cert.Stages.leakyR (preR (Cert.Stages.dotR x w1) ei b1)) w2)
                (Cert.Stages.src ei) (Cert.Stages.dst ei) (Host.rsqrt (Cert.Stages.deg (F := F) ei)) (Cert.Stages.invDeg (F := F) ei) b2))
            bt)
          (cntG (F := F) bt) fw fb := rfl

/-- The result buffer after @main, from any contents: the composition of the stages on the argument buffers' contents. -/
theorem res_eq (V : Valuation τ sig (Elt F)) :
    after ops V (Proc.devRef .tc main_v103)
      = Cert.Stages.refRes (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  obtain ⟨-, -, a2, -, -, a5, a6, a7, a8⟩ := A_args V
  obtain ⟨-, -, b2, -, -, b5, b6, b7, b8⟩ := B_args (after opsA V)
  rw [after_ops, C_v103, B_v89, B_v95, b7, b8, A_v48, A_v1, A_v3, A_v10, A_v12, a2, a5, a6, a7, a8, refRes_eq]

/-- The argument buffers after @main, from any contents: unchanged, window by window. -/
theorem args_eq (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8) := by
  obtain ⟨a0, a1, a2, a3, a4, a5, a6, a7, a8⟩ := A_args V
  obtain ⟨b0, b1, b2, b3, b4, b5, b6, b7, b8⟩ := B_args (after opsA V)
  obtain ⟨c0, c1, c2, c3, c4, c5, c6, c7, c8⟩ := C_args (after opsB (after opsA V))
  rw [after_ops]
  exact ⟨c0.trans (b0.trans a0), c1.trans (b1.trans a1), c2.trans (b2.trans a2), c3.trans (b3.trans a3), c4.trans (b4.trans a4),
    c5.trans (b5.trans a5), c6.trans (b6.trans a6), c7.trans (b7.trans a7), c8.trans (b8.trans a8)⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = Cert.Stages.refRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      have ha := args_eq (launchContents m c)
      ⟨(h c main_v103).trans (res_eq (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2.1, (h c main_arg7).trans ha.2.2.2.2.2.2.2.1, (h c main_arg8).trans ha.2.2.2.2.2.2.2.2⟩)
    (run_seq scopedRefs_eq scopedSems_eq defs main (fun _ => ops) main_eq (fun _ => ops_sub) m ρ (fun _ => ops_fresh))

end Cert.ReferenceIdeal.Hand

end
-- ==== Proof.Bridge.lean ====
/-
  The reference's three stages that differ in form from the kernel regions' whole-array functions, joined to them index by
  index over the extended reals: the matrix product is the sum over the 128 input channels of the products of the entries;
  the layer is the neighbour sum plus the node's own row over its degree plus the bias, through the leaky rectifier, the
  inverse degrees read as a column and the bias as a row; the pooling scatter-add by graph id is the sum over all nodes of
  the indicator "node's graph id is g" times the node's entry, and that sum taken over 20 tiles of 5000 nodes is the same
  sum. With these the two programs' results, compositions of the shared stages, are equal.
-/
import proofs.«423604_j68796786147746_2_alg».proof.Proof.Stages
import proofs.«423604_j68796786147746_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.Bridge

open Idealize.ShloMosaic Idealize.ShloMosaic.ValueIdx Cert.ReferenceIdeal Cert.ReferenceIdeal.Facts₀ Cert.ReferenceIdeal.Facts Cert.Stages

/-! ## The matrix product at an index -/

/-- The left operand's row coordinate is the output's row. -/
private theorem lhs_dot_0 (j : S100000x128.Idx) (k : dot_S100000x128_S128x128_S100000x128_1_0_0_1_n_n.contr.Idx) :
    (dot_S100000x128_S128x128_S100000x128_1_0_0_1_n_n.lhsIdx j k 0).val = (j 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The left operand's column coordinate is the contracted coordinate. -/
private theorem lhs_dot_1 (j : S100000x128.Idx) (k : dot_S100000x128_S128x128_S100000x128_1_0_0_1_n_n.contr.Idx) :
    (dot_S100000x128_S128x128_S100000x128_1_0_0_1_n_n.lhsIdx j k 1).val = (k ⟨0, by decide⟩).val :=
  dot_S100000x128_S128x128_S100000x128_1_0_0_1_n_n.lhsIdx_val_of_single (cl := 1) rfl j k

/-- The right operand's row coordinate is the contracted coordinate. -/
private theorem rhs_dot_0 (j : S100000x128.Idx) (k : dot_S100000x128_S128x128_S100000x128_1_0_0_1_n_n.contr.Idx) :
    (dot_S100000x128_S128x128_S100000x128_1_0_0_1_n_n.rhsIdx j k 0).val = (k ⟨0, by decide⟩).val :=
  dot_S100000x128_S128x128_S100000x128_1_0_0_1_n_n.rhsIdx_val_of_single (cr := 0) rfl j k

/-- The right operand's column coordinate is the output's column. -/
private theorem rhs_dot_1 (j : S100000x128.Idx) (k : dot_S100000x128_S128x128_S100000x128_1_0_0_1_n_n.contr.Idx) :
    (dot_S100000x128_S128x128_S100000x128_1_0_0_1_n_n.rhsIdx j k 1).val = (j 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

theorem dotR_eq_mm (x : FVec Ideal S100000x128 .f32) (w : FVec Ideal S128x128 .f32) :
    dotR (F := Ideal) x w = Cert.Spec.mm x w := by
  funext i
  obtain ⟨p, q, rfl⟩ : ∃ (p : Fin 100000) (q : Fin 128), i = ix2 p q := ⟨i 0, i 1, eq_ix2 i⟩
  unfold dotR Cert.Spec.mm
  show FloatOps.dotGeneral dot_S100000x128_S128x128_S100000x128_1_0_0_1_n_n none _ x w (ix2 p q) = _
  rw [Ideal.dotGeneral_apply,
    ← Equiv.sum_comp (contrEquiv1 dot_S100000x128_S128x128_S100000x128_1_0_0_1_n_n 128 rfl rfl).symm]
  refine Finset.sum_congr rfl fun c _ => ?_
  have c2 := contrEquiv1_symm_val dot_S100000x128_S128x128_S100000x128_1_0_0_1_n_n 128 rfl rfl c
  have l2 : dot_S100000x128_S128x128_S100000x128_1_0_0_1_n_n.lhsIdx (ix2 p q)
      ((contrEquiv1 dot_S100000x128_S128x128_S100000x128_1_0_0_1_n_n 128 rfl rfl).symm c) = ix2 p c := by
    funext ax; apply Fin.ext
    match ax with
    | ⟨0, _⟩ => exact lhs_dot_0 _ _
    | ⟨1, _⟩ => exact (lhs_dot_1 _ _).trans c2
  have r2 : dot_S100000x128_S128x128_S100000x128_1_0_0_1_n_n.rhsIdx (ix2 p q)
      ((contrEquiv1 dot_S100000x128_S128x128_S100000x128_1_0_0_1_n_n 128 rfl rfl).symm c) = ix2 c q := by
    funext ax; apply Fin.ext
    match ax with
    | ⟨0, _⟩ => exact (rhs_dot_0 _ _).trans c2
    | ⟨1, _⟩ => exact rhs_dot_1 _ _
  rw [l2, r2]

/-! ## The layer's pointwise combination at an index -/

/-- A scalar constant spread over an array reads the constant's value everywhere. -/
private theorem splat_apply {t : Shape} (h : S_.BroadcastsInDim t (![] : Fin 0 → Fin t.rank)) (c : BitVec 32) (j : t.Idx) :
    broadcastInDim t ![] h (constant (F := Ideal) S_ .f32 c) j = Ideal.ofBits .f32 c := by
  rw [broadcastInDim_apply (![] : Fin 0 → Fin t.rank) h _ j ix0 (fun a => a.elim0), constant_apply]

/-- A length-`a` array cast to a column `[a, 1]` reads, at `(i, u)`, the operand at `i`. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The inverse degrees, spread as a column and then along the channels, read the node's entry. -/
private theorem colSpread_apply (v : FVec Ideal S100000 .f32) (p : Fin 100000) (q : Fin 128) :
    broadcastInDim S100000x128 ![0, 1] bcast_S100000x1_S100000x128_0_1
      (broadcastInDim S100000x1 ![0] bcast_S100000_S100000x1_0 v) (ix2 p q) = v (ix1 p) := by
  rw [broadcastInDim_apply (![0, 1] : Fin 2 → Fin S100000x128.rank) bcast_S100000x1_S100000x128_0_1 _ (ix2 p q) (ix2 p (0 : Fin 1))
      (fun a => by match a with | ⟨0, _⟩ => rfl | ⟨1, _⟩ => rfl),
    broadcastInDim_apply (![0] : Fin 1 → Fin S100000x1.rank) bcast_S100000_S100000x1_0 _ (ix2 p (0 : Fin 1)) (ix1 p)
      (fun a => by match a with | ⟨0, _⟩ => rfl)]

/-- The bias, spread as a row and then along the nodes, reads the channel's entry. -/
private theorem rowSpread_apply (b : FVec Ideal S128 .f32) (p : Fin 100000) (q : Fin 128) :
    broadcastInDim S100000x128 ![0, 1] bcast_S1x128_S100000x128_0_1
      (broadcastInDim S1x128 ![1] bcast_S128_S1x128_1 b) (ix2 p q) = b (ix1 q) := by
  rw [broadcastInDim_apply (![0, 1] : Fin 2 → Fin S100000x128.rank) bcast_S1x128_S100000x128_0_1 _ (ix2 p q) (ix2 (0 : Fin 1) q)
      (fun a => by match a with | ⟨0, _⟩ => rfl | ⟨1, _⟩ => rfl),
    broadcastInDim_apply (![1] : Fin 1 → Fin S1x128.rank) bcast_S128_S1x128_1 _ (ix2 (0 : Fin 1) q) (ix1 q)
      (fun a => by match a with | ⟨0, _⟩ => rfl)]

theorem layerR_eq_comb (h : FVec Ideal S100000x128 .f32) (ei : IVec S2x1600000 32) (b : FVec Ideal S128 .f32)
    (hcol : S100000.ShapeCasts S100000x1) (hrow : S128.ShapeCasts S1x128) :
    layerR (F := Ideal) h ei b
      = Cert.Spec.comb (agg (F := Ideal) h ei) h (shapeCast S100000x1 (invDeg (F := Ideal) ei) hcol) (shapeCast S1x128 b hrow) := by
  funext i
  obtain ⟨p, q, rfl⟩ : ∃ (p : Fin 100000) (q : Fin 128), i = ix2 p q := ⟨i 0, i 1, eq_ix2 i⟩
  unfold layerR leakyR Cert.Spec.comb Cert.Spec.lrelu
  rw [select_apply, cmpf_apply, mulf_apply, splat_apply, id, splat_apply, addf_apply, addf_apply, mulf_apply,
    colSpread_apply, rowSpread_apply]
  show _ = Scalar.select _ _ _
  rw [shapeCast_col_apply (invDeg (F := Ideal) ei) hcol p (0 : Fin 1), shapeCast_a_1a_apply b hrow (0 : Fin 1) q]

/-! ## The sum over the nodes, tile by tile -/

/-- A sum over the 100000 nodes is the double sum over 20 tiles of 5000 rows: node `5000 t + r` is row `r` of tile `t`,
    and every node is exactly one such. -/
private theorem sum_tiles {M : Type*} [AddCommMonoid M] (G : Fin 100000 → M) :
    ∑ t : Fin 20, ∑ r : Fin 5000, G (Cert.Spec.node t r) = ∑ n : Fin 100000, G n := by
  rw [← Fintype.sum_prod_type' (fun (t : Fin 20) (r : Fin 5000) => G (Cert.Spec.node t r))]
  exact Fintype.sum_equiv (finProdFinEquiv (m := 20) (n := 5000) : Fin 20 × Fin 5000 ≃ Fin 100000) _ _
    (fun x => congrArg G (Fin.ext (by
      show 5000 * x.1.val + x.2.val = x.2.val + 5000 * x.1.val
      omega)))

theorem poolNested_eq_pool (h : FVec Ideal S100000x128 .f32) (bt : IVec S100000x1 32) :
    Cert.Spec.poolNested h bt = Cert.Spec.pool h bt := by
  funext j
  unfold Cert.Spec.poolNested Cert.Spec.pool
  exact sum_tiles (fun n => Cert.Spec.hot (bt (ix2 n (0 : Fin 1))) (j 0 : Fin 64) * h (ix2 n (j 1 : Fin 128)))

/-! ## The pooling scatter at an index -/

/-- An update lands on operand element `i` exactly when, on every operand axis, its window's start (read signed)
    plus its window coordinate is `i`'s coordinate. -/
private theorem resultIdx?_eq_some_iff {s si u : Shape} (d : ScatterDims s si u) {w : Nat} (j : u.Idx) (idx : IVec si w)
    (i : s.Idx) : d.resultIdx? j idx = some i ↔ ∀ a, d.start j idx a + (d.window j a : ℤ) = ((i a).val : ℤ) := by
  unfold ScatterDims.resultIdx?
  split
  · rename_i hb
    constructor
    · intro e a
      have e' := congrFun (Option.some.inj e) a
      rw [← e']
      exact (Int.toNat_of_nonneg (hb a).1).symm
    · intro hh
      refine congrArg some (funext fun a => Fin.ext ?_)
      show (d.start j idx a + (d.window j a : ℤ)).toNat = (i a).val
      rw [hh a]
      exact Int.toNat_natCast _
  · rename_i hb
    constructor
    · intro e
      exact absurd e (by simp)
    · intro hh
      exact absurd (fun a => by
        rw [hh a]
        exact ⟨Int.natCast_nonneg _, by exact_mod_cast (i a).isLt⟩) hb

/-- The scatter index an update row reads: the row's node, in the one column. -/
private theorem pool_siIdx (n : Fin 100000) (f' : Fin 128)
    (c : Fin scatter_S64x128_S100000x1_S100000x128_1_0_0_1.scatterDimsToOperandDims.length) :
    scatter_S64x128_S100000x1_S100000x128_1_0_0_1.siIdx (ix2 n f') c = ix2 n (0 : Fin 1) := by
  funext b; refine Fin.ext ?_
  match b with
  | ⟨0, _⟩ => rfl
  | ⟨1, _⟩ =>
    have h1 := (scatter_S64x128_S100000x1_S100000x128_1_0_0_1.siIdx (ix2 n f') c ⟨1, by decide⟩).isLt
    have h2 : S100000x1.size ⟨1, by decide⟩ = 1 := rfl
    show (scatter_S64x128_S100000x1_S100000x128_1_0_0_1.siIdx (ix2 n f') c ⟨1, by decide⟩).val = 0
    omega

/-- On the graph axis the window of update `(n, f')` starts at node `n`'s graph id, read signed. -/
private theorem pool_start_0 (idx : IVec S100000x1 32) (n : Fin 100000) (f' : Fin 128) :
    scatter_S64x128_S100000x1_S100000x128_1_0_0_1.start (ix2 n f') idx 0 = (idx (ix2 n (0 : Fin 1))).toInt := by
  unfold ScatterDims.start
  rw [dif_pos (show (0 : Fin S64x128.rank) ∈ scatter_S64x128_S100000x1_S100000x128_1_0_0_1.scatterDimsToOperandDims by decide),
    pool_siIdx]

/-- On the channel axis the window starts at 0. -/
private theorem pool_start_1 (idx : IVec S100000x1 32) (j : S100000x128.Idx) :
    scatter_S64x128_S100000x1_S100000x128_1_0_0_1.start j idx 1 = 0 := by
  unfold ScatterDims.start
  rw [dif_neg (show ¬(1 : Fin S64x128.rank) ∈ scatter_S64x128_S100000x1_S100000x128_1_0_0_1.scatterDimsToOperandDims by decide)]

/-- The graph axis is inserted: no window coordinate there. -/
private theorem pool_window_0 (j : S100000x128.Idx) :
    scatter_S64x128_S100000x1_S100000x128_1_0_0_1.window j 0 = 0 := by
  unfold ScatterDims.window
  rw [dif_neg (show ¬(0 : Fin S64x128.rank) ∈ scatter_S64x128_S100000x1_S100000x128_1_0_0_1.sKept by decide)]

/-- On the channel axis the window coordinate is the update's channel. -/
private theorem pool_window_1 (n : Fin 100000) (f' : Fin 128) :
    scatter_S64x128_S100000x1_S100000x128_1_0_0_1.window (ix2 n f') 1 = f'.val := by
  unfold ScatterDims.window
  rw [dif_pos (show (1 : Fin S64x128.rank) ∈ scatter_S64x128_S100000x1_S100000x128_1_0_0_1.sKept by decide)]
  rfl

/-- Update `(n, f')` lands on graph `g`, channel `f` exactly when node `n`'s graph id, read signed, is `g` and `f' = f`. -/
private theorem pool_lands_iff (idx : IVec S100000x1 32) (n : Fin 100000) (f' : Fin 128) (g : Fin 64) (f : Fin 128) :
    scatter_S64x128_S100000x1_S100000x128_1_0_0_1.resultIdx? (ix2 n f') idx = some (ix2 g f)
      ↔ (idx (ix2 n (0 : Fin 1))).toInt = (g.val : ℤ) ∧ f' = f := by
  rw [resultIdx?_eq_some_iff]
  constructor
  · intro hh
    have h0 := hh 0
    have h1 := hh 1
    rw [pool_start_0, pool_window_0] at h0
    rw [pool_start_1, pool_window_1] at h1
    refine ⟨by simpa using h0, Fin.ext ?_⟩
    have : ((f'.val : ℤ)) = ((f.val : ℤ)) := by simpa using h1
    exact_mod_cast this
  · rintro ⟨h0, rfl⟩ a
    match a with
    | ⟨0, _⟩ =>
      show scatter_S64x128_S100000x1_S100000x128_1_0_0_1.start (ix2 n f') idx 0
        + (scatter_S64x128_S100000x1_S100000x128_1_0_0_1.window (ix2 n f') 0 : ℤ) = (g.val : ℤ)
      rw [pool_start_0, pool_window_0, h0]; simp
    | ⟨1, _⟩ =>
      show scatter_S64x128_S100000x1_S100000x128_1_0_0_1.start (ix2 n f') idx 1
        + (scatter_S64x128_S100000x1_S100000x128_1_0_0_1.window (ix2 n f') 1 : ℤ) = (f'.val : ℤ)
      rw [pool_start_1, pool_window_1]; simp

/-- A graph id read signed is `g` exactly when the word is `g`'s. -/
private theorem toInt_eq_graph_iff (b : BitVec 32) (g : Fin 64) :
    b.toInt = (g.val : ℤ) ↔ b = BitVec.ofNat 32 g.val := by
  have hg : g.val < 2 ^ 31 := by have := g.isLt; omega
  constructor
  · intro hb
    exact BitVec.eq_of_toInt_eq (hb.trans (StableHlo.Predicate.toInt_ofNat_small g.val hg).symm)
  · rintro rfl
    exact StableHlo.Predicate.toInt_ofNat_small g.val hg

/-- The indicator is 1 on the graph's own word and 0 on every other. -/
private theorem hot_eq (b : BitVec 32) (g : Fin 64) :
    Cert.Spec.hot b g = if b = BitVec.ofNat 32 g.val then 1 else 0 := by
  unfold Cert.Spec.hot
  show ((((IntOp.cmpi .eq b (BitVec.ofNat 32 g.val)).setWidth 32).toInt : ℝ) : EReal) = _
  by_cases hb : b = BitVec.ofNat 32 g.val
  · rw [if_pos hb, StableHlo.Predicate.cmpi_eq_iff.mpr hb]
    have h1 : ((1#1 : BitVec 1).setWidth 32).toInt = 1 := by decide
    rw [h1]; simp
  · rw [if_neg hb, eq_zero_of_ne_one (fun h => hb (StableHlo.Predicate.cmpi_eq_iff.mp h))]
    have h0 : ((0#1 : BitVec 1).setWidth 32).toInt = 0 := by decide
    rw [h0]; simp

theorem poolR_eq_pool (h : FVec Ideal S100000x128 .f32) (bt : IVec S100000 32) (hcol : S100000.ShapeCasts S100000x1) :
    poolR (F := Ideal) h bt = Cert.Spec.pool h (shapeCast S100000x1 bt hcol) := by
  funext i
  obtain ⟨g, f, rfl⟩ : ∃ (g : Fin 64) (f : Fin 128), i = ix2 g f := ⟨i 0, i 1, eq_ix2 i⟩
  unfold poolR Cert.Spec.pool Host.scatterAdd
  rw [Ideal.hostScatterAdd_def]
  unfold Ideal.hostScatterAdd
  show broadcastInDim S64x128 ![] bcast_S_S64x128 (constant (F := Ideal) S_ .f32 0x00000000#32) (ix2 g f)
      + ∑ j ∈ Finset.univ.filter (fun j => scatter_S64x128_S100000x1_S100000x128_1_0_0_1.resultIdx? j
          (broadcastInDim S100000x1 ![0] bcast_S100000_S100000x1_0 bt) = some (ix2 g f)), h j
    = ∑ n : Fin 100000, Cert.Spec.hot (shapeCast S100000x1 bt hcol (ix2 n (0 : Fin 1))) g * h (ix2 n f)
  rw [splat_apply, Ideal.ofBits_zero_f32, zero_add, Finset.sum_filter, sum_idx2]
  refine Finset.sum_congr rfl fun n _ => ?_
  have hI : broadcastInDim S100000x1 ![0] bcast_S100000_S100000x1_0 bt (ix2 n (0 : Fin 1)) = bt (ix1 n) :=
    broadcastInDim_apply (![0] : Fin 1 → Fin S100000x1.rank) bcast_S100000_S100000x1_0 _ (ix2 n (0 : Fin 1)) (ix1 n)
      (fun a => by match a with | ⟨0, _⟩ => rfl)
  rw [shapeCast_col_apply bt hcol n (0 : Fin 1), hot_eq]
  by_cases hb : bt (ix1 n) = BitVec.ofNat 32 g.val
  · rw [if_pos hb, one_mul, Finset.sum_eq_single f]
    · rw [if_pos ((pool_lands_iff _ n f g f).mpr ⟨by rw [hI]; exact (toInt_eq_graph_iff _ g).mpr hb, rfl⟩)]
    · intro f' _ hne
      rw [if_neg (fun hl => hne ((pool_lands_iff _ n f' g f).mp hl).2)]
    · intro hf
      exact absurd (Finset.mem_univ f) hf
  · rw [if_neg hb, zero_mul]
    refine Finset.sum_eq_zero fun f' _ => ?_
    rw [if_neg (fun hl => hb ((toInt_eq_graph_iff _ g).mp (by
      rw [← hI]; exact ((pool_lands_iff _ n f' g f).mp hl).1)))]

theorem kerRes_eq_refRes (hcol : S100000.ShapeCasts S100000x1) (hrow : S128.ShapeCasts S1x128)
    (x : FVec Ideal S100000x128 .f32) (ei : IVec S2x1600000 32) (bt : IVec S100000 32) (w1 : FVec Ideal S128x128 .f32)
    (b1 : FVec Ideal S128 .f32) (w2 : FVec Ideal S128x128 .f32) (b2 : FVec Ideal S128 .f32) (fw : FVec Ideal S128x1 .f32) (fb : FVec Ideal S1 .f32) :
    kerRes (F := Ideal) Cert.Spec.mm Cert.Spec.comb Cert.Spec.poolNested hcol hrow x ei bt w1 b1 w2 b2 fw fb
      = refRes (F := Ideal) x ei bt w1 b1 w2 b2 fw fb := by
  unfold kerRes refRes
  simp only [dotR_eq_mm, layerR_eq_comb _ _ _ hcol hrow, poolR_eq_pool _ _ hcol, poolNested_eq_pool]

end Cert.Bridge

end
-- ==== Proof.lean ====
/-
  The certificate of a two-layer graph convolution network with mean pooling: the kernel program (five kernel regions —
  two feature transforms `X · W`, two combinations "neighbour sum + own row over the degree + bias, leaky rectifier", one
  per-graph sum taken as a one-hot matrix product accumulated over 20 tiles — among host stretches that gather along the
  edges and scatter-add) against the plain reference.

  The frames: each region is a segment of @main entered from the contents the items before it leave and left at what
  its write-backs leave (Proof/Reg0 … Reg4, Seg0 … Seg4, Fold, Run); no item writes an argument (Keep, Frame). The
  reference is a straight-line host program; its run is read back stage by stage (RefRun).

  The values, over the extended reals: a region's output array is one whole-array function of its input arrays
  (Val0 … Val4: the matrix product as the exact sum over the 128 channels, the combination index by index, the pooled
  sum tile by tile); between the regions both programs apply the SAME host stages (Stages), so the kernel program's
  result is the composition `kerRes` and the reference's `refRes` (KVal, RefRun); and the three places where the two
  differ in form agree (Bridge): the host's dot_general is that sum, the reference's layer is that combination read
  pointwise, and the scatter-add by graph id is the one-hot sum — an id outside 0 … 63 selects no graph on either side,
  a product with the indicator 0 is 0 on the extended reals, and sums there may be regrouped freely. No step uses
  that the inputs are finite.
-/
import proofs.«423604_j68796786147746_2_alg».proof.Defs
import proofs.«423604_j68796786147746_2_alg».proof.Proof.Gen.Kernel
import proofs.«423604_j68796786147746_2_alg».proof.Proof.Gen.KernelIdeal
import proofs.«423604_j68796786147746_2_alg».proof.Proof.Gen.ReferenceIdeal
import proofs.«423604_j68796786147746_2_alg».proof.Proof.Gen.Pre_finite_inputs
import proofs.«423604_j68796786147746_2_alg».proof.Proof.Frame
import proofs.«423604_j68796786147746_2_alg».proof.Proof.Bits.Frame
import proofs.«423604_j68796786147746_2_alg».proof.Proof.KVal
import proofs.«423604_j68796786147746_2_alg».proof.Proof.RefRun
import proofs.«423604_j68796786147746_2_alg».proof.Proof.Bridge

noncomputable section

namespace Cert.Proof

open Idealize.ShloMosaic Idealize.ShloMosaic.TcCoe Idealize.SL.Sem

/-- The word-level kernel program runs to the end and leaves its arguments as launched. -/
theorem frame_K : Cert.frame_Kernel := fun m ρ _ => Cert.Kernel.Hand.frame (F := Bits) m ρ

/-- So does the idealized kernel program. -/
theorem frame_KI : Cert.frame_KernelIdeal := fun m ρ _ => Cert.KernelIdeal.Hand.frame (F := Ideal) m ρ

/-- So does the idealized reference: its run with the result dropped. -/
theorem frame_R : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories agreeing on the arguments both idealized programs end with the same result: the kernel program's is
    `kerRes` of the arguments, the reference's `refRes`, and the two compositions are one function. -/
theorem algebraic : Cert.algebraic_KernelIdeal_ReferenceIdeal := by
  intro m ρ m' ρ' _ hagree
  refine ⟨fun c => Cert.KernelIdeal.Hand.W10 (F := Ideal) m c (Proc.devRef .tc Cert.KernelIdeal.main_v77),
    Cert.KernelIdeal.Hand.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8⟩ := hagree c
  rw [h0, h1, h2, h3, h4, h5, h6, h7, h8]
  show _ = Cert.KernelIdeal.Hand.W10 (F := Ideal) m c (Proc.devRef .tc Cert.KernelIdeal.main_v77)
  rw [Cert.KernelIdeal.Hand.kval m c Cert.KernelIdeal.Facts₀.shapeCasts_S100000_S100000x1 Cert.KernelIdeal.Facts₀.shapeCasts_S128_S1x128,
    Cert.Bridge.kerRes_eq_refRes]

theorem claim : Cert.Claim := ⟨Cert.Kernel.Gen.facts, Cert.KernelIdeal.Gen.facts, Cert.ReferenceIdeal.Gen.facts, Cert.Pre_finite_inputs.Gen.facts,
  frame_K, frame_KI, frame_R, preserves, algebraic⟩

end Cert.Proof

end
